-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x800000 : Shape := ⟨2, ![2, 800000]⟩
abbrev S2x64 : Shape := ⟨2, ![2, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S2x800000 32) (main_arg15 : FVec F S64 .f32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg2 main_v79
  let main_c_31 : IVec S_ 32 := constantI S_ 32 100000#32
  let main_v81 : IVec S2x800000 32 := broadcastInDim S2x800000 ![] bcast_S_S2x800000 main_c_31
  let main_v82 : IVec S2x800000 1 := cmpi .slt main_arg2 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg2 : IVec S2x800000 32) (main_arg12 : FVec F S64 .f32) (main_arg13 : FVec F S64x64 .f32) (main_arg14 : FVec F S64 .f32) (main_arg15 : FVec F S64 .f32) (main_arg16 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg15 main_arg16 main_v63 main_v67

def fn_part2 {F : FTy → Type} [FloatOps F] (main_arg2 : IVec S2x800000 32) (main_arg8 : FVec F S64 .f32) (main_arg9 : FVec F S64x64 .f32) (main_arg10 : FVec F S64 .f32) (main_arg11 : FVec F S128x64 .f32) (main_arg12 : FVec F S64 .f32) (main_arg13 : FVec F S64x64 .f32) (main_arg14 : FVec F S64 .f32) (main_arg15 : FVec F S64 .f32) (main_arg16 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg2 main_arg12 main_arg13 main_arg14 main_arg15 main_arg16 main_v48 main_v49 main_v50

def fn_part1 {F : FTy → Type} [FloatOps F] (main_arg2 : IVec S2x800000 32) (main_arg5 : FVec F S64x64 .f32) (main_arg6 : FVec F S64 .f32) (main_arg7 : FVec F S2x64 .f32) (main_arg8 : FVec F S64 .f32) (main_arg9 : FVec F S64x64 .f32) (main_arg10 : FVec F S64 .f32) (main_arg11 : FVec F S128x64 .f32) (main_arg12 : FVec F S64 .f32) (main_arg13 : FVec F S64x64 .f32) (main_arg14 : FVec F S64 .f32) (main_arg15 : FVec F S64 .f32) (main_arg16 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S100000x2 .f32) (main_arg1 : FVec F S100000x2 .f32) (main_arg2 : IVec S2x800000 32) (main_arg3 : FVec F S2x64 .f32) (main_arg4 : FVec F S64 .f32) (main_arg5 : FVec F S64x64 .f32) (main_arg6 : FVec F S64 .f32) (main_arg7 : FVec F S2x64 .f32) (main_arg8 : FVec F S64 .f32) (main_arg9 : FVec F S64x64 .f32) (main_arg10 : FVec F S64 .f32) (main_arg11 : FVec F S128x64 .f32) (main_arg12 : FVec F S64 .f32) (main_arg13 : FVec F S64x64 .f32) (main_arg14 : FVec F S64 .f32) (main_arg15 : FVec F S64 .f32) (main_arg16 : FVec F S64 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S100000x2 : Shape := ⟨2, ![100000, 2]⟩
abbrev S2x800000 : Shape := ⟨2, ![2, 800000]⟩
abbrev S2x64 : Shape := ⟨2, ![2, 64]⟩
abbrev S64 : Shape := ⟨1, ![64]⟩
abbrev S64x64 : Shape := ⟨2, ![64, 64]⟩
abbrev S128x64 : Shape := ⟨2, ![128, 64]⟩
abbrev S100000x64 : Shape := ⟨2, ![100000, 64]⟩
abbrev S5000x2 : Shape := ⟨2, ![5000, 2]⟩
abbrev S5000x64 : Shape := ⟨2, ![5000, 64]⟩
abbrev S1x64 : Shape := ⟨2, ![1, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S8000x64 : Shape := ⟨2, ![8000, 64]⟩
abbrev S100000 : Shape := ⟨1, ![100000]⟩
abbrev S100000x1 : Shape := ⟨2, ![100000, 1]⟩

abbrev nBuf : Space → Nat
  | .hbm => 103
  | .vmem => 36
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S2x800000, .i32⟩
  | .hbm, ⟨3, _⟩ => ⟨S2x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S100000x64, .f32⟩
  | .hbm, ⟨18, _⟩ => ⟨S100000x64, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S1, .i32⟩
  | .hbm, ⟨32, _⟩ => ⟨S_, .i32⟩
  | .hbm, ⟨33, _⟩ => ⟨S800000x1, .i32⟩
  | .hbm, ⟨34, _⟩ => ⟨S800000x1, .i1⟩
  | .hbm, ⟨35, _⟩ => ⟨S1x1, .i32⟩
  | .hbm, ⟨36, _⟩ => ⟨S800000x1, .i32⟩
  | .hbm, ⟨37, _⟩ => ⟨S800000x1, .i1⟩
  | .hbm, ⟨38, _⟩ => ⟨S800000x1, .i1⟩
  | .hbm, ⟨39, _⟩ => ⟨S_, .i1⟩
  | .hbm, ⟨40, _⟩ => ⟨S800000, .i1⟩
  | .hbm, ⟨41, _⟩ => ⟨S800000x64, .f32⟩
  | .hbm, ⟨42, _⟩ => ⟨S800000x64, .i1⟩
  | .hbm, ⟨43, _⟩ => ⟨S_, .f32⟩
  | .hbm, ⟨44, _⟩ => ⟨S800000x64, .f32⟩
  | .hbm, ⟨45, _⟩ => ⟨S800000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S1, .i32⟩
  | .hbm, ⟨55, _⟩ => ⟨S_, .i32⟩
  | .hbm, ⟨56, _⟩ => ⟨S800000x1, .i32⟩
  | .hbm, ⟨57, _⟩ => ⟨S800000x1, .i1⟩
  | .hbm, ⟨58, _⟩ => ⟨S1x1, .i32⟩
  | .hbm, ⟨59, _⟩ => ⟨S800000x1, .i32⟩
  | .hbm, ⟨60, _⟩ => ⟨S800000x1, .i1⟩
  | .hbm, ⟨61, _⟩ => ⟨S800000x1, .i1⟩
  | .hbm, ⟨62, _⟩ => ⟨S_, .i1⟩
  | .hbm, ⟨63, _⟩ => ⟨S800000, .i1⟩
  | .hbm, ⟨64, _⟩ => ⟨S800000x64, .f32⟩
  | .hbm, ⟨65, _⟩ => ⟨S800000x64, .i1⟩
  | .hbm, ⟨66, _⟩ => ⟨S_, .f32⟩
  | .hbm, ⟨67, _⟩ => ⟨S800000x64, .f32⟩
  | .hbm, ⟨68, _⟩ => ⟨S800000x64, .f32⟩
  | .hbm, ⟨69, _⟩ => ⟨S800000x64, .f32⟩
  | .hbm, ⟨70, _⟩ => ⟨S1x64, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S800000x64, .f32⟩
  | .hbm, ⟨87, _⟩ => ⟨S_, .f32⟩
  | .hbm, ⟨88, _⟩ => ⟨S100000x64, .f32⟩
  | .hbm, ⟨89, _⟩ => ⟨S800000x1, .i32⟩
  | .hbm, ⟨90, _⟩ => ⟨S100000x64, .f32⟩
  | .hbm, ⟨91, _⟩ => ⟨S_, .f32⟩
  | .hbm, ⟨92, _⟩ => ⟨S800000, .f32⟩
  | .hbm, ⟨93, _⟩ => ⟨S_, .f32⟩
  | .hbm, ⟨94, _⟩ => ⟨S100000, .f32⟩
  | .hbm, ⟨95, _⟩ => ⟨S800000x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x64, .f32⟩
  | .hbm, ⟨102, _⟩ => ⟨S100000x64, .f32⟩
  | .local _ .vmem, ⟨0, _⟩ => ⟨S5000x2, .f32⟩
  | .local _ .vmem, ⟨1, _⟩ => ⟨S5000x2, .f32⟩
  | .local _ .vmem, ⟨2, _⟩ => ⟨S2x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x2, .f32⟩
  | .local _ .vmem, ⟨9, _⟩ => ⟨S5000x2, .f32⟩
  | .local _ .vmem, ⟨10, _⟩ => ⟨S2x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S128x64, .f32⟩
  | .local _ .vmem, ⟨21, _⟩ => ⟨S64, .f32⟩
  | .local _ .vmem, ⟨22, _⟩ => ⟨S64x64, .f32⟩
  | .local _ .vmem, ⟨23, _⟩ => ⟨S64, .f32⟩
  | .local _ .vmem, ⟨24, _⟩ => ⟨S8000x64, .f32⟩
  | .local _ .vmem, ⟨25, _⟩ => ⟨S8000x64, .f32⟩
  | .local _ .vmem, ⟨26, _⟩ => ⟨S1x64, .f32⟩
  | .local _ .vmem, ⟨27, _⟩ => ⟨S1x64, .f32⟩
  | .local _ .vmem, ⟨28, _⟩ => ⟨S8000x64, .f32⟩
  | .local _ .vmem, ⟨29, _⟩ => ⟨S8000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S8000x64, .f32⟩
  | .local _ .vmem, ⟨35, _⟩ => ⟨S8000x64, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v6 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v7 : Ref sig .tc := ⟨.hbm, 68, rfl⟩
abbrev main_v8_0 : Ref sig .tc := ⟨.hbm, 69, rfl⟩
abbrev main_v8_1 : Ref sig .tc := ⟨.hbm, 70, rfl⟩
abbrev main_v8_2 : Ref sig .tc := ⟨.hbm, 71, rfl⟩
abbrev main_cst : Ref sig .tc := ⟨.hbm, 72, rfl⟩
abbrev main_v9 : Ref sig .tc := ⟨.hbm, 73, rfl⟩
abbrev main_v10 : Ref sig .tc := ⟨.hbm, 74, rfl⟩
abbrev main_cst_0 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_cst_1 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_cst_2 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_cst_3 : Ref sig .tc := ⟨.hbm, 91, rfl⟩
abbrev main_v24 : Ref sig .tc := ⟨.hbm, 92, rfl⟩
abbrev main_cst_4 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_cst_5 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg8_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem8_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S1x64_S1x64_0_0 : ∀ a, (![0, 0] : Fin 2 → Nat) a + S1x64.size a ≤ S1x64.size a
  h_S1x64 : 0 < S1x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  broadcasts_S1x64_S8000x64 : S1x64.Broadcasts S8000x64
  shapeCasts_S1x64_S1x64 : S1x64.ShapeCasts S1x64
  reduces_S8000x64_S64 : S8000x64.Reduces [0] S64
  bcast_S_S1x64 : S_.BroadcastsInDim S1x64 (![] : Fin 0 → Fin S1x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S5000x2_S2x64_S5000x64_1_0_0_1_n_n_wf : DotDims.WF S5000x2 S2x64 S5000x64 [1] [0] [0] [1] [] []
  dot_S5000x64_S64x64_S5000x64_1_0_0_1_n_n_wf : DotDims.WF S5000x64 S64x64 S5000x64 [1] [0] [0] [1] [] []
  gather_S100000x64_S800000x1_S800000x64_1_0_n_n_0_1_164_wf : GatherDims.WF S100000x64 S800000x1 S800000x64 [1] [0] [] [0] [] 1 ![1, 64]
  dot_S8000x64_S64x64_S8000x64_1_0_0_1_n_n_wf : DotDims.WF S8000x64 S64x64 S8000x64 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S100000x2.size a
  hwx1_0 : ∀ i : grid1.Coords, EltTy.bits .f32 = 32 ∨ (Rect.block (s := S100000x2) S5000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x64.size a ≤ S800000x64.size a
  hwx2_6 : ∀ i : grid2.Coords, EltTy.bits .f32 = 32 ∨ (Rect.block (s := S800000x64) S8000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S800000x64.size a
  hwx3_5 : ∀ i : grid3.Coords, EltTy.bits .f32 = 32 ∨ (Rect.block (s := S800000x64) S8000x64.size (cc3_transform_5 i) (hinb3_5 i)).WholeWords (EltTy.packing .f32)

variable [Facts₀]

def dot_S5000x2_S2x64_S5000x64_1_0_0_1_n_n : DotDims S5000x2 S2x64 S5000x64 where
  lhsContracting := [1]
  rhsContracting := [0]
  lhsNonContracting := [0]
  rhsNonContracting := [1]
  lhsBatch := []
  rhsBatch := []
  wf := dot_S5000x2_S2x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8_0) S8000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v8_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v8_0) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20) S8000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x800000 : Shape := ⟨2, ![2, 800000]⟩
abbrev S2x64 : Shape := ⟨2, ![2, 64]⟩
abbrev S64 : Shape := ⟨1, ![64]⟩
abbrev S64x64 : Shape := ⟨2, ![64, 64]⟩
abbrev S128x64 : Shape := ⟨2, ![128, 64]⟩
abbrev S100000x64 : Shape := ⟨2, ![100000, 64]⟩
abbrev S1x64 : Shape := ⟨2, ![1, 64]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S800000x128 : Shape := ⟨2, ![800000, 128]⟩
abbrev S100000 : Shape := ⟨1, ![100000]⟩
abbrev S100000x1 : Shape := ⟨2, ![100000, 1]⟩

abbrev nBuf : Space → Nat
  | .hbm => 136
  | .vmem => 0
  | .smem => 0
  | _ => 0

abbrev hbmTy0_0 (i : Nat) : BufTy := match i % 128 with
  | 0 => ⟨S100000x2, .f32⟩
  | 1 => ⟨S100000x2, .f32⟩
  | 2 => ⟨S2x800000, .i32⟩
  | 3 => ⟨S2x64, .f32⟩
  | 4 => ⟨S64, .f32⟩
  | 5 => ⟨S64x64, .f32⟩
  | 6 => ⟨S64, .f32⟩
  | 7 => ⟨S2x64, .f32⟩
  | 8 => ⟨S64, .f32⟩
  | 9 => ⟨S64x64, .f32⟩
  | 10 => ⟨S64, .f32⟩
  | 11 => ⟨S128x64, .f32⟩
  | 12 => ⟨S64, .f32⟩
  | 13 => ⟨S64x64, .f32⟩
  | 14 => ⟨S64, .f32⟩
  | 15 => ⟨S64, .f32⟩
  | 16 => ⟨S64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S1x800000, .i32⟩
  | 40 => ⟨S800000, .i32⟩
  | 41 => ⟨S1x800000, .i32⟩
  | 42 => ⟨S800000, .i32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x128, .f32⟩
  | 62 => ⟨S800000x64, .f32⟩
  | 63 => ⟨S1x64, .f32⟩
  | 64 => ⟨S800000x64, .f32⟩
  | 65 => ⟨S800000x64, .f32⟩
  | 66 => ⟨S_, .f32⟩
  | 67 => ⟨S800000x64, .f32⟩
  | 68 => ⟨S800000x64, .f32⟩
  | 69 => ⟨S800000x64, .f32⟩
  | 70 => ⟨S1x64, .f32⟩
  | 71 => ⟨S800000x64, .f32⟩
  | 72 => ⟨S800000x64, .f32⟩
  | 73 => ⟨S_, .f32⟩
  | 74 => ⟨S800000x64, .f32⟩
  | 75 => ⟨S800000x64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S800000x64, .f32⟩
  | 89 => ⟨S800000x64, .f32⟩
  | 90 => ⟨S800000x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S800000x64, .f32⟩
  | 106 => ⟨S800000x64, .f32⟩
  | 107 => ⟨S_, .f32⟩
  | 108 => ⟨S64, .f32⟩
  | 109 => ⟨S64, .f32⟩
  | 110 => ⟨S64, .f32⟩
  | 111 => ⟨S1x64, .f32⟩
  | 112 => ⟨S800000x64, .f32⟩
  | 113 => ⟨S800000x64, .f32⟩
  | 114 => ⟨S1x64, .f32⟩
  | 115 => ⟨S800000x64, .f32⟩
  | 116 => ⟨S800000x64, .f32⟩
  | 117 => ⟨S1x64, .f32⟩
  | 118 => ⟨S800000x64, .f32⟩
  | 119 => ⟨S800000x64, .f32⟩
  | 120 => ⟨S_, .f32⟩
  | 121 => ⟨S100000x64, .f32⟩
  | 122 => ⟨S800000x1, .i32⟩
  | 123 => ⟨S100000x64, .f32⟩
  | 124 => ⟨S_, .f32⟩
  | 125 => ⟨S800000, .f32⟩
  | 126 => ⟨S_, .f32⟩
  | 127 => ⟨S100000, .f32⟩
  | _ => ⟨S100000x2, .f32⟩

abbrev hbmTy0_1 (i : Nat) : BufTy := match i % 128 with
  | 0 => ⟨S800000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x64, .f32⟩
  | 7 => ⟨S100000x64, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_cst : Ref sig .tc := ⟨.hbm, 32, rfl⟩
abbrev main_call1_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_1 : Ref sig .tc := ⟨.hbm, 52, rfl⟩
abbrev main_v29 : Ref sig .tc := ⟨.hbm, 53, rfl⟩
abbrev main_v30 : Ref sig .tc := ⟨.hbm, 54, rfl⟩
abbrev main_c_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_cst : Ref sig .tc := ⟨.hbm, 66, rfl⟩
abbrev main_call2_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call3_cst : Ref sig .tc := ⟨.hbm, 73, rfl⟩
abbrev main_call3_v0 : Ref sig .tc := ⟨.hbm, 74, rfl⟩
abbrev main_v46 : Ref sig .tc := ⟨.hbm, 75, rfl⟩
abbrev main_cst : Ref sig .tc := ⟨.hbm, 76, rfl⟩
abbrev main_v47 : Ref sig .tc := ⟨.hbm, 77, rfl⟩
abbrev main_cst_3 : Ref sig .tc := ⟨.hbm, 78, rfl⟩
abbrev main_v48 : Ref sig .tc := ⟨.hbm, 79, rfl⟩
abbrev main_v49 : Ref sig .tc := ⟨.hbm, 80, rfl⟩
abbrev main_c_4 : Ref sig .tc := ⟨.hbm, 81, rfl⟩
abbrev main_call4_cst : Ref sig .tc := ⟨.hbm, 82, rfl⟩
abbrev main_call4_v0 : Ref sig .tc := ⟨.hbm, 83, rfl⟩
abbrev main_call4_v1 : Ref sig .tc := ⟨.hbm, 84, rfl⟩
abbrev main_call4_cst_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_v6 : Ref sig .tc := ⟨.hbm, 90, rfl⟩
abbrev main_call4_v7 : Ref sig .tc := ⟨.hbm, 91, rfl⟩
abbrev main_call4_cst_1 : Ref sig .tc := ⟨.hbm, 92, rfl⟩
abbrev main_call4_v8 : Ref sig .tc := ⟨.hbm, 93, rfl⟩
abbrev main_call4_cst_2 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_cst_3 : Ref sig .tc := ⟨.hbm, 98, rfl⟩
abbrev main_call4_v12 : Ref sig .tc := ⟨.hbm, 99, rfl⟩
abbrev main_call4_cst_4 : Ref sig .tc := ⟨.hbm, 100, rfl⟩
abbrev main_call4_call0_v0 : Ref sig .tc := ⟨.hbm, 101, rfl⟩
abbrev main_call4_call0_v1 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_cst_5 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_6 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_7 : Ref sig .tc := ⟨.hbm, 124, rfl⟩
abbrev main_v69 : Ref sig .tc := ⟨.hbm, 125, rfl⟩
abbrev main_cst_8 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_9 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  reducesTo_S800000x64_S64_d0 : S800000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x2_S2x64_S100000x64_1_0_0_1_n_n_wf : DotDims.WF S100000x2 S2x64 S100000x64 [1] [0] [0] [1] [] []
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1

variable [Facts₀]

def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.Spec.lean ====
/-
  The mathematics both programs compute, stated once over the extended reals and over explicit coordinates.

  A node encoder is two affine layers with a rectifier between them; an edge's message is a two-layer rectified
  network on the pair (target row, source row), whose first layer multiplies the target row by the upper half of
  the weight matrix and the source row by the lower half; the messages are then standardised per feature column
  with the column's mean and variance over all edges (batch normalisation), scaled and shifted.
  The variance is written twice: as the mean of squares minus the squared mean (`varK`), and as the mean squared
  deviation from the mean (`varR`); they agree on real-valued columns.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns. -/
abbrev Mat (r c : Nat) : Type := (⟨2, ![r, c]⟩ : Shape).Idx → EReal
/-- A vector of extended reals of length `n`. -/
abbrev Row (n : Nat) : Type := (⟨1, ![n]⟩ : Shape).Idx → EReal

/-- The number of edges, 800000, as the single-precision word both programs divide by. -/
abbrev nE : EReal := Ideal.ofBits .f32 0x49435000#32
/-- The variance offset, the single-precision word nearest 1e-5, which both programs add under the square root. -/
abbrev eps : EReal := Ideal.ofBits .f32 0x3727C5AC#32

/-- One entry of an affine layer: row `n` of `x` against column `k` of `w`, plus the bias. -/
def linAt {N a B : Nat} (x : Mat N a) (w : Mat a B) (b : Row B) (n : Fin N) (k : Fin B) : EReal :=
  (∑ d : Fin a, x (ix2 n d) * w (ix2 d k)) + b (ix1 k)

/-- One entry of a node encoder: affine, rectifier, affine. -/
def encAt {N a : Nat} (x : Mat N a) (w1 : Mat a 64) (b1 : Row 64) (w2 : Mat 64 64) (b2 : Row 64)
    (n : Fin N) (k : Fin 64) : EReal :=
  (∑ h : Fin 64, max (linAt x w1 b1 n h) 0 * w2 (ix2 h k)) + b2 (ix1 k)

/-- The node encoder as a matrix. -/
def enc {N a : Nat} (x : Mat N a) (w1 : Mat a 64) (b1 : Row 64) (w2 : Mat 64 64) (b2 : Row 64) : Mat N 64 :=
  fun i => encAt x w1 b1 w2 b2 (i 0) (i 1)

theorem enc_ix2 {N a : Nat} (x : Mat N a) (w1 : Mat a 64) (b1 : Row 64) (w2 : Mat 64 64) (b2 : Row 64)
    (n : Fin N) (k : Fin 64) : enc x w1 b1 w2 b2 (ix2 n k) = encAt x w1 b1 w2 b2 n k := rfl

/-- Row `d` of the upper half of a 128-row matrix. -/
abbrev upper (d : Fin 64) : Fin 128 := ⟨d.val, by omega⟩
/-- Row `d` of the lower half of a 128-row matrix. -/
abbrev lower (d : Fin 64) : Fin 128 := ⟨64 + d.val, by omega⟩

/-- The hidden layer of an edge's message: the target row against the upper half of `w1`, the source row against
    the lower half, the bias, the rectifier. -/
def hidAt {E : Nat} (tg sg : Mat E 64) (w1 : Mat 128 64) (b1 : Row 64) (e : Fin E) (h : Fin 64) : EReal :=
  max ((∑ d : Fin 64, tg (ix2 e d) * w1 (ix2 (upper d) h)) + (∑ d : Fin 64, sg (ix2 e d) * w1 (ix2 (lower d) h))
    + b1 (ix1 h)) 0

/-- One entry of an edge's message: the hidden layer, an affine layer, the rectifier. -/
def msgAt {E : Nat} (tg sg : Mat E 64) (w1 : Mat 128 64) (b1 : Row 64) (w2 : Mat 64 64) (b2 : Row 64)
    (e : Fin E) (k : Fin 64) : EReal :=
  max ((∑ h : Fin 64, hidAt tg sg w1 b1 e h * w2 (ix2 h k)) + b2 (ix1 k)) 0

/-- The messages as a matrix. -/
def msg {E : Nat} (tg sg : Mat E 64) (w1 : Mat 128 64) (b1 : Row 64) (w2 : Mat 64 64) (b2 : Row 64) : Mat E 64 :=
  fun i => msgAt tg sg w1 b1 w2 b2 (i 0) (i 1)

theorem msg_ix2 {E : Nat} (tg sg : Mat E 64) (w1 : Mat 128 64) (b1 : Row 64) (w2 : Mat 64 64) (b2 : Row 64)
    (e : Fin E) (k : Fin 64) : msg tg sg w1 b1 w2 b2 (ix2 e k) = msgAt tg sg w1 b1 w2 b2 e k := rfl

/-- A column's sum over all rows. -/
def colsum {E : Nat} (m : Mat E 64) (k : Fin 64) : EReal := ∑ e : Fin E, m (ix2 e k)
/-- A column's sum of squares over all rows. -/
def colsumsq {E : Nat} (m : Mat E 64) (k : Fin 64) : EReal := ∑ e : Fin E, m (ix2 e k) * m (ix2 e k)

/-- A column's mean. -/
def mean {E : Nat} (m : Mat E 64) (k : Fin 64) : EReal := Ideal.div (colsum m k) nE
/-- A column's variance as the mean of squares minus the squared mean. -/
def varK {E : Nat} (m : Mat E 64) (k : Fin 64) : EReal := Ideal.div (colsumsq m k) nE - mean m k * mean m k
/-- A column's variance as the mean squared deviation from the mean. -/
def varR {E : Nat} (m : Mat E 64) (k : Fin 64) : EReal :=
  Ideal.div (∑ e : Fin E, (m (ix2 e k) - mean m k) * (m (ix2 e k) - mean m k)) nE
/-- The reciprocal standard deviation from either variance. -/
def rstdK {E : Nat} (m : Mat E 64) (k : Fin 64) : EReal := Ideal.rsqrt (varK m k + eps)
def rstdR {E : Nat} (m : Mat E 64) (k : Fin 64) : EReal := Ideal.rsqrt (varR m k + eps)

/-- One standardised entry: centre, scale by the reciprocal deviation, then by `γ`, shift by `β`. -/
def bnAt {E : Nat} (m : Mat E 64) (mu rs : Fin 64 → EReal) (γ β : Row 64) (e : Fin E) (k : Fin 64) : EReal :=
  (m (ix2 e k) - mu k) * rs k * γ (ix1 k) + β (ix1 k)

/-- The standardised matrix with the variance as the mean of squares minus the squared mean. -/
def bnK {E : Nat} (m : Mat E 64) (γ β : Row 64) : Mat E 64 := fun i => bnAt m (mean m) (rstdK m) γ β (i 0) (i 1)
/-- The standardised matrix with the variance as the mean squared deviation. -/
def bnR {E : Nat} (m : Mat E 64) (γ β : Row 64) : Mat E 64 := fun i => bnAt m (mean m) (rstdR m) γ β (i 0) (i 1)

theorem bnK_ix2 {E : Nat} (m : Mat E 64) (γ β : Row 64) (e : Fin E) (k : Fin 64) :
    bnK m γ β (ix2 e k) = bnAt m (mean m) (rstdK m) γ β e k := rfl
theorem bnR_ix2 {E : Nat} (m : Mat E 64) (γ β : Row 64) (e : Fin E) (k : Fin 64) :
    bnR m γ β (ix2 e k) = bnAt m (mean m) (rstdR m) γ β e k := rfl

/-- Every entry is a real number. -/
def IsReal {s : Shape} (x : s.Idx → EReal) : Prop := ∀ i, ∃ r : ℝ, x i = (r : EReal)

end Cert.Spec

end
-- ==== Proof.SpecReal.lean ====
import proofs.«401209_j58256936403066_1_alg».proof.Proof.Spec
import Idealize.ShloMosaic.PureOps.Ideal.Laws

noncomputable section

open scoped BigOperators

namespace Cert.Spec

open Idealize.ShloMosaic Idealize.ShloMosaic.ValueIdx

/-- An extended real that is a real number. -/
private def R (x : EReal) : Prop := ∃ r : ℝ, x = (r : EReal)

private theorem R.add {x y : EReal} (hx : R x) (hy : R y) : R (x + y) := by
  obtain ⟨a, rfl⟩ := hx; obtain ⟨b, rfl⟩ := hy; exact ⟨a + b, (EReal.coe_add a b).symm⟩

private theorem R.mul {x y : EReal} (hx : R x) (hy : R y) : R (x * y) := by
  obtain ⟨a, rfl⟩ := hx; obtain ⟨b, rfl⟩ := hy; exact ⟨a * b, (EReal.coe_mul a b).symm⟩

/-- The rectifier of a real is real: the larger of two reals. -/
private theorem R.max0 {x : EReal} (hx : R x) : R (max x 0) := by
  obtain ⟨a, rfl⟩ := hx
  rcases le_total (a : EReal) 0 with h | h
  · exact ⟨0, by rw [max_eq_right h, EReal.coe_zero]⟩
  · exact ⟨a, max_eq_left h⟩

/-- A finite sum of coerced reals is the coerced sum. -/
private theorem coe_sum {ι : Type} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A finite sum of reals is real. -/
private theorem R.sum {ι : Type} (s : Finset ι) (f : ι → EReal) (h : ∀ i, R (f i)) : R (∑ i ∈ s, f i) := by
  choose g hg using h
  exact ⟨∑ i ∈ s, g i, by simp only [hg]; exact coe_sum s g⟩

/-- Over the reals, with as many terms as the divisor: the mean of squares minus the squared mean is the mean
    squared deviation from the mean. -/
private theorem var_real {ι : Type} [Fintype ι] (f : ι → ℝ) (n : ℝ) (hn : n ≠ 0) (hc : (Fintype.card ι : ℝ) = n) :
    (∑ e, f e * f e) * (1 / n) - ((∑ e, f e) * (1 / n)) * ((∑ e, f e) * (1 / n))
      = (∑ e, (f e - (∑ e, f e) * (1 / n)) * (f e - (∑ e, f e) * (1 / n))) * (1 / n) := by
  generalize hμ : (∑ e, f e) * (1 / n) = μ
  have hS : ∑ e, f e = n * μ := by rw [← hμ]; field_simp
  have h1 : ∑ e, (f e - μ) * (f e - μ) = ∑ e, f e * f e - 2 * μ * ∑ e, f e + n * (μ * μ) := by
    have h2 : ∀ e, (f e - μ) * (f e - μ) = f e * f e - 2 * μ * f e + μ * μ := fun e => by ring
    simp only [h2]
    rw [Finset.sum_add_distrib, Finset.sum_sub_distrib, ← Finset.mul_sum, Finset.sum_const, Finset.card_univ,
      nsmul_eq_mul, hc]
  rw [h1, hS]
  field_simp
  ring

/-- The same over the extended reals, on coerced reals. -/
private theorem var_ereal {ι : Type} [Fintype ι] (f : ι → ℝ) (n : ℝ) (hn : n ≠ 0)
    (hc : (Fintype.card ι : ℝ) = n) :
    Ideal.div (∑ e, (f e : EReal) * (f e : EReal)) (n : EReal)
        - Ideal.div (∑ e, (f e : EReal)) (n : EReal) * Ideal.div (∑ e, (f e : EReal)) (n : EReal)
      = Ideal.div (∑ e, ((f e : EReal) - Ideal.div (∑ e, (f e : EReal)) (n : EReal))
          * ((f e : EReal) - Ideal.div (∑ e, (f e : EReal)) (n : EReal))) (n : EReal) := by
  simp only [Ideal.div_coe hn, coe_sum, ← EReal.coe_mul, ← EReal.coe_sub]
  exact congrArg _ (var_real f n hn hc)

/-- The edge count's word is the real number 800000. -/
theorem nE_val : nE = ((800000 : ℝ) : EReal) := by
  simp [nE, Ideal.ofBits, Ideal.ieee, -EReal.coe_mul]; norm_num

/-- A node encoder of real-valued arrays is real-valued. -/
theorem enc_real {N a : Nat} (x : Mat N a) (w1 : Mat a 64) (b1 : Row 64) (w2 : Mat 64 64) (b2 : Row 64)
    (hx : IsReal x) (hw1 : IsReal w1) (hb1 : IsReal b1) (hw2 : IsReal w2) (hb2 : IsReal b2) :
    IsReal (enc x w1 b1 w2 b2) := by
  intro i
  show R (encAt x w1 b1 w2 b2 (i 0) (i 1))
  unfold encAt linAt
  exact R.add (R.sum _ _ fun h =>
    R.mul (R.max0 (R.add (R.sum _ _ fun d => R.mul (hx _) (hw1 _)) (hb1 _))) (hw2 _)) (hb2 _)

/-- The messages of real-valued arrays are real-valued. -/
theorem msg_real {E : Nat} (tg sg : Mat E 64) (w1 : Mat 128 64) (b1 : Row 64) (w2 : Mat 64 64) (b2 : Row 64)
    (htg : IsReal tg) (hsg : IsReal sg) (hw1 : IsReal w1) (hb1 : IsReal b1) (hw2 : IsReal w2) (hb2 : IsReal b2) :
    IsReal (msg tg sg w1 b1 w2 b2) := by
  intro i
  show R (msgAt tg sg w1 b1 w2 b2 (i 0) (i 1))
  unfold msgAt hidAt
  exact R.max0 (R.add (R.sum _ _ fun h =>
    R.mul (R.max0 (R.add (R.add (R.sum _ _ fun d => R.mul (htg _) (hw1 _))
      (R.sum _ _ fun d => R.mul (hsg _) (hw1 _))) (hb1 _))) (hw2 _)) (hb2 _))

/-- On a real-valued matrix of 800000 rows the two forms of a column's variance agree: the mean of squares minus
    the squared mean is the mean squared deviation from the mean. -/
theorem varK_eq_varR (m : Mat 800000 64) (hm : IsReal m) (k : Fin 64) : varK m k = varR m k := by
  choose g hg using hm
  simp only [varK, varR, mean, colsum, colsumsq, nE_val, hg]
  exact var_ereal (fun e => g (ix2 e k)) 800000 (by norm_num) (by rw [Fintype.card_fin]; norm_num)

/-- Hence the two standardised matrices agree. -/
theorem bnK_eq_bnR (m : Mat 800000 64) (hm : IsReal m) (γ β : Row 64) : bnK m γ β = bnR m γ β := by
  have h : rstdK m = rstdR m := funext fun k => by unfold rstdK rstdR; rw [varK_eq_varR m hm k]
  unfold bnK bnR
  rw [h]

end Cert.Spec

end
-- ==== Proof.PreFacts.lean ====
import proofs.«401209_j58256936403066_1_alg».proof.Proof.Gen.Pre_finite_inputs
import proofs.«401209_j58256936403066_1_alg».proof.Proof.Spec
import Idealize.ShloMosaic.PureOps.Ideal.Laws
import Idealize.ShloMosaic.Lib.ReduceAll
import Idealize.ShloMosaic.Lib.StableHlo.Predicate

noncomputable section

namespace Cert.PreFacts

open Cert.Pre_finite_inputs Idealize.ShloMosaic Idealize.ShloMosaic.ValueIdx
open Cert.Spec

/-- The scalar shape has exactly one index. -/
private theorem subsingleton_scalar_idx : Subsingleton S_.Idx := ⟨fun a b => funext fun d => d.elim0⟩
attribute [local instance] subsingleton_scalar_idx

/-- An extended real whose absolute value lies strictly below plus infinity is a real number: the two infinities
    have absolute value plus infinity, which is not below itself. -/
private theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | coe r => exact ⟨r, rfl⟩
  | top => exact absurd h (by simp [Ideal.cmp])

/-- If the conjunction over all entries of "the absolute value is below plus infinity" holds, every entry is real. -/
private theorem isReal_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
      (constantI S_ 1 1#1) hr h0 ix0 = 1#1) : IsReal x := by
  intro i
  have hi := Host.reduce_andi_all _ _ hr h0 ix0 e i
  rw [cmpf_apply, StableHlo.Predicate.bcast_scalar hb h0] at hi
  exact real_of_abs_lt_inf (x i) hi

/-- If the conjunction over all entries of the two signed comparisons `0 ≤ w` and `w < 100000` holds, every entry
    lies in [0, 100000) read as a signed number. -/
private theorem range_of_all {s : Shape} {axes : List (Fin s.rank)} (a : IVec s 32)
    (hb : S_.BroadcastsInDim s (![] : Fin 0 → Fin s.rank)) (hr : s.ReducesTo axes S_) (h0 : 0 < S_.numel)
    (e : Host.reduce IntOp.andi (andi (cmpi .sge a (broadcastInDim s ![] hb (constantI S_ 32 0#32)))
        (cmpi .slt a (broadcastInDim s ![] hb (constantI S_ 32 100000#32)))) (constantI S_ 1 1#1) hr h0 ix0 = 1#1) :
    ∀ p, 0 ≤ (a p).toInt ∧ (a p).toInt < 100000 := by
  intro p
  have hp := Host.reduce_andi_all _ _ hr h0 ix0 e p
  obtain ⟨h1, h2⟩ := IntOp.andi_eq_one.1 hp
  change IntOp.cmpi .sge (a p) (broadcastInDim s ![] hb (constantI S_ 32 0#32) p) = 1#1 at h1
  change IntOp.cmpi .slt (a p) (broadcastInDim s ![] hb (constantI S_ 32 100000#32) p) = 1#1 at h2
  rw [StableHlo.Predicate.bcast_scalar hb h0] at h1 h2
  change IntOp.cmpi .sge (a p) 0#32 = 1#1 at h1
  change IntOp.cmpi .slt (a p) 100000#32 = 1#1 at h2
  rw [IntOp.cmpi_sge] at h1
  rw [IntOp.cmpi_slt] at h2
  have z0 : (0#32 : BitVec 32).toInt = 0 := by decide
  have z1 : (100000#32 : BitVec 32).toInt = 100000 := by decide
  rw [z0] at h1
  rw [z1] at h2
  exact ⟨h1, h2⟩

/-- What the precondition says, decoded: every float input is real-valued, and every entry of the edge list lies in
    [0, 100000) read as a signed number. -/
theorem of_pre (a0 a1 : FVec Ideal S100000x2 .f32) (a2 : IVec S2x800000 32)
    (a3 : FVec Ideal S2x64 .f32) (a4 : FVec Ideal S64 .f32) (a5 : FVec Ideal S64x64 .f32) (a6 : FVec Ideal S64 .f32)
    (a7 : FVec Ideal S2x64 .f32) (a8 : FVec Ideal S64 .f32) (a9 : FVec Ideal S64x64 .f32) (a10 : FVec Ideal S64 .f32)
    (a11 : FVec Ideal S128x64 .f32) (a12 : FVec Ideal S64 .f32) (a13 : FVec Ideal S64x64 .f32) (a14 : FVec Ideal S64 .f32)
    (a15 a16 : FVec Ideal S64 .f32)
    (h : Cert.Pre_finite_inputs.fn (F := Ideal) a0 a1 a2 a3 a4 a5 a6 a7 a8 a9 a10 a11 a12 a13 a14 a15 a16 = fun _ => 1#1) :
    IsReal a0 ∧ IsReal a1 ∧ (∀ p, 0 ≤ (a2 p).toInt ∧ (a2 p).toInt < 100000) ∧ IsReal a3 ∧ IsReal a4 ∧ IsReal a5 ∧ IsReal a6
      ∧ IsReal a7 ∧ IsReal a8 ∧ IsReal a9 ∧ IsReal a10 ∧ IsReal a11 ∧ IsReal a12 ∧ IsReal a13 ∧ IsReal a14
      ∧ IsReal a15 ∧ IsReal a16 := by
  have h' := congrFun h ix0
  dsimp only [Cert.Pre_finite_inputs.fn, fn_part1, fn_part2, fn_part3, fn_part4, fn_part5] at h'
  -- the printed conjunction nests to the left: peel one conjunct at a time from the right
  obtain ⟨h', e2⟩ := IntOp.andi_eq_one.1 h'
  obtain ⟨h', e16⟩ := IntOp.andi_eq_one.1 h'
  obtain ⟨h', e15⟩ := IntOp.andi_eq_one.1 h'
  obtain ⟨h', e14⟩ := IntOp.andi_eq_one.1 h'
  obtain ⟨h', e13⟩ := IntOp.andi_eq_one.1 h'
  obtain ⟨h', e12⟩ := IntOp.andi_eq_one.1 h'
  obtain ⟨h', e11⟩ := IntOp.andi_eq_one.1 h'
  obtain ⟨h', e10⟩ := IntOp.andi_eq_one.1 h'
  obtain ⟨h', e9⟩ := IntOp.andi_eq_one.1 h'
  obtain ⟨h', e8⟩ := IntOp.andi_eq_one.1 h'
  obtain ⟨h', e7⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨e0, e1⟩ := IntOp.andi_eq_one.1 h'
  exact ⟨isReal_of_all a0 _ _ _ e0, isReal_of_all a1 _ _ _ e1, range_of_all a2 _ _ _ e2,
    isReal_of_all a3 _ _ _ e3, isReal_of_all a4 _ _ _ e4, isReal_of_all a5 _ _ _ e5, isReal_of_all a6 _ _ _ e6,
    isReal_of_all a7 _ _ _ e7, isReal_of_all a8 _ _ _ e8, isReal_of_all a9 _ _ _ e9, isReal_of_all a10 _ _ _ e10,
    isReal_of_all a11 _ _ _ e11, isReal_of_all a12 _ _ _ e12, isReal_of_all a13 _ _ _ e13,
    isReal_of_all a14 _ _ _ e14, isReal_of_all a15 _ _ _ e15, isReal_of_all a16 _ _ _ e16⟩

end Cert.PreFacts

end
-- ==== Proof.KTerm.lean ====
/-
  The host-side pieces of the kernel program that it shares with the reference: the two index rows cut out of the
  edge list, the row lookup, and the scatter-mean onto the target nodes.
-/
import proofs.«401209_j58256936403066_1_alg».proof.Proof.Gen.KernelIdeal
import Idealize.ShloMosaic.PureOps.Ideal

noncomputable section

namespace Cert.KernelIdeal.KV

open Cert.KernelIdeal Cert.KernelIdeal.Gen Idealize.ShloMosaic

/-- Row 0 of the edge list (the source node of each edge) as a vector. -/
def row0 (a2 : IVec S2x800000 32) : IVec S800000 32 :=
  fun i => shapeCast S800000 (extractStridedSlice S1x800000 ![0, 0] a2 slices_S2x800000_S1x800000_0_0) shapeCasts_S1x800000_S800000 i
/-- Row 1 of the edge list (the target node of each edge) as a vector. -/
def row1 (a2 : IVec S2x800000 32) : IVec S800000 32 :=
  fun i => shapeCast S800000 (extractStridedSlice S1x800000 ![1, 0] a2 slices_S2x800000_S1x800000_1_0) shapeCasts_S1x800000_S800000 i

/-- A negative index counted from the end: add the number of nodes to it. -/
def wrap (ix : IVec S800000 32) : IVec S800000 32 :=
  select (cmpi .slt ix (broadcastInDim S800000 ![] bcast_S_S800000 (constantI S_ 32 0#32)))
    (addi ix (broadcastInDim S800000 ![] bcast_S_S800000 (constantI S_ 32 100000#32))) ix

/-- The rows of a node-sized matrix picked by an index vector (an index past either end reads the nearest row). -/
def gth (t : FVec Ideal S100000x64 .f32) (ix : IVec S800000 32) : FVec Ideal S800000x64 .f32 :=
  Host.gather gather_S100000x64_S800000x1_S800000x64_1_0_n_n_0_1_164 t
    (broadcastInDim S800000x1 ![0] bcast_S800000_S800000x1_0 (wrap ix))

/-- The scatter-mean of an edge-sized matrix onto the target nodes: each node's sum of its edges' rows over the
    number of its edges (at least one). -/
def tailT (M : FVec Ideal S800000x64 .f32) (ix : IVec S800000 32) : FVec Ideal S100000x64 .f32 :=
  Host.divf
    (Host.scatterAdd scatter_S100000x64_S800000x1_S800000x64_1_0_0_1
      (broadcastInDim S100000x64 ![] bcast_S_S100000x64 (constant S_ .f32 0x00000000#32))
      (broadcastInDim S800000x1 ![0] bcast_S800000_S800000x1_0 ix) M)
    (broadcastInDim S100000x64 ![0, 1] bcast_S100000x1_S100000x64_0_1
      (broadcastInDim S100000x1 ![0] bcast_S100000_S100000x1_0
        (maximumf
          (Host.scatterAdd scatter_S100000_S800000x1_S800000_n_0_0_1
            (broadcastInDim S100000 ![] bcast_S_S100000 (constant S_ .f32 0x00000000#32))
            (broadcastInDim S800000x1 ![0] bcast_S800000_S800000x1_0 ix)
            (broadcastInDim S800000 ![] bcast_S_S800000 (constant S_ .f32 0x3F800000#32)))
          (broadcastInDim S100000 ![] bcast_S_S100000 (constant S_ .f32 0x3F800000#32)))))

/-- Every entry of the edge list names a node: it lies in [0, 100000) read as a signed number. -/
def IdxOK (a2 : IVec S2x800000 32) : Prop := ∀ p, 0 ≤ (a2 p).toInt ∧ (a2 p).toInt < 100000

end Cert.KernelIdeal.KV

end
-- ==== Proof.KTake.lean ====
/-
  The kernel program looks rows up with a guarded lookup: an index outside the table would read a fill value
  instead of a row. Where every index names a row the guard never fires, and the guarded lookup is the plain one.
-/
import proofs.«401209_j58256936403066_1_alg».proof.Proof.KTerm
import proofs.«401209_j58256936403066_1_alg».proof.Proof.Spec
import Idealize.ShloMosaic.Lib.ValueIdx
import Idealize.ShloMosaic.Lib.ReduceAll

noncomputable section

namespace Cert.KernelIdeal.KV

open Cert.KernelIdeal Cert.KernelIdeal.Gen Idealize.ShloMosaic Idealize.ShloMosaic.ValueIdx
open Cert.Spec

/-- A left fold by `and` from 1 over one-bit words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have h1 : IntOp.andi 1#1 1#1 = 1#1 := by decide
    rw [List.foldl_cons, h a (List.mem_cons_self ..), h1]
    exact foldl_andi_one f l (fun n hn => h n (List.mem_cons_of_mem _ hn))

/-- A reduction by `and` from 1 of an array of one-bit words that are all 1 is 1 everywhere. -/
private theorem reduce_andi_one {s t u : Shape} {axes : List (Fin s.rank)} (x : s.Idx → BitVec 1)
    (init : u.Idx → BitVec 1) (h : s.ReducesTo axes t) (hu : 0 < u.numel) (hx : ∀ i, x i = 1#1)
    (hi : ∀ k, init k = 1#1) (j : t.Idx) : Host.reduce IntOp.andi x init h hu j = 1#1 := by
  rw [Host.reduce_eq_foldl, hi]
  exact foldl_andi_one x _ (fun n _ => hx n)

/-- A choice whose condition is 1 everywhere is its first branch. -/
private theorem select_of_all_one {s : Shape} {α : Type} (c : IVec s 1) (a b : s.Idx → α)
    (hc : ∀ i, c i = 1#1) : select c a b = a := by
  funext i
  rw [select_apply, hc, select_one]

/-- A word in [0, 100000) read signed passes both tests "0 ≤ w" and "w ≤ 99999". -/
private theorem word_guard (w : BitVec 32) (h0 : 0 ≤ w.toInt) (h1 : w.toInt < 100000) :
    IntOp.andi (IntOp.cmpi .sge w 0#32) (IntOp.cmpi .sle w 99999#32) = 1#1 := by
  have e0 : (0#32 : BitVec 32).toInt = 0 := by decide
  have e1 : (99999#32 : BitVec 32).toInt = 99999 := by decide
  refine IntOp.andi_eq_one.2 ⟨IntOp.cmpi_sge.2 ?_, IntOp.cmpi_sle.2 ?_⟩
  · rw [e0]; exact h0
  · rw [e1]; omega

/-- A non-negative index is not counted from the end: wrapping leaves it. -/
private theorem wrap_ok (ix : IVec S800000 32) (h : ∀ e, 0 ≤ (ix e).toInt ∧ (ix e).toInt < 100000)
    (e : S800000.Idx) : wrap ix e = ix e := by
  have e0 : (0#32 : BitVec 32).toInt = 0 := by decide
  have hn : ¬ IntOp.cmpi .slt (ix e) 0#32 = 1#1 := by
    rw [IntOp.cmpi_slt, e0]; have := (h e).1; omega
  show Scalar.select (IntOp.cmpi .slt (ix e) 0#32) (IntOp.addi (ix e) 100000#32) (ix e) = ix e
  rw [eq_zero_of_ne_one hn, select_zero]

/-- The guarded lookup: the wrapped index as a column, the test "0 ≤ index ≤ 99999" folded over the column's one
    entry, the plain lookup, and the fill value where the test fails. -/
def takeT (t : FVec Ideal S100000x64 .f32) (ix : IVec S800000 32) : FVec Ideal S800000x64 .f32 :=
  let v5 : IVec S800000x1 32 := broadcastInDim S800000x1 ![0] bcast_S800000_S800000x1_0 (wrap ix)
  select
    (broadcastInDim S800000x64 ![0] bcast_S800000_S800000x64_0
      (Host.reduce IntOp.andi
        (andi (cmpi .sge v5 (broadcastInDim S800000x1 ![] bcast_S_S800000x1 (constantI S_ 32 0#32)))
          (cmpi .sle v5 (broadcastInDim S800000x1 ![0, 1] bcast_S1x1_S800000x1_0_1
            (broadcastInDim S1x1 ![1] bcast_S1_S1x1_1 (constantI S1 32 99999#32)))))
        (constantI S_ 1 1#1) reducesTo_S800000x1_S800000_d1 h_S_))
    (Host.gather gather_S100000x64_S800000x1_S800000x64_1_0_n_n_0_1_164 t v5)
    (broadcastInDim S800000x64 ![] bcast_S_S800000x64 (constant S_ .f32 0x7FC00000#32))

/-- Where every index lies in [0, 100000) the guarded lookup is the plain lookup. -/
theorem take_eq (t : FVec Ideal S100000x64 .f32) (ix : IVec S800000 32)
    (h : ∀ e, 0 ≤ (ix e).toInt ∧ (ix e).toInt < 100000) : takeT t ix = gth t ix := by
  unfold takeT gth
  refine select_of_all_one _ _ _ (fun j => ?_)
  refine reduce_andi_one _ _ _ _ (fun i => ?_) (fun _ => rfl) _
  have hw := wrap_ok ix h
  show IntOp.andi (IntOp.cmpi .sge (wrap ix _) 0#32) (IntOp.cmpi .sle (wrap ix _) 99999#32) = 1#1
  rw [hw]
  exact word_guard _ (h _).1 (h _).2

/-- An index row cut out of an edge list whose entries all name nodes has entries that all name nodes. -/
theorem row0_ok (a2 : IVec S2x800000 32) (h : IdxOK a2) (e : S800000.Idx) :
    0 ≤ (row0 a2 e).toInt ∧ (row0 a2 e).toInt < 100000 := by
  unfold row0 shapeCast extractStridedSlice
  exact h _
theorem row1_ok (a2 : IVec S2x800000 32) (h : IdxOK a2) (e : S800000.Idx) :
    0 ≤ (row1 a2 e).toInt ∧ (row1 a2 e).toInt < 100000 := by
  unfold row1 shapeCast extractStridedSlice
  exact h _

/-- A lookup only reads entries of its table: the rows looked up in a real-valued table are real-valued. -/
theorem gth_real (t : FVec Ideal S100000x64 .f32) (ix : IVec S800000 32) (ht : IsReal (t : Mat 100000 64)) :
    IsReal (gth t ix : Mat 800000 64) := by
  intro i
  unfold gth Host.gather
  exact ht _

end Cert.KernelIdeal.KV

end
-- ==== Proof.KEnc.lean ====
import proofs.«401209_j58256936403066_1_alg».proof.Proof.Gen.KernelIdeal.Frame
import proofs.«401209_j58256936403066_1_alg».proof.Proof.Spec
import Idealize.ShloMosaic.Lib.ValueIdx
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx
open Cert.Spec
variable (V : (c : Dev nD) → (b : Ref sig .tc) → Buf (Elt Ideal) ((c : Thread nD τ).loc b))

/-! ## The two matrix products, the bias rows, and the stored value at an entry -/

/-- The features-by-first-weights product's operand positions: on the row axis the left operand reads the output's row, on the column axis the right operand reads the
    output's column, and both read the summation index on the contracted axis. -/
private theorem lhsA_0 (j : S5000x64.Idx) (k : dot_S5000x2_S2x64_S5000x64_1_0_0_1_n_n.contr.Idx) :
    (dot_S5000x2_S2x64_S5000x64_1_0_0_1_n_n.lhsIdx j k 0).val = (j 0).val := rfl
private theorem lhsA_1 (j : S5000x64.Idx) (k : dot_S5000x2_S2x64_S5000x64_1_0_0_1_n_n.contr.Idx) :
    (dot_S5000x2_S2x64_S5000x64_1_0_0_1_n_n.lhsIdx j k 1).val = (k ⟨0, Nat.one_pos⟩).val :=
  dot_S5000x2_S2x64_S5000x64_1_0_0_1_n_n.lhsIdx_val_of_single rfl j k
private theorem rhsA_0 (j : S5000x64.Idx) (k : dot_S5000x2_S2x64_S5000x64_1_0_0_1_n_n.contr.Idx) :
    (dot_S5000x2_S2x64_S5000x64_1_0_0_1_n_n.rhsIdx j k 0).val = (k ⟨0, Nat.one_pos⟩).val :=
  dot_S5000x2_S2x64_S5000x64_1_0_0_1_n_n.rhsIdx_val_of_single rfl j k
private theorem rhsA_1 (j : S5000x64.Idx) (k : dot_S5000x2_S2x64_S5000x64_1_0_0_1_n_n.contr.Idx) :
    (dot_S5000x2_S2x64_S5000x64_1_0_0_1_n_n.rhsIdx j k 1).val = (j 1).val := rfl

/-- The product of a 5000×2 block and a 2×64 matrix into a zero accumulator, at row `r` and column `h`: the sum over the 2 contracted positions of the
    products of the operands' entries, with no rounding. -/
private theorem mmA_apply (a : FVec Ideal S5000x2 .bf16) (b : FVec Ideal S2x64 .bf16) (r : Fin 5000) (h : Fin 64) :
    matmul dot_S5000x2_S2x64_S5000x64_1_0_0_1_n_n none a b (constant (F := Ideal) S5000x64 .f32 0x00000000#32) (ix2 r h)
      = ∑ d : Fin 2, a (ix2 r d) * b (ix2 d h) := by
  refine (Ideal.matmul_constant_zero_apply dot_S5000x2_S2x64_S5000x64_1_0_0_1_n_n none a b (ix2 r h)).trans ?_
  rw [← Equiv.sum_comp (contrEquiv1 dot_S5000x2_S2x64_S5000x64_1_0_0_1_n_n 2 rfl rfl).symm]
  refine Finset.sum_congr rfl fun d _ => ?_
  have hk := contrEquiv1_symm_val dot_S5000x2_S2x64_S5000x64_1_0_0_1_n_n 2 rfl rfl d
  have e1 : dot_S5000x2_S2x64_S5000x64_1_0_0_1_n_n.lhsIdx (ix2 r h) ((contrEquiv1 dot_S5000x2_S2x64_S5000x64_1_0_0_1_n_n 2 rfl rfl).symm d) = ix2 r d := by
    funext ax; apply Fin.ext
    match ax with
    | ⟨0, _⟩ => exact lhsA_0 _ _
    | ⟨1, _⟩ => exact (lhsA_1 _ _).trans hk
  have e2 : dot_S5000x2_S2x64_S5000x64_1_0_0_1_n_n.rhsIdx (ix2 r h) ((contrEquiv1 dot_S5000x2_S2x64_S5000x64_1_0_0_1_n_n 2 rfl rfl).symm d) = ix2 d h := by
    funext ax; apply Fin.ext
    match ax with
    | ⟨0, _⟩ => exact (rhsA_0 _ _).trans hk
    | ⟨1, _⟩ => exact rhsA_1 _ _
  rw [e1, e2]

/-- The hidden-by-second-weights product's operand positions: on the row axis the left operand reads the output's row, on the column axis the right operand reads the
    output's column, and both read the summation index on the contracted axis. -/
private theorem lhsB_0 (j : S5000x64.Idx) (k : dot_S5000x64_S64x64_S5000x64_1_0_0_1_n_n.contr.Idx) :
    (dot_S5000x64_S64x64_S5000x64_1_0_0_1_n_n.lhsIdx j k 0).val = (j 0).val := rfl
private theorem lhsB_1 (j : S5000x64.Idx) (k : dot_S5000x64_S64x64_S5000x64_1_0_0_1_n_n.contr.Idx) :
    (dot_S5000x64_S64x64_S5000x64_1_0_0_1_n_n.lhsIdx j k 1).val = (k ⟨0, Nat.one_pos⟩).val :=
  dot_S5000x64_S64x64_S5000x64_1_0_0_1_n_n.lhsIdx_val_of_single rfl j k
private theorem rhsB_0 (j : S5000x64.Idx) (k : dot_S5000x64_S64x64_S5000x64_1_0_0_1_n_n.contr.Idx) :
    (dot_S5000x64_S64x64_S5000x64_1_0_0_1_n_n.rhsIdx j k 0).val = (k ⟨0, Nat.one_pos⟩).val :=
  dot_S5000x64_S64x64_S5000x64_1_0_0_1_n_n.rhsIdx_val_of_single rfl j k
private theorem rhsB_1 (j : S5000x64.Idx) (k : dot_S5000x64_S64x64_S5000x64_1_0_0_1_n_n.contr.Idx) :
    (dot_S5000x64_S64x64_S5000x64_1_0_0_1_n_n.rhsIdx j k 1).val = (j 1).val := rfl

/-- The product of a 5000×64 block and a 64×64 matrix into a zero accumulator, at row `r` and column `h`: the sum over the 64 contracted positions of the
    products of the operands' entries, with no rounding. -/
private theorem mmB_apply (a : FVec Ideal S5000x64 .bf16) (b : FVec Ideal S64x64 .bf16) (r : Fin 5000) (h : Fin 64) :
    matmul dot_S5000x64_S64x64_S5000x64_1_0_0_1_n_n none a b (constant (F := Ideal) S5000x64 .f32 0x00000000#32) (ix2 r h)
      = ∑ d : Fin 64, a (ix2 r d) * b (ix2 d h) := by
  refine (Ideal.matmul_constant_zero_apply dot_S5000x64_S64x64_S5000x64_1_0_0_1_n_n none a b (ix2 r h)).trans ?_
  rw [← Equiv.sum_comp (contrEquiv1 dot_S5000x64_S64x64_S5000x64_1_0_0_1_n_n 64 rfl rfl).symm]
  refine Finset.sum_congr rfl fun d _ => ?_
  have hk := contrEquiv1_symm_val dot_S5000x64_S64x64_S5000x64_1_0_0_1_n_n 64 rfl rfl d
  have e1 : dot_S5000x64_S64x64_S5000x64_1_0_0_1_n_n.lhsIdx (ix2 r h) ((contrEquiv1 dot_S5000x64_S64x64_S5000x64_1_0_0_1_n_n 64 rfl rfl).symm d) = ix2 r d := by
    funext ax; apply Fin.ext
    match ax with
    | ⟨0, _⟩ => exact lhsB_0 _ _
    | ⟨1, _⟩ => exact (lhsB_1 _ _).trans hk
  have e2 : dot_S5000x64_S64x64_S5000x64_1_0_0_1_n_n.rhsIdx (ix2 r h) ((contrEquiv1 dot_S5000x64_S64x64_S5000x64_1_0_0_1_n_n 64 rfl rfl).symm d) = ix2 d h := by
    funext ax; apply Fin.ext
    match ax with
    | ⟨0, _⟩ => exact (rhsB_0 _ _).trans hk
    | ⟨1, _⟩ => exact rhsB_1 _ _
  rw [e1, e2]

/-- A length-64 vector laid out as one row and repeated down 5000 rows reads, at row `r` and column `k`, its entry `k`. -/
private theorem biasrow_apply (v : Vec Ideal S64 .f32) (r : Fin 5000) (k : Fin 64) :
    broadcastTo S5000x64 (shapeCast S1x64 v shapeCasts_S64_S1x64) broadcasts_S1x64_S5000x64 (ix2 r k) = v (ix1 k) := by
  rw [broadcastTo_apply _ broadcasts_S1x64_S5000x64 (ix2 r k) (ix2 (⟨0, Nat.one_pos⟩ : Fin 1) k)
    (fun a => by match a with | ⟨0, _⟩ => rfl | ⟨1, _⟩ => rfl)]
  exact shapeCast_apply v shapeCasts_S64_S1x64 _ (ix1 k) (by rw [Shape.rowMajor_val_one, Shape.rowMajor_val_two]; simp)

/-- The zero offsets of a rectangle that is its whole buffer, on two axes and on one. -/
private theorem hz2 : (![0, 0] : Fin 2 → Nat) = fun _ => 0 := funext fun a => by fin_cases a <;> rfl
private theorem hz1 : (![0] : Fin 1 → Nat) = fun _ => 0 := funext fun a => by fin_cases a; rfl

/-- The value the body of region 0 stores, at row `r` and column `k`: the features' row against the first weights
    plus the first bias, the larger of that and zero, then against the second weights plus the second bias. The changes
    of number format between the layers are the identity on extended reals, and the zero word is the number zero. -/
private theorem pay0_apply (x0 : Vec Ideal S5000x2 .f32) (x1 : Vec Ideal S2x64 .f32) (x2 : Vec Ideal S64 .f32)
    (x3 : Vec Ideal S64x64 .f32) (x4 : Vec Ideal S64 .f32) (r : Fin 5000) (k : Fin 64) :
    k0_pay1 x0 x1 x2 x3 x4 (ix2 r k)
      = (∑ h : Fin 64, max ((∑ d : Fin 2, x0 (ix2 r d) * x1 (ix2 d h)) + x2 (ix1 h)) 0 * x3 (ix2 h k)) + x4 (ix1 k) := by
  unfold k0_pay1
  refine (addf_apply _ _ _).trans ?_
  rw [biasrow_apply x4 r k]
  refine congrArg (· + x4 (ix1 k)) ?_
  refine (mmB_apply _ _ r k).trans ?_
  refine Finset.sum_congr rfl fun h _ => ?_
  refine congrArg (· * x3 (ix2 h k)) ?_
  show max (matmul dot_S5000x2_S2x64_S5000x64_1_0_0_1_n_n none (truncf .bf16 x0 bitsLt_bf16_f32) (truncf .bf16 x1 bitsLt_bf16_f32)
      (constant (F := Ideal) S5000x64 .f32 0x00000000#32) (ix2 r h)
        + broadcastTo S5000x64 (shapeCast S1x64 x2 shapeCasts_S64_S1x64) broadcasts_S1x64_S5000x64 (ix2 r h))
      (Ideal.ofBits .f32 0x00000000#32) = _
  rw [mmA_apply, biasrow_apply, Ideal.ofBits_zero_f32]
  rfl

/-- The output block after the body of region 0: its one store fills the whole block, and each load reads a whole
    input block, so the block is the stored value of the input blocks. -/
private theorem out0_5_apply (x0 : Vec Ideal S5000x2 .f32) (x1 : Vec Ideal S2x64 .f32) (x2 : Vec Ideal S64 .f32)
    (x3 : Vec Ideal S64x64 .f32) (x4 : Vec Ideal S64 .f32) (r : Fin 5000) (k : Fin 64) :
    out0_5 x0 x1 x2 x3 x4 (ix2 r k)
      = (∑ h : Fin 64, max ((∑ d : Fin 2, x0 (ix2 r d) * x1 (ix2 d h)) + x2 (ix1 h)) 0 * x3 (ix2 h k)) + x4 (ix1 k) := by
  unfold out0_5
  rw [View.canon_unit_zero hz2]
  simp only [View.ld_unit_zero (S := S5000x2) hz2, View.ld_unit_zero (S := S2x64) hz2, View.ld_unit_zero (S := S64) hz1,
    View.ld_unit_zero (S := S64x64) hz2]
  exact pay0_apply x0 x1 x2 x3 x4 r k

/-- The value the body of region 1 stores, at row `r` and column `k`: the features' row against the first weights
    plus the first bias, the larger of that and zero, then against the second weights plus the second bias. The changes
    of number format between the layers are the identity on extended reals, and the zero word is the number zero. -/
private theorem pay1_apply (x0 : Vec Ideal S5000x2 .f32) (x1 : Vec Ideal S2x64 .f32) (x2 : Vec Ideal S64 .f32)
    (x3 : Vec Ideal S64x64 .f32) (x4 : Vec Ideal S64 .f32) (r : Fin 5000) (k : Fin 64) :
    k1_pay1 x0 x1 x2 x3 x4 (ix2 r k)
      = (∑ h : Fin 64, max ((∑ d : Fin 2, x0 (ix2 r d) * x1 (ix2 d h)) + x2 (ix1 h)) 0 * x3 (ix2 h k)) + x4 (ix1 k) := by
  unfold k1_pay1
  refine (addf_apply _ _ _).trans ?_
  rw [biasrow_apply x4 r k]
  refine congrArg (· + x4 (ix1 k)) ?_
  refine (mmB_apply _ _ r k).trans ?_
  refine Finset.sum_congr rfl fun h _ => ?_
  refine congrArg (· * x3 (ix2 h k)) ?_
  show max (matmul dot_S5000x2_S2x64_S5000x64_1_0_0_1_n_n none (truncf .bf16 x0 bitsLt_bf16_f32) (truncf .bf16 x1 bitsLt_bf16_f32)
      (constant (F := Ideal) S5000x64 .f32 0x00000000#32) (ix2 r h)
        + broadcastTo S5000x64 (shapeCast S1x64 x2 shapeCasts_S64_S1x64) broadcasts_S1x64_S5000x64 (ix2 r h))
      (Ideal.ofBits .f32 0x00000000#32) = _
  rw [mmA_apply, biasrow_apply, Ideal.ofBits_zero_f32]
  rfl

/-- The output block after the body of region 1: its one store fills the whole block, and each load reads a whole
    input block, so the block is the stored value of the input blocks. -/
private theorem out1_5_apply (x0 : Vec Ideal S5000x2 .f32) (x1 : Vec Ideal S2x64 .f32) (x2 : Vec Ideal S64 .f32)
    (x3 : Vec Ideal S64x64 .f32) (x4 : Vec Ideal S64 .f32) (r : Fin 5000) (k : Fin 64) :
    out1_5 x0 x1 x2 x3 x4 (ix2 r k)
      = (∑ h : Fin 64, max ((∑ d : Fin 2, x0 (ix2 r d) * x1 (ix2 d h)) + x2 (ix1 h)) 0 * x3 (ix2 h k)) + x4 (ix1 k) := by
  unfold out1_5
  rw [View.canon_unit_zero hz2]
  simp only [View.ld_unit_zero (S := S5000x2) hz2, View.ld_unit_zero (S := S2x64) hz2, View.ld_unit_zero (S := S64) hz1,
    View.ld_unit_zero (S := S64x64) hz2]
  exact pay1_apply x0 x1 x2 x3 x4 r k

/-! ## Region 0: from the twenty row blocks to the array -/

/-- The block index of every window of region 0, decided once over the twenty points: the row-blocked windows
    (the node features and the output) sit at row block `t`, the weights and biases at block zero. -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `r` of the feature block at point `t` is row `5000 t + r` of the feature matrix. -/
private theorem xblk0_apply (c : Dev nD) (t : Fin cfg0.N) (r : Fin 5000) (d : Fin 2) (n : Fin 100000)
    (hn : n.val = t.val * 5000 + r.val) :
    (iblk0 V c 0 t : Vec Ideal S5000x2 .f32) (ix2 r d) = (V c main_arg0 : Mat 100000 2) (ix2 n d) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 5000 + 1 * r.val = n.val; rw [e0, hn]; omega
  | ⟨1, _⟩ => show win0_0.index t (1 : Fin 2) * 2 + 1 * d.val = d.val; rw [e1]; omega

/-- The first weight matrix's block at any point is the matrix. -/
private theorem w1blk0_apply (c : Dev nD) (t : Fin cfg0.N) (d : Fin 2) (h : Fin 64) :
    (iblk0 V c 1 t : Vec Ideal S2x64 .f32) (ix2 d h) = (V c main_arg3 : Mat 2 64) (ix2 d h) := by
  obtain ⟨-, -, e0, e1, -⟩ := idx_facts0 t
  unfold iblk0
  rw [View.read_apply]
  show V c main_arg3 _ = V c main_arg3 _
  congr 1
  funext a; apply Fin.ext
  match a with
  | ⟨0, _⟩ => show win0_1.index t (0 : Fin 2) * 2 + 1 * d.val = d.val; rw [e0]; omega
  | ⟨1, _⟩ => show win0_1.index t (1 : Fin 2) * 64 + 1 * h.val = h.val; rw [e1]; omega

/-- The first bias's block at any point is the bias. -/
private theorem b1blk0_apply (c : Dev nD) (t : Fin cfg0.N) (h : Fin 64) :
    (iblk0 V c 2 t : Vec Ideal S64 .f32) (ix1 h) = (V c main_arg4 : Row 64) (ix1 h) := by
  obtain ⟨-, -, -, -, e0, -⟩ := idx_facts0 t
  unfold iblk0
  rw [View.read_apply]
  show V c main_arg4 _ = V c main_arg4 _
  congr 1
  funext a; apply Fin.ext
  match a with
  | ⟨0, _⟩ => show win0_2.index t (0 : Fin 1) * 64 + 1 * h.val = h.val; rw [e0]; omega

/-- The second weight matrix's block at any point is the matrix. -/
private theorem w2blk0_apply (c : Dev nD) (t : Fin cfg0.N) (h : Fin 64) (k : Fin 64) :
    (iblk0 V c 3 t : Vec Ideal S64x64 .f32) (ix2 h k) = (V c main_arg5 : Mat 64 64) (ix2 h k) := by
  obtain ⟨-, -, -, -, -, e0, e1, -⟩ := idx_facts0 t
  unfold iblk0
  rw [View.read_apply]
  show V c main_arg5 _ = V c main_arg5 _
  congr 1
  funext a; apply Fin.ext
  match a with
  | ⟨0, _⟩ => show win0_3.index t (0 : Fin 2) * 64 + 1 * h.val = h.val; rw [e0]; omega
  | ⟨1, _⟩ => show win0_3.index t (1 : Fin 2) * 64 + 1 * k.val = k.val; rw [e1]; omega

/-- The second bias's block at any point is the bias. -/
private theorem b2blk0_apply (c : Dev nD) (t : Fin cfg0.N) (k : Fin 64) :
    (iblk0 V c 4 t : Vec Ideal S64 .f32) (ix1 k) = (V c main_arg6 : Row 64) (ix1 k) := by
  obtain ⟨-, -, -, -, -, -, -, e0, -⟩ := idx_facts0 t
  unfold iblk0
  rw [View.read_apply]
  show V c main_arg6 _ = V c main_arg6 _
  congr 1
  funext a; apply Fin.ext
  match a with
  | ⟨0, _⟩ => show win0_4.index t (0 : Fin 1) * 64 + 1 * k.val = k.val; rw [e0]; omega

/-- What the body leaves at row `r`, column `k` of the output block is the encoder's entry at row `n`, column `k`,
    once the feature block's row `r` is the feature matrix's row `n` and the other blocks are the weights and biases. -/
private theorem out0_enc (X : Mat 100000 2) (W1 : Mat 2 64) (B1 : Row 64) (W2 : Mat 64 64) (B2 : Row 64)
    (x0 : Vec Ideal S5000x2 .f32) (x1 : Vec Ideal S2x64 .f32) (x2 : Vec Ideal S64 .f32)
    (x3 : Vec Ideal S64x64 .f32) (x4 : Vec Ideal S64 .f32) (r : Fin 5000) (k : Fin 64) (n : Fin 100000)
    (h0 : ∀ d : Fin 2, x0 (ix2 r d) = X (ix2 n d)) (h1 : ∀ (d : Fin 2) (h : Fin 64), x1 (ix2 d h) = W1 (ix2 d h))
    (h2 : ∀ h : Fin 64, x2 (ix1 h) = B1 (ix1 h)) (h3 : ∀ h k : Fin 64, x3 (ix2 h k) = W2 (ix2 h k))
    (h4 : ∀ k : Fin 64, x4 (ix1 k) = B2 (ix1 k)) :
    out0_5 x0 x1 x2 x3 x4 (ix2 r k) = enc X W1 B1 W2 B2 (ix2 n k) := by
  rw [out0_5_apply, enc_ix2]
  unfold encAt linAt
  simp only [h0, h1, h2, h3, h4]

/-- An index of the output array is in point `t`'s block iff each coordinate is in the block's range on its axis. -/
private theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v0).slice (win0_5.rect t)).set ↔ _
  rw [View.set_slice_whole, Rect.mem_set_unit]
  exact Iff.rfl

/-- What point `t` writes back is rows `5000 t … 5000 t + 4999` of the encoder of the region's input arrays. -/
private theorem flushed_enc0 (c : Dev nD) (t : Fin cfg0.N) :
    (dat0 V c).flushed 5 t = ((cfg0.win 5).blk t).view.read (Elt Ideal)
      (enc (V c main_arg0 : Mat 100000 2) (V c main_arg3 : Mat 2 64) (V c main_arg4 : Row 64) (V c main_arg5 : Mat 64 64) (V c main_arg6 : Row 64)) := by
  show (cfg0.win 5).cut (grid0.coords t) ((dat0 V c).after 5 t) = _
  rw [after0_5]
  have ht : t.val < 20 := Nat.lt_of_lt_of_eq t.isLt N_0
  obtain ⟨-, -, -, -, -, -, -, -, e0, e1⟩ := idx_facts0 t
  funext j
  obtain ⟨r, k, rfl⟩ : ∃ (r : Fin 5000) (k : Fin 64), j = ix2 r k := ⟨j 0, j 1, eq_ix2 j⟩
  have hemb : ((cfg0.win 5).blk t).view.emb (ix2 r k) = ix2 (⟨t.val * 5000 + r.val, by omega⟩ : Fin 100000) k := by
    funext a; apply Fin.ext
    match a with
    | ⟨0, _⟩ => show win0_5.index t (0 : Fin 2) * 5000 + 1 * r.val = t.val * 5000 + r.val; rw [e0]; omega
    | ⟨1, _⟩ => show win0_5.index t (1 : Fin 2) * 64 + 1 * k.val = k.val; rw [e1]; omega
  show out0_5 (iblk0 V c 0 t) (iblk0 V c 1 t) (iblk0 V c 2 t) (iblk0 V c 3 t) (iblk0 V c 4 t) (ix2 r k)
    = enc (V c main_arg0 : Mat 100000 2) (V c main_arg3 : Mat 2 64) (V c main_arg4 : Row 64) (V c main_arg5 : Mat 64 64) (V c main_arg6 : Row 64)
        (((cfg0.win 5).blk t).view.emb (ix2 r k))
  rw [hemb]
  exact out0_enc (V c main_arg0 : Mat 100000 2) (V c main_arg3 : Mat 2 64) (V c main_arg4 : Row 64) (V c main_arg5 : Mat 64 64) (V c main_arg6 : Row 64)
    (iblk0 V c 0 t) (iblk0 V c 1 t) (iblk0 V c 2 t) (iblk0 V c 3 t) (iblk0 V c 4 t) r k ⟨t.val * 5000 + r.val, by omega⟩
    (fun d => xblk0_apply V c t r d _ rfl) (fun d h => w1blk0_apply V c t d h) (fun h => b1blk0_apply V c t h)
    (fun h k => w2blk0_apply V c t h k) (fun k => b2blk0_apply V c t k)

/-- Row `n` of the output array lies in the block of point `n / 5000`. -/
private theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e0, e1⟩ := idx_facts0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

/-! ## Region 1: from the twenty row blocks to the array -/

/-- The block index of every window of region 1, decided once over the twenty points: the row-blocked windows
    (the node features and the output) sit at row block `t`, the weights and biases at block zero. -/
private theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `r` of the feature block at point `t` is row `5000 t + r` of the feature matrix. -/
private theorem xblk1_apply (c : Dev nD) (t : Fin cfg1.N) (r : Fin 5000) (d : Fin 2) (n : Fin 100000)
    (hn : n.val = t.val * 5000 + r.val) :
    (iblk1 V c 0 t : Vec Ideal S5000x2 .f32) (ix2 r d) = (V c main_arg1 : Mat 100000 2) (ix2 n d) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 5000 + 1 * r.val = n.val; rw [e0, hn]; omega
  | ⟨1, _⟩ => show win1_0.index t (1 : Fin 2) * 2 + 1 * d.val = d.val; rw [e1]; omega

/-- The first weight matrix's block at any point is the matrix. -/
private theorem w1blk1_apply (c : Dev nD) (t : Fin cfg1.N) (d : Fin 2) (h : Fin 64) :
    (iblk1 V c 1 t : Vec Ideal S2x64 .f32) (ix2 d h) = (V c main_arg7 : Mat 2 64) (ix2 d h) := by
  obtain ⟨-, -, e0, e1, -⟩ := idx_facts1 t
  unfold iblk1
  rw [View.read_apply]
  show V c main_arg7 _ = V c main_arg7 _
  congr 1
  funext a; apply Fin.ext
  match a with
  | ⟨0, _⟩ => show win1_1.index t (0 : Fin 2) * 2 + 1 * d.val = d.val; rw [e0]; omega
  | ⟨1, _⟩ => show win1_1.index t (1 : Fin 2) * 64 + 1 * h.val = h.val; rw [e1]; omega

/-- The first bias's block at any point is the bias. -/
private theorem b1blk1_apply (c : Dev nD) (t : Fin cfg1.N) (h : Fin 64) :
    (iblk1 V c 2 t : Vec Ideal S64 .f32) (ix1 h) = (V c main_arg8 : Row 64) (ix1 h) := by
  obtain ⟨-, -, -, -, e0, -⟩ := idx_facts1 t
  unfold iblk1
  rw [View.read_apply]
  show V c main_arg8 _ = V c main_arg8 _
  congr 1
  funext a; apply Fin.ext
  match a with
  | ⟨0, _⟩ => show win1_2.index t (0 : Fin 1) * 64 + 1 * h.val = h.val; rw [e0]; omega

/-- The second weight matrix's block at any point is the matrix. -/
private theorem w2blk1_apply (c : Dev nD) (t : Fin cfg1.N) (h : Fin 64) (k : Fin 64) :
    (iblk1 V c 3 t : Vec Ideal S64x64 .f32) (ix2 h k) = (V c main_arg9 : Mat 64 64) (ix2 h k) := by
  obtain ⟨-, -, -, -, -, e0, e1, -⟩ := idx_facts1 t
  unfold iblk1
  rw [View.read_apply]
  show V c main_arg9 _ = V c main_arg9 _
  congr 1
  funext a; apply Fin.ext
  match a with
  | ⟨0, _⟩ => show win1_3.index t (0 : Fin 2) * 64 + 1 * h.val = h.val; rw [e0]; omega
  | ⟨1, _⟩ => show win1_3.index t (1 : Fin 2) * 64 + 1 * k.val = k.val; rw [e1]; omega

/-- The second bias's block at any point is the bias. -/
private theorem b2blk1_apply (c : Dev nD) (t : Fin cfg1.N) (k : Fin 64) :
    (iblk1 V c 4 t : Vec Ideal S64 .f32) (ix1 k) = (V c main_arg10 : Row 64) (ix1 k) := by
  obtain ⟨-, -, -, -, -, -, -, e0, -⟩ := idx_facts1 t
  unfold iblk1
  rw [View.read_apply]
  show V c main_arg10 _ = V c main_arg10 _
  congr 1
  funext a; apply Fin.ext
  match a with
  | ⟨0, _⟩ => show win1_4.index t (0 : Fin 1) * 64 + 1 * k.val = k.val; rw [e0]; omega

/-- What the body leaves at row `r`, column `k` of the output block is the encoder's entry at row `n`, column `k`,
    once the feature block's row `r` is the feature matrix's row `n` and the other blocks are the weights and biases. -/
private theorem out1_enc (X : Mat 100000 2) (W1 : Mat 2 64) (B1 : Row 64) (W2 : Mat 64 64) (B2 : Row 64)
    (x0 : Vec Ideal S5000x2 .f32) (x1 : Vec Ideal S2x64 .f32) (x2 : Vec Ideal S64 .f32)
    (x3 : Vec Ideal S64x64 .f32) (x4 : Vec Ideal S64 .f32) (r : Fin 5000) (k : Fin 64) (n : Fin 100000)
    (h0 : ∀ d : Fin 2, x0 (ix2 r d) = X (ix2 n d)) (h1 : ∀ (d : Fin 2) (h : Fin 64), x1 (ix2 d h) = W1 (ix2 d h))
    (h2 : ∀ h : Fin 64, x2 (ix1 h) = B1 (ix1 h)) (h3 : ∀ h k : Fin 64, x3 (ix2 h k) = W2 (ix2 h k))
    (h4 : ∀ k : Fin 64, x4 (ix1 k) = B2 (ix1 k)) :
    out1_5 x0 x1 x2 x3 x4 (ix2 r k) = enc X W1 B1 W2 B2 (ix2 n k) := by
  rw [out1_5_apply, enc_ix2]
  unfold encAt linAt
  simp only [h0, h1, h2, h3, h4]

/-- An index of the output array is in point `t`'s block iff each coordinate is in the block's range on its axis. -/
private theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v1).slice (win1_5.rect t)).set ↔ _
  rw [View.set_slice_whole, Rect.mem_set_unit]
  exact Iff.rfl

/-- What point `t` writes back is rows `5000 t … 5000 t + 4999` of the encoder of the region's input arrays. -/
private theorem flushed_enc1 (c : Dev nD) (t : Fin cfg1.N) :
    (dat1 V c).flushed 5 t = ((cfg1.win 5).blk t).view.read (Elt Ideal)
      (enc (V c main_arg1 : Mat 100000 2) (V c main_arg7 : Mat 2 64) (V c main_arg8 : Row 64) (V c main_arg9 : Mat 64 64) (V c main_arg10 : Row 64)) := by
  show (cfg1.win 5).cut (grid1.coords t) ((dat1 V c).after 5 t) = _
  rw [after1_5]
  have ht : t.val < 20 := Nat.lt_of_lt_of_eq t.isLt N_1
  obtain ⟨-, -, -, -, -, -, -, -, e0, e1⟩ := idx_facts1 t
  funext j
  obtain ⟨r, k, rfl⟩ : ∃ (r : Fin 5000) (k : Fin 64), j = ix2 r k := ⟨j 0, j 1, eq_ix2 j⟩
  have hemb : ((cfg1.win 5).blk t).view.emb (ix2 r k) = ix2 (⟨t.val * 5000 + r.val, by omega⟩ : Fin 100000) k := by
    funext a; apply Fin.ext
    match a with
    | ⟨0, _⟩ => show win1_5.index t (0 : Fin 2) * 5000 + 1 * r.val = t.val * 5000 + r.val; rw [e0]; omega
    | ⟨1, _⟩ => show win1_5.index t (1 : Fin 2) * 64 + 1 * k.val = k.val; rw [e1]; omega
  show out1_5 (iblk1 V c 0 t) (iblk1 V c 1 t) (iblk1 V c 2 t) (iblk1 V c 3 t) (iblk1 V c 4 t) (ix2 r k)
    = enc (V c main_arg1 : Mat 100000 2) (V c main_arg7 : Mat 2 64) (V c main_arg8 : Row 64) (V c main_arg9 : Mat 64 64) (V c main_arg10 : Row 64)
        (((cfg1.win 5).blk t).view.emb (ix2 r k))
  rw [hemb]
  exact out1_enc (V c main_arg1 : Mat 100000 2) (V c main_arg7 : Mat 2 64) (V c main_arg8 : Row 64) (V c main_arg9 : Mat 64 64) (V c main_arg10 : Row 64)
    (iblk1 V c 0 t) (iblk1 V c 1 t) (iblk1 V c 2 t) (iblk1 V c 3 t) (iblk1 V c 4 t) r k ⟨t.val * 5000 + r.val, by omega⟩
    (fun d => xblk1_apply V c t r d _ rfl) (fun d h => w1blk1_apply V c t d h) (fun h => b1blk1_apply V c t h)
    (fun h k => w2blk1_apply V c t h k) (fun k => b2blk1_apply V c t k)

/-- Row `n` of the output array lies in the block of point `n / 5000`. -/
private theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := idx_facts1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- Region 0 (the encoder of the first node set): after all twenty row blocks are written back, the output array is
    the encoder of the region's five input arrays, entry by entry. -/
theorem enc0 (c : Dev nD) :
    ((dat0 V c).arrAt 5 cfg0.N : Mat 100000 64)
      = enc (V c main_arg0 : Mat 100000 2) (V c main_arg3 : Mat 2 64) (V c main_arg4 : Row 64) (V c main_arg5 : Mat 64 64) (V c main_arg6 : Row 64) := by
  exact (dat0 V c).arrAt_eq_of_cover 5 _ (fun t _ => flushed_enc0 V c t) cover0

/-- Region 1 (the encoder of the second node set). -/
theorem enc1 (c : Dev nD) :
    ((dat1 V c).arrAt 5 cfg1.N : Mat 100000 64)
      = enc (V c main_arg1 : Mat 100000 2) (V c main_arg7 : Mat 2 64) (V c main_arg8 : Row 64) (V c main_arg9 : Mat 64 64) (V c main_arg10 : Row 64) := by
  exact (dat1 V c).arrAt_eq_of_cover 5 _ (fun t _ => flushed_enc1 V c t) cover1

end Cert.KernelIdeal.KV

end
-- ==== Proof.KEdgePay.lean ====
/-
  The arithmetic of the message region's body, entry by entry: the block's messages from the two blocks of looked-up
  rows, and the two running column totals each increased by the block's column sum (of the messages, of their squares).
-/
import proofs.«401209_j58256936403066_1_alg».proof.Proof.Gen.KernelIdeal.Skeleton
import proofs.«401209_j58256936403066_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KV

open Cert.KernelIdeal Cert.KernelIdeal.Gen Idealize.ShloMosaic Idealize.ShloMosaic.ValueIdx
open Cert.Spec

/-- A vector recast as a one-row matrix reads the vector's entry. -/
private theorem row_apply (v : FVec Ideal S64 .f32) (k : Fin 64) :
    shapeCast S1x64 v shapeCasts_S64_S1x64 (ix2 (0 : Fin 1) k) = v (ix1 k) :=
  shapeCast_a_1a_apply v shapeCasts_S64_S1x64 0 k

/-- The sum over the rows of a block is the column's sum. -/
private theorem colsum_apply (x : FVec Ideal S8000x64 .f32) (k : Fin 64) :
    multiReduction .add [0] S64 x 0x00000000#32 reduces_S8000x64_S64 (.inl rfl) rfl (ix1 k)
      = ∑ r : Fin 8000, x (ix2 r k) := by
  refine (Ideal.multiReduction_add_single x 0x00000000#32 reduces_S8000x64_S64 (.inl rfl) rfl (ix1 k)).trans ?_
  refine Finset.sum_congr rfl fun r _ => congrArg x ?_
  funext a; fin_cases a <;> exact Fin.ext rfl

/-- A product of a block by a square matrix into a zero accumulator, read at an entry: the sum over the contracted
    coordinate of the products of the entries. -/
private theorem mm_apply {φ₁ φ₂ : FTy} (A : FVec Ideal S8000x64 φ₁) (B : FVec Ideal S64x64 φ₂) (r : Fin 8000) (k : Fin 64) :
    matmul dot_S8000x64_S64x64_S8000x64_1_0_0_1_n_n none A B (constant S8000x64 .f32 0x00000000#32) (ix2 r k)
      = ∑ d : Fin 64, A (ix2 r d) * B (ix2 d k) := by
  refine (Ideal.matmul_constant_zero_apply dot_S8000x64_S64x64_S8000x64_1_0_0_1_n_n none A B (ix2 r k)).trans ?_
  rw [← Equiv.sum_comp (contrEquiv1 dot_S8000x64_S64x64_S8000x64_1_0_0_1_n_n 64 rfl rfl).symm]
  refine Finset.sum_congr rfl fun d _ => ?_
  have hd := contrEquiv1_symm_val dot_S8000x64_S64x64_S8000x64_1_0_0_1_n_n 64 rfl rfl d
  have hl : dot_S8000x64_S64x64_S8000x64_1_0_0_1_n_n.lhsIdx (ix2 r k)
      ((contrEquiv1 dot_S8000x64_S64x64_S8000x64_1_0_0_1_n_n 64 rfl rfl).symm d) = ix2 r d := by
    funext ax; apply Fin.ext
    match ax with
    | ⟨0, _⟩ => simp [DotDims.lhsIdx, dot_S8000x64_S64x64_S8000x64_1_0_0_1_n_n]; rfl
    | ⟨1, _⟩ => exact (DotDims.lhsIdx_val_of_single _ rfl _ _).trans hd
  have hr : dot_S8000x64_S64x64_S8000x64_1_0_0_1_n_n.rhsIdx (ix2 r k)
      ((contrEquiv1 dot_S8000x64_S64x64_S8000x64_1_0_0_1_n_n 64 rfl rfl).symm d) = ix2 d k := by
    funext ax; apply Fin.ext
    match ax with
    | ⟨0, _⟩ => exact (DotDims.rhsIdx_val_of_single _ rfl _ _).trans hd
    | ⟨1, _⟩ => simp [DotDims.rhsIdx, dot_S8000x64_S64x64_S8000x64_1_0_0_1_n_n]; rfl
  rw [hl, hr]

/-- A block's messages: the two-layer rectified network on the block's pair of rows. -/
theorem pay5_at (x0 x1 : Vec Ideal S8000x64 .f32) (w1 : Vec Ideal S128x64 .f32) (b1 : Vec Ideal S64 .f32)
    (w2 : Vec Ideal S64x64 .f32) (b2 : Vec Ideal S64 .f32) (r : Fin 8000) (k : Fin 64) :
    k2_pay5 (F := Ideal) x0 x1 w1 b1 w2 b2 (ix2 r k) = msgAt (x0 : Mat 8000 64) (x1 : Mat 8000 64) w1 b1 w2 b2 r k := by
  unfold k2_pay5 msgAt
  rw [maximumf_apply, addf_apply, mm_apply, broadcastTo_1b_ab_apply, row_apply, broadcast_apply]
  refine congrArg₂ max (congrArg₂ (· + ·) (Finset.sum_congr rfl fun h _ => ?_) rfl) Ideal.ofBits_zero_f32
  rw [truncf_apply, truncf_apply, maximumf_apply, addf_apply, addf_apply, mm_apply, mm_apply, broadcastTo_1b_ab_apply,
    row_apply, broadcast_apply]
  unfold hidAt
  refine congrArg₂ (· * ·) (congrArg₂ max (congrArg₂ (· + ·) (congrArg₂ (· + ·)
    (Finset.sum_congr rfl fun d _ => ?_) (Finset.sum_congr rfl fun d _ => ?_)) rfl) Ideal.ofBits_zero_f32) rfl
  · rw [truncf_apply, shapeCast_self, slice2_axis0_apply 0 _ _ d h (upper d) (by simp), truncf_apply]
  · rw [truncf_apply, shapeCast_self, slice2_axis0_apply 64 _ _ d h (lower d) rfl, truncf_apply]

/-- The running column total increased by the block's column sum. -/
theorem pay1_at (o : FVec Ideal S8000x64 .f32) (acc : FVec Ideal S1x64 .f32) (k : Fin 64) :
    k2_pay1 (F := Ideal) o acc (ix2 0 k) = (acc : Mat 1 64) (ix2 0 k) + ∑ r : Fin 8000, (o : Mat 8000 64) (ix2 r k) := by
  unfold k2_pay1
  rw [addf_apply, row_apply, colsum_apply]

/-- The running column total of squares increased by the block's column sum of squares. -/
theorem pay2_at (o : FVec Ideal S8000x64 .f32) (acc : Vec Ideal S1x64 .f32) (k : Fin 64) :
    k2_pay2 (F := Ideal) o acc (ix2 0 k)
      = (acc : Mat 1 64) (ix2 0 k) + ∑ r : Fin 8000, (o : Mat 8000 64) (ix2 r k) * (o : Mat 8000 64) (ix2 r k) := by
  unfold k2_pay2
  rw [addf_apply, row_apply, colsum_apply, shapeCast_self]
  rfl

/-- The two resets write zeros. -/
theorem pay3_at (k : Fin 64) : (k2_pay3 (F := Ideal) : Mat 1 64) (ix2 0 k) = 0 := by
  unfold k2_pay3
  exact Ideal.ofBits_zero_f32
theorem pay4_at (k : Fin 64) : (k2_pay4 (F := Ideal) : Mat 1 64) (ix2 0 k) = 0 := by
  unfold k2_pay4
  exact Ideal.ofBits_zero_f32

/-- A recast to the same shape changes nothing. -/
theorem pay6_at (v : Vec Ideal S1x64 .f32) (k : Fin 64) : k2_pay6 (F := Ideal) v (ix2 0 k) = (v : Mat 1 64) (ix2 0 k) := by
  unfold k2_pay6
  rw [shapeCast_self]

end Cert.KernelIdeal.KV

end
-- ==== Proof.SumBlocks.lean ====
/-
  A sum over 800000 rows taken block by block: a hundred blocks of 8000 rows.
-/
import Mathlib.Algebra.BigOperators.Fin
import Mathlib.Algebra.BigOperators.Group.Finset.Basic

open scoped BigOperators

namespace Cert.Spec

/-- Row `r` of block `s`. -/
abbrev blockRow (s : Fin 100) (r : Fin 8000) : Fin 800000 := ⟨8000 * s.val + r.val, by omega⟩

/-- Rows correspond to pairs (block, row within the block): quotient and remainder by 8000. -/
private def blockEquiv : Fin 100 × Fin 8000 ≃ Fin 800000 where
  toFun p := blockRow p.1 p.2
  invFun e := (⟨e.val / 8000, by omega⟩, ⟨e.val % 8000, by omega⟩)
  left_inv := by
    rintro ⟨s, r⟩
    refine Prod.ext (Fin.ext ?_) (Fin.ext ?_)
    · show (8000 * s.val + r.val) / 8000 = s.val
      omega
    · show (8000 * s.val + r.val) % 8000 = r.val
      omega
  right_inv := by
    intro e
    refine Fin.ext ?_
    show 8000 * (e.val / 8000) + e.val % 8000 = e.val
    omega

/-- The sum over all rows is the sum over the blocks of the sums over each block's rows. -/
theorem sum_blocks {M : Type} [AddCommMonoid M] (f : Fin 800000 → M) :
    (∑ s : Fin 100, ∑ r : Fin 8000, f (blockRow s r)) = ∑ e : Fin 800000, f e := by
  rw [← Fintype.sum_prod_type']
  exact Fintype.sum_equiv blockEquiv _ _ fun _ => rfl

/-- The sum over the first `t + 1` blocks, one block at a time: the running total a block-by-block accumulation
    holds after block `t`. -/
def upTo {M : Type} [AddCommMonoid M] (g : Fin 100 → M) : (t : Nat) → t < 100 → M
  | 0, h => g ⟨0, h⟩
  | t + 1, h => upTo g t (by omega) + g ⟨t + 1, h⟩

/-- The running total after block `t` is the sum over the first `t + 1` blocks. -/
private theorem upTo_eq {M : Type} [AddCommMonoid M] (g : Fin 100 → M) :
    ∀ (t : Nat) (h : t < 100), upTo g t h = ∑ i : Fin (t + 1), g ⟨i.val, by omega⟩
  | 0, h => by
      rw [upTo, Fin.sum_univ_castSucc]
      simp
  | t + 1, h => by
      rw [upTo, Fin.sum_univ_castSucc, upTo_eq g t (by omega)]
      rfl

/-- After the last block the running total is the sum over all blocks. -/
theorem upTo_last {M : Type} [AddCommMonoid M] (g : Fin 100 → M) : upTo g 99 (by omega) = ∑ s : Fin 100, g s := by
  exact upTo_eq g 99 (by omega)

end Cert.Spec
-- ==== Proof.KEdge.lean ====
/-
  The edge-message region: a hundred grid points, each taking a block of 8000 edges. At every point the body computes
  the block's messages (a two-layer rectified network on the pair of looked-up rows) and stores them; it also keeps two
  one-row running totals, reset at the first point, into which it adds the block's column sums and the block's column
  sums of squares. Read entry by entry, the three result arrays are the message matrix over all 800000 edges, its column
  sums and its column sums of squares: the message array because its hundred blocks tile it, the totals because after
  point n they hold the sums over blocks 0 to n, and the sum over the hundred blocks of 8000 rows is the sum over all rows.
-/
import proofs.«401209_j58256936403066_1_alg».proof.Proof.Gen.KernelIdeal.Frame
import proofs.«401209_j58256936403066_1_alg».proof.Proof.Spec
import proofs.«401209_j58256936403066_1_alg».proof.Proof.KEdgePay
import proofs.«401209_j58256936403066_1_alg».proof.Proof.SumBlocks
import Idealize.ShloMosaic.Lib.Pipeline.Value
import Idealize.ShloMosaic.Lib.Tactic
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx
open Cert.Spec
variable (V : (c : Dev nD) → (b : Ref sig .tc) → Buf (Elt Ideal) ((c : Thread nD τ).loc b))

/-- The message matrix of region 2's inputs. -/
abbrev msgOf (c : Dev nD) : Mat 800000 64 :=
  msg (V c main_v6 : Mat 800000 64) (V c main_v7 : Mat 800000 64) (V c main_arg11 : Mat 128 64) (V c main_arg12 : Row 64)
    (V c main_arg13 : Mat 64 64) (V c main_arg14 : Row 64)

namespace EdgeAux

section Pieces
variable {F : FTy → Type} [FloatOps F]

/-- The zero offsets of a store that covers its whole buffer. -/
theorem hz2 : (![0, 0] : Fin 2 → Nat) = fun _ => 0 := funext fun a => by fin_cases a <;> rfl
theorem hz1 : (![0] : Fin 1 → Nat) = fun _ => 0 := funext fun a => by fin_cases a; rfl

set_option maxHeartbeats 400000 in
/-- Past the first point: the message buffer is left at the body's messages on the six input blocks, -/
theorem pieceB6 (c : Dev nD) (i : grid2.Coords) (arg1 : Memref sig .tc .vmem S8000x64 .f32) (harg1 : arg1.IsWhole) (arg2 : Memref sig .tc .vmem S8000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S8000x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i)
    (x0 : Vec F S8000x64 .f32) (x1 : Vec F S8000x64 .f32) (x2 : Vec F S128x64 .f32) (x3 : Vec F S64 .f32) (x4 : Vec F S64x64 .f32) (x5 : Vec F S64 .f32) (xo7 : Vec F S1x64 .f32) (xo8 : Vec F S1x64 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S8000x64) hz2, View.ld_unit_zero (S := S128x64) hz2, View.ld_unit_zero (S := S64x64) hz2, View.ld_unit_zero (S := S1x64) hz2, View.ld_unit_zero (S := S64) hz1]

set_option maxHeartbeats 400000 in
/-- the sums buffer at what it held plus the messages' column sums, -/
theorem pieceB7 (c : Dev nD) (i : grid2.Coords) (arg1 : Memref sig .tc .vmem S8000x64 .f32) (harg1 : arg1.IsWhole) (arg2 : Memref sig .tc .vmem S8000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S8000x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i)
    (x0 : Vec F S8000x64 .f32) (x1 : Vec F S8000x64 .f32) (x2 : Vec F S128x64 .f32) (x3 : Vec F S64 .f32) (x4 : Vec F S64x64 .f32) (x5 : Vec F S64 .f32) (xo7 : Vec F S1x64 .f32) (xo8 : Vec F S1x64 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay1 (k2_pay5 x0 x1 x2 x3 x4 x5) (k2_pay6 xo7) := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S8000x64) hz2, View.ld_unit_zero (S := S128x64) hz2, View.ld_unit_zero (S := S64x64) hz2, View.ld_unit_zero (S := S1x64) hz2, View.ld_unit_zero (S := S64) hz1]

set_option maxHeartbeats 400000 in
/-- and the squares buffer at what it held plus the column sums of the messages' squares. -/
theorem pieceB8 (c : Dev nD) (i : grid2.Coords) (arg1 : Memref sig .tc .vmem S8000x64 .f32) (harg1 : arg1.IsWhole) (arg2 : Memref sig .tc .vmem S8000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S8000x64 .f32) (harg7 : arg7.IsWhole) (arg8 : Memref sig .tc .vmem S1x64 .f32) (harg8 : arg8.IsWhole) (arg9 : Memref sig .tc .vmem S1x64 .f32) (harg9 : arg9.IsWhole) (hc0 : ¬cond2_0 i)
    (x0 : Vec F S8000x64 .f32) (x1 : Vec F S8000x64 .f32) (x2 : Vec F S128x64 .f32) (x3 : Vec F S64 .f32) (x4 : Vec F S64x64 .f32) (x5 : Vec F S64 .f32) (xo7 : Vec F S1x64 .f32) (xo8 : Vec F S1x64 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay2 (k2_pay5 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S8000x64) hz2, View.ld_unit_zero (S := S128x64) hz2, View.ld_unit_zero (S := S64x64) hz2, View.ld_unit_zero (S := S1x64) hz2, View.ld_unit_zero (S := S64) hz1]

set_option maxHeartbeats 400000 in
/-- At the first point: the message buffer is left at the body's messages on the six input blocks, -/
theorem pieceA6 (c : Dev nD) (i : grid2.Coords) (arg1 : Memref sig .tc .vmem S8000x64 .f32) (harg1 : arg1.IsWhole) (arg2 : Memref sig .tc .vmem S8000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S8000x64 .f32) (harg7 : arg7.IsWhole) (arg8 : Memref sig .tc .vmem S1x64 .f32) (harg8 : arg8.IsWhole) (arg9 : Memref sig .tc .vmem S1x64 .f32) (harg9 : arg9.IsWhole) (hc0 : cond2_0 i)
    (x0 : Vec F S8000x64 .f32) (x1 : Vec F S8000x64 .f32) (x2 : Vec F S128x64 .f32) (x3 : Vec F S64 .f32) (x4 : Vec F S64x64 .f32) (x5 : Vec F S64 .f32) :
    out2_A_6 c i arg1 harg1 arg2 harg2 arg3 harg3 arg4 harg4 arg5 harg5 arg6 harg6 arg7 harg7 arg8 harg8 arg9 harg9 hc0 x0 x1 x2 x3 x4 x5 = k2_pay5 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S8000x64) hz2, View.ld_unit_zero (S := S128x64) hz2, View.ld_unit_zero (S := S64x64) hz2, View.ld_unit_zero (S := S1x64) hz2, View.ld_unit_zero (S := S64) hz1]

set_option maxHeartbeats 400000 in
/-- the sums buffer, first reset to zeros and read back, at zeros plus the messages' column sums, -/
theorem pieceA7 (c : Dev nD) (i : grid2.Coords) (arg1 : Memref sig .tc .vmem S8000x64 .f32) (harg1 : arg1.IsWhole) (arg2 : Memref sig .tc .vmem S8000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S8000x64 .f32) (harg7 : arg7.IsWhole) (arg8 : Memref sig .tc .vmem S1x64 .f32) (harg8 : arg8.IsWhole) (arg9 : Memref sig .tc .vmem S1x64 .f32) (harg9 : arg9.IsWhole) (hc0 : cond2_0 i)
    (x0 : Vec F S8000x64 .f32) (x1 : Vec F S8000x64 .f32) (x2 : Vec F S128x64 .f32) (x3 : Vec F S64 .f32) (x4 : Vec F S64x64 .f32) (x5 : Vec F S64 .f32) :
    out2_A_7 c i arg1 harg1 arg2 harg2 arg3 harg3 arg4 harg4 arg5 harg5 arg6 harg6 arg7 harg7 arg8 harg8 arg9 harg9 hc0 x0 x1 x2 x3 x4 x5 = k2_pay1 (k2_pay5 x0 x1 x2 x3 x4 x5) (k2_pay6 (k2_pay3 (F := F))) := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x64) hz2]
  simp only [View.readAt_eq_ld, harg1.read_unread, harg2.read_unread, harg3.read_unread, harg4.read_unread, harg5.read_unread, harg6.read_unread, harg8.read_unread, harg9.read_unread, View.ld_unit_zero (S := S8000x64) hz2, View.ld_unit_zero (S := S128x64) hz2, View.ld_unit_zero (S := S64x64) hz2, View.ld_unit_zero (S := S1x64) hz2, View.ld_unit_zero (S := S64) hz1, View.readCov_unit_zero (S := S1x64) _ hz2]

set_option maxHeartbeats 400000 in
/-- and the squares buffer likewise at zeros plus the column sums of the messages' squares. -/
theorem pieceA8 (c : Dev nD) (i : grid2.Coords) (arg1 : Memref sig .tc .vmem S8000x64 .f32) (harg1 : arg1.IsWhole) (arg2 : Memref sig .tc .vmem S8000x64 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S8000x64 .f32) (harg7 : arg7.IsWhole) (arg8 : Memref sig .tc .vmem S1x64 .f32) (harg8 : arg8.IsWhole) (arg9 : Memref sig .tc .vmem S1x64 .f32) (harg9 : arg9.IsWhole) (hc0 : cond2_0 i)
    (x0 : Vec F S8000x64 .f32) (x1 : Vec F S8000x64 .f32) (x2 : Vec F S128x64 .f32) (x3 : Vec F S64 .f32) (x4 : Vec F S64x64 .f32) (x5 : Vec F S64 .f32) :
    out2_A_8 c i arg1 harg1 arg2 harg2 arg3 harg3 arg4 harg4 arg5 harg5 arg6 harg6 arg7 harg7 arg8 harg8 arg9 harg9 hc0 x0 x1 x2 x3 x4 x5 = k2_pay2 (k2_pay5 x0 x1 x2 x3 x4 x5) (k2_pay4 (F := F)) := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x64) hz2]
  simp only [View.readAt_eq_ld, harg1.read_unread, harg2.read_unread, harg3.read_unread, harg4.read_unread, harg5.read_unread, harg6.read_unread, harg8.read_unread, harg9.read_unread, View.ld_unit_zero (S := S8000x64) hz2, View.ld_unit_zero (S := S128x64) hz2, View.ld_unit_zero (S := S64x64) hz2, View.ld_unit_zero (S := S1x64) hz2, View.ld_unit_zero (S := S64) hz1, View.readCov_unit_zero (S := S1x64) _ hz2]

end Pieces

section Blocks

theorem hN2 (t : Fin cfg2.N) : t.val < 100 := lt_of_lt_of_eq t.isLt (show cfg2.N = 100 from N_2)

/-- The block of a grid point, as a block number. -/
abbrev blkOf (t : Fin cfg2.N) : Fin 100 := ⟨t.val, hN2 t⟩

/-- The six input blocks of a grid point, at their literal shapes. -/
abbrev tgBlk (c : Dev nD) (t : Fin cfg2.N) : Vec Ideal S8000x64 .f32 := iblk2 V c 0 t
abbrev sgBlk (c : Dev nD) (t : Fin cfg2.N) : Vec Ideal S8000x64 .f32 := iblk2 V c 1 t
abbrev w1Blk (c : Dev nD) (t : Fin cfg2.N) : Vec Ideal S128x64 .f32 := iblk2 V c 2 t
abbrev b1Blk (c : Dev nD) (t : Fin cfg2.N) : Vec Ideal S64 .f32 := iblk2 V c 3 t
abbrev w2Blk (c : Dev nD) (t : Fin cfg2.N) : Vec Ideal S64x64 .f32 := iblk2 V c 4 t
abbrev b2Blk (c : Dev nD) (t : Fin cfg2.N) : Vec Ideal S64 .f32 := iblk2 V c 5 t

/-- The windows' block numbers, decided over the hundred grid points: the row windows move with the point, the
    weight and accumulator windows stay at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- A target-row block at an entry: the row of the whole array at the block's offset. -/
theorem tg_at (c : Dev nD) (t : Fin cfg2.N) (r : Fin 8000) (d : Fin 64) :
    tgBlk V c t (ix2 r d) = (V c main_v6 : Mat 800000 64) (ix2 (blockRow (blkOf t) r) d) := by
  obtain ⟨e0, e1, -⟩ := idx_facts t
  unfold tgBlk iblk2
  rw [View.read_apply]
  show V c main_v6 _ = V c main_v6 _
  congr 1
  funext a; apply Fin.ext
  match a with
  | ⟨0, _⟩ => show win2_0.index t (0 : Fin 2) * 8000 + 1 * r.val = 8000 * t.val + r.val; rw [e0]; omega
  | ⟨1, _⟩ => show win2_0.index t (1 : Fin 2) * 64 + 1 * d.val = d.val; rw [e1]; omega

/-- A source-row block at an entry. -/
theorem sg_at (c : Dev nD) (t : Fin cfg2.N) (r : Fin 8000) (d : Fin 64) :
    sgBlk V c t (ix2 r d) = (V c main_v7 : Mat 800000 64) (ix2 (blockRow (blkOf t) r) d) := by
  obtain ⟨-, -, e0, e1, -⟩ := idx_facts t
  unfold sgBlk iblk2
  rw [View.read_apply]
  show V c main_v7 _ = V c main_v7 _
  congr 1
  funext a; apply Fin.ext
  match a with
  | ⟨0, _⟩ => show win2_1.index t (0 : Fin 2) * 8000 + 1 * r.val = 8000 * t.val + r.val; rw [e0]; omega
  | ⟨1, _⟩ => show win2_1.index t (1 : Fin 2) * 64 + 1 * d.val = d.val; rw [e1]; omega

/-- The weight and bias windows' one block is the whole array. -/
theorem w1_eq (c : Dev nD) (t : Fin cfg2.N) : w1Blk V c t = (V c main_arg11 : Vec Ideal S128x64 .f32) := by
  obtain ⟨-, -, -, -, e0, e1, -⟩ := idx_facts t
  funext j
  unfold w1Blk iblk2
  rw [View.read_apply]
  show V c main_arg11 _ = V c main_arg11 _
  congr 1
  funext a; apply Fin.ext
  match a with
  | ⟨0, _⟩ => show win2_2.index t (0 : Fin 2) * 128 + 1 * (j 0).val = (j 0).val; rw [e0]; omega
  | ⟨1, _⟩ => show win2_2.index t (1 : Fin 2) * 64 + 1 * (j 1).val = (j 1).val; rw [e1]; omega
theorem b1_eq (c : Dev nD) (t : Fin cfg2.N) : b1Blk V c t = (V c main_arg12 : Vec Ideal S64 .f32) := by
  obtain ⟨-, -, -, -, -, -, e0, -⟩ := idx_facts t
  funext j
  unfold b1Blk iblk2
  rw [View.read_apply]
  show V c main_arg12 _ = V c main_arg12 _
  congr 1
  funext a; apply Fin.ext
  match a with
  | ⟨0, _⟩ => show win2_3.index t (0 : Fin 1) * 64 + 1 * (j 0).val = (j 0).val; rw [e0]; omega
theorem w2_eq (c : Dev nD) (t : Fin cfg2.N) : w2Blk V c t = (V c main_arg13 : Vec Ideal S64x64 .f32) := by
  obtain ⟨-, -, -, -, -, -, -, e0, e1, -⟩ := idx_facts t
  funext j
  unfold w2Blk iblk2
  rw [View.read_apply]
  show V c main_arg13 _ = V c main_arg13 _
  congr 1
  funext a; apply Fin.ext
  match a with
  | ⟨0, _⟩ => show win2_4.index t (0 : Fin 2) * 64 + 1 * (j 0).val = (j 0).val; rw [e0]; omega
  | ⟨1, _⟩ => show win2_4.index t (1 : Fin 2) * 64 + 1 * (j 1).val = (j 1).val; rw [e1]; omega
theorem b2_eq (c : Dev nD) (t : Fin cfg2.N) : b2Blk V c t = (V c main_arg14 : Vec Ideal S64 .f32) := by
  obtain ⟨-, -, -, -, -, -, -, -, -, e0, -⟩ := idx_facts t
  funext j
  unfold b2Blk iblk2
  rw [View.read_apply]
  show V c main_arg14 _ = V c main_arg14 _
  congr 1
  funext a; apply Fin.ext
  match a with
  | ⟨0, _⟩ => show win2_5.index t (0 : Fin 1) * 64 + 1 * (j 0).val = (j 0).val; rw [e0]; omega

/-- A message depends on its edge's two rows only: equal rows, equal messages. -/
theorem msgAt_rows {E E' : Nat} (tg sg : Mat E 64) (tg' sg' : Mat E' 64) (w1 : Mat 128 64) (b1 : Row 64) (w2 : Mat 64 64) (b2 : Row 64)
    (e : Fin E) (e' : Fin E') (htg : ∀ d, tg (ix2 e d) = tg' (ix2 e' d)) (hsg : ∀ d, sg (ix2 e d) = sg' (ix2 e' d)) (k : Fin 64) :
    msgAt tg sg w1 b1 w2 b2 e k = msgAt tg' sg' w1 b1 w2 b2 e' k := by
  unfold msgAt hidAt
  simp only [htg, hsg]

/-- The body's messages on a point's blocks are the message matrix's rows of that block. -/
theorem blockMsg (c : Dev nD) (t : Fin cfg2.N) (r : Fin 8000) (k : Fin 64) :
    k2_pay5 (F := Ideal) (tgBlk V c t) (sgBlk V c t) (w1Blk V c t) (b1Blk V c t) (w2Blk V c t) (b2Blk V c t) (ix2 r k)
      = msgOf V c (ix2 (blockRow (blkOf t) r) k) := by
  rw [pay5_at, w1_eq, b1_eq, w2_eq, b2_eq]
  exact msgAt_rows _ _ _ _ _ _ _ _ r (blockRow (blkOf t) r) (tg_at V c t r) (sg_at V c t r) k

end Blocks

section Steps

/-- After every point the message buffer holds the body's messages on the point's blocks. -/
theorem out6_eq (c : Dev nD) (t : Fin cfg2.N) :
    (outsAt2 V c t.val t.isLt).1 = k2_pay5 (F := Ideal) (tgBlk V c t) (sgBlk V c t) (w1Blk V c t) (b1Blk V c t) (w2Blk V c t) (b2Blk V c t) := by
  by_cases h0 : t.val % 100 = 0
  · rw [outsAt2_A V c t h0]; dsimp only
    exact pieceA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · rw [outsAt2_B V c t h0]; dsimp only
    exact pieceB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- At the first point the sums buffer is reset, then increased by the block's column sums. -/
theorem out7_A (c : Dev nD) (t : Fin cfg2.N) (h0 : t.val % 100 = 0) :
    (outsAt2 V c t.val t.isLt).2.1 = k2_pay1 (F := Ideal) (k2_pay5 (F := Ideal) (tgBlk V c t) (sgBlk V c t) (w1Blk V c t) (b1Blk V c t) (w2Blk V c t) (b2Blk V c t)) (k2_pay6 (F := Ideal) (k2_pay3 (F := Ideal))) := by
  rw [outsAt2_A V c t h0]; dsimp only
  exact pieceA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
/-- At every later point it is what the point before left, increased by the block's column sums. -/
theorem out7_B (c : Dev nD) (t : Fin cfg2.N) (h0 : ¬t.val % 100 = 0) :
    (outsAt2 V c t.val t.isLt).2.1 = k2_pay1 (F := Ideal) (k2_pay5 (F := Ideal) (tgBlk V c t) (sgBlk V c t) (w1Blk V c t) (b1Blk V c t) (w2Blk V c t) (b2Blk V c t)) (k2_pay6 (F := Ideal) (outsAt2 V c (t.val - 1) (Nat.lt_of_le_of_lt (Nat.sub_le _ _) t.isLt)).2.1) := by
  rw [outsAt2_B V c t h0]; dsimp only
  exact pieceB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2
/-- The same for the sums of squares. -/
theorem out8_A (c : Dev nD) (t : Fin cfg2.N) (h0 : t.val % 100 = 0) :
    (outsAt2 V c t.val t.isLt).2.2 = k2_pay2 (F := Ideal) (k2_pay5 (F := Ideal) (tgBlk V c t) (sgBlk V c t) (w1Blk V c t) (b1Blk V c t) (w2Blk V c t) (b2Blk V c t)) (k2_pay4 (F := Ideal)) := by
  rw [outsAt2_A V c t h0]; dsimp only
  exact pieceA8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
theorem out8_B (c : Dev nD) (t : Fin cfg2.N) (h0 : ¬t.val % 100 = 0) :
    (outsAt2 V c t.val t.isLt).2.2 = k2_pay2 (F := Ideal) (k2_pay5 (F := Ideal) (tgBlk V c t) (sgBlk V c t) (w1Blk V c t) (b1Blk V c t) (w2Blk V c t) (b2Blk V c t)) (outsAt2 V c (t.val - 1) (Nat.lt_of_le_of_lt (Nat.sub_le _ _) t.isLt)).2.2 := by
  rw [outsAt2_B V c t h0]; dsimp only
  exact pieceB8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- A block's column sum of the messages, and of their squares. -/
def colBlock (c : Dev nD) (k : Fin 64) : Fin 100 → EReal := fun s => ∑ r : Fin 8000, msgOf V c (ix2 (blockRow s r) k)
def sqBlock (c : Dev nD) (k : Fin 64) : Fin 100 → EReal :=
  fun s => ∑ r : Fin 8000, msgOf V c (ix2 (blockRow s r) k) * msgOf V c (ix2 (blockRow s r) k)

/-- The body's messages on a point's blocks, summed down a column, are the block's column sum; likewise the squares. -/
theorem colBlock_eq (c : Dev nD) (t : Fin cfg2.N) (k : Fin 64) :
    ∑ r : Fin 8000, (k2_pay5 (F := Ideal) (tgBlk V c t) (sgBlk V c t) (w1Blk V c t) (b1Blk V c t) (w2Blk V c t) (b2Blk V c t) : Mat 8000 64) (ix2 r k) = colBlock V c k (blkOf t) := by
  unfold colBlock
  exact Finset.sum_congr rfl fun r _ => blockMsg V c t r k
theorem sqBlock_eq (c : Dev nD) (t : Fin cfg2.N) (k : Fin 64) :
    ∑ r : Fin 8000, (k2_pay5 (F := Ideal) (tgBlk V c t) (sgBlk V c t) (w1Blk V c t) (b1Blk V c t) (w2Blk V c t) (b2Blk V c t) : Mat 8000 64) (ix2 r k)
        * (k2_pay5 (F := Ideal) (tgBlk V c t) (sgBlk V c t) (w1Blk V c t) (b1Blk V c t) (w2Blk V c t) (b2Blk V c t) : Mat 8000 64) (ix2 r k) = sqBlock V c k (blkOf t) := by
  unfold sqBlock
  exact Finset.sum_congr rfl fun r _ => by rw [blockMsg V c t r k]

/-- After point n the sums buffer holds, at each column, the column sums of blocks 0 to n. -/
theorem inv7 (c : Dev nD) (k : Fin 64) : ∀ (n : Nat) (h : n < cfg2.N) (h' : n < 100),
    ((outsAt2 V c n h).2.1 : Mat 1 64) (ix2 0 k) = upTo (colBlock V c k) n h'
  | 0, h, h' => by
    have e : (outsAt2 V c 0 h).2.1 = _ := out7_A V c ⟨0, h⟩ (Nat.zero_mod _)
    rw [e, pay1_at, pay6_at, pay3_at, zero_add]
    exact colBlock_eq V c ⟨0, h⟩ k
  | n + 1, h, h' => by
    have hB : ¬(⟨n + 1, h⟩ : Fin cfg2.N).val % 100 = 0 := by dsimp only; omega
    have e : (outsAt2 V c (n + 1) h).2.1 = _ := out7_B V c ⟨n + 1, h⟩ hB
    rw [e, pay1_at, pay6_at]
    show ((outsAt2 V c n _).2.1 : Mat 1 64) (ix2 0 k) + _ = upTo (colBlock V c k) n _ + colBlock V c k ⟨n + 1, h'⟩
    rw [inv7 c k n _ (by omega)]
    exact congrArg _ (colBlock_eq V c ⟨n + 1, h⟩ k)

/-- After point n the squares buffer holds, at each column, the column sums of squares of blocks 0 to n. -/
theorem inv8 (c : Dev nD) (k : Fin 64) : ∀ (n : Nat) (h : n < cfg2.N) (h' : n < 100),
    ((outsAt2 V c n h).2.2 : Mat 1 64) (ix2 0 k) = upTo (sqBlock V c k) n h'
  | 0, h, h' => by
    have e : (outsAt2 V c 0 h).2.2 = _ := out8_A V c ⟨0, h⟩ (Nat.zero_mod _)
    rw [e, pay2_at, pay4_at, zero_add]
    exact sqBlock_eq V c ⟨0, h⟩ k
  | n + 1, h, h' => by
    have hB : ¬(⟨n + 1, h⟩ : Fin cfg2.N).val % 100 = 0 := by dsimp only; omega
    have e : (outsAt2 V c (n + 1) h).2.2 = _ := out8_B V c ⟨n + 1, h⟩ hB
    rw [e, pay2_at]
    show ((outsAt2 V c n _).2.2 : Mat 1 64) (ix2 0 k) + _ = upTo (sqBlock V c k) n _ + sqBlock V c k ⟨n + 1, h'⟩
    rw [inv8 c k n _ (by omega)]
    exact congrArg _ (sqBlock_eq V c ⟨n + 1, h⟩ k)

/-- After the last point the two buffers hold the column sums and the column sums of squares over all edges. -/
theorem last7 (c : Dev nD) (k : Fin 64) (h : 99 < cfg2.N) :
    ((outsAt2 V c 99 h).2.1 : Mat 1 64) (ix2 0 k) = colsum (msgOf V c) k := by
  rw [inv7 V c k 99 h (by omega), upTo_last]
  exact sum_blocks (fun e => msgOf V c (ix2 e k))
theorem last8 (c : Dev nD) (k : Fin 64) (h : 99 < cfg2.N) :
    ((outsAt2 V c 99 h).2.2 : Mat 1 64) (ix2 0 k) = colsumsq (msgOf V c) k := by
  rw [inv8 V c k 99 h (by omega), upTo_last]
  exact sum_blocks (fun e => msgOf V c (ix2 e k) * msgOf V c (ix2 e k))

end Steps

section Arrays

/-- An entry of a point's message block is the message matrix at the entry the block's window puts it. -/
theorem flush6_at (c : Dev nD) (t : Fin cfg2.N) (r : Fin 8000) (k : Fin 64) :
    k2_pay5 (F := Ideal) (tgBlk V c t) (sgBlk V c t) (w1Blk V c t) (b1Blk V c t) (w2Blk V c t) (b2Blk V c t) (ix2 r k)
      = msgOf V c (((cfg2.win 6).blk t).view.emb (ix2 r k)) := by
  obtain ⟨-, -, -, -, -, -, -, -, -, -, e0, e1, -⟩ := idx_facts t
  refine (blockMsg V c t r k).trans ?_
  congr 1
  funext a; apply Fin.ext
  match a with
  | ⟨0, _⟩ => show 8000 * t.val + r.val = win2_6.index t (0 : Fin 2) * 8000 + 1 * r.val; rw [e0]; omega
  | ⟨1, _⟩ => show k.val = win2_6.index t (1 : Fin 2) * 64 + 1 * k.val; rw [e1]; omega

/-- What point t writes back through the message window is block t of the message matrix. -/
theorem flushed6 (c : Dev nD) (t : Fin cfg2.N) :
    (dat2 V c).flushed 6 t = ((cfg2.win 6).blk t).view.read (Elt Ideal) (msgOf V c) := by
  show (cfg2.win 6).cut (grid2.coords t) ((dat2 V c).after 6 t) = _
  rw [after2_6, out6_eq]
  funext j
  obtain ⟨r, k, rfl⟩ : ∃ (r : Fin 8000) (k : Fin 64), j = ix2 r k := ⟨j 0, j 1, eq_ix2 j⟩
  exact flush6_at V c t r k

/-- An entry of the message array lies in point t's block iff its row is among the block's 8000. -/
theorem mem_blk6 (t : Fin cfg2.N) (i : S800000x64.Idx) :
    i ∈ ((cfg2.win 6).blk t).view.set ↔ ∀ a : Fin 2, win2_6.index t a * S8000x64.size a ≤ (i a).val ∧ (i a).val < win2_6.index t a * S8000x64.size a + S8000x64.size a := by
  show i ∈ ((View.whole main_v8_0).slice (win2_6.rect t)).set ↔ _
  rw [View.set_slice_whole, Rect.mem_set_unit]
  exact Iff.rfl

/-- The hundred message blocks fill the array: it ends as the message matrix. -/
theorem final6 (c : Dev nD) : (dat2 V c).arrAt 6 cfg2.N = msgOf V c :=
  (dat2 V c).arrAt_eq_of_cover 6 (msgOf V c) (fun t _ => flushed6 V c t) fun i => by
    have hi0 : (i 0).val < 800000 := (i 0).isLt
    have hi1 : (i 1).val < 64 := (i 1).isLt
    have hN : cfg2.N = 100 := N_2
    refine ⟨⟨(i 0).val / 8000, by omega⟩, flush2_6 _, ?_⟩
    rw [mem_blk6]
    obtain ⟨-, -, -, -, -, -, -, -, -, -, e0, e1, -⟩ := idx_facts ⟨(i 0).val / 8000, by omega⟩
    intro a
    match a with
    | ⟨0, _⟩ => show win2_6.index _ (0 : Fin 2) * 8000 ≤ (i 0).val ∧ (i 0).val < win2_6.index _ (0 : Fin 2) * 8000 + 8000; rw [e0]; dsimp only; omega
    | ⟨1, _⟩ => show win2_6.index _ (1 : Fin 2) * 64 ≤ (i 1).val ∧ (i 1).val < win2_6.index _ (1 : Fin 2) * 64 + 64; rw [e1]; omega

/-- The column sums, and the column sums of squares, as one-row arrays. -/
abbrev sumsArr (c : Dev nD) : Mat 1 64 := fun i => colsum (msgOf V c) (i 1)
abbrev sqsArr (c : Dev nD) : Mat 1 64 := fun i => colsumsq (msgOf V c) (i 1)

/-- At the last point an entry of the sums buffer is the column sum the accumulator window puts there. -/
theorem flush7_at (c : Dev nD) (t : Fin cfg2.N) (h99 : t.val = 99) (u : Fin 1) (k : Fin 64) :
    ((outsAt2 V c t.val t.isLt).2.1 : Mat 1 64) (ix2 u k) = sumsArr V c (((cfg2.win 7).blk t).view.emb (ix2 u k)) := by
  obtain rfl : u = 0 := Subsingleton.elim _ _
  obtain ⟨-, -, -, -, -, -, -, -, -, -, -, -, e0, e1, -⟩ := idx_facts t
  have key : ∀ (n : Nat) (hn : n < cfg2.N), n = 99 → ((outsAt2 V c n hn).2.1 : Mat 1 64) (ix2 0 k) = colsum (msgOf V c) k :=
    fun n hn e => by subst e; exact last7 V c k hn
  refine (key t.val t.isLt h99).trans ?_
  show colsum (msgOf V c) k = colsum (msgOf V c) _
  congr 1
  apply Fin.ext
  show k.val = win2_7.index t (1 : Fin 2) * 64 + 1 * k.val
  rw [e1]; omega
theorem flush8_at (c : Dev nD) (t : Fin cfg2.N) (h99 : t.val = 99) (u : Fin 1) (k : Fin 64) :
    ((outsAt2 V c t.val t.isLt).2.2 : Mat 1 64) (ix2 u k) = sqsArr V c (((cfg2.win 8).blk t).view.emb (ix2 u k)) := by
  obtain rfl : u = 0 := Subsingleton.elim _ _
  obtain ⟨-, -, -, -, -, -, -, -, -, -, -, -, -, -, e0, e1⟩ := idx_facts t
  have key : ∀ (n : Nat) (hn : n < cfg2.N), n = 99 → ((outsAt2 V c n hn).2.2 : Mat 1 64) (ix2 0 k) = colsumsq (msgOf V c) k :=
    fun n hn e => by subst e; exact last8 V c k hn
  refine (key t.val t.isLt h99).trans ?_
  show colsumsq (msgOf V c) k = colsumsq (msgOf V c) _
  congr 1
  apply Fin.ext
  show k.val = win2_8.index t (1 : Fin 2) * 64 + 1 * k.val
  rw [e1]; omega

/-- A buffer that agrees entry by entry with the accumulator window's block of an array is written back as that block. -/
theorem cut7_of (t : Fin cfg2.N) (X : Vec Ideal S1x64 .f32) (G : Mat 1 64)
    (hX : ∀ (u : Fin 1) (k : Fin 64), (X : Mat 1 64) (ix2 u k) = G (((cfg2.win 7).blk t).view.emb (ix2 u k))) :
    (cfg2.win 7).cut (grid2.coords t) X = ((cfg2.win 7).blk t).view.read (Elt Ideal) G := by
  funext j
  obtain ⟨u, k, rfl⟩ : ∃ (u : Fin 1) (k : Fin 64), j = ix2 u k := ⟨j 0, j 1, eq_ix2 j⟩
  exact hX u k
theorem cut8_of (t : Fin cfg2.N) (X : Vec Ideal S1x64 .f32) (G : Mat 1 64)
    (hX : ∀ (u : Fin 1) (k : Fin 64), (X : Mat 1 64) (ix2 u k) = G (((cfg2.win 8).blk t).view.emb (ix2 u k))) :
    (cfg2.win 8).cut (grid2.coords t) X = ((cfg2.win 8).blk t).view.read (Elt Ideal) G := by
  funext j
  obtain ⟨u, k, rfl⟩ : ∃ (u : Fin 1) (k : Fin 64), j = ix2 u k := ⟨j 0, j 1, eq_ix2 j⟩
  exact hX u k

/-- The one write-back of the sums window, after the last point, writes the column sums. -/
theorem flushed7 (c : Dev nD) (t : Fin cfg2.N) (hf : (cfg2.win 7).flush t = true) :
    (dat2 V c).flushed 7 t = ((cfg2.win 7).blk t).view.read (Elt Ideal) (sumsArr V c) := by
  have hN : cfg2.N = 100 := N_2
  have h99 : t.val = 99 := by have := (flush2_7 t).mp hf; have := t.isLt; omega
  show (cfg2.win 7).cut (grid2.coords t) ((dat2 V c).after 7 t) = _
  rw [after2_7]
  exact cut7_of t _ (sumsArr V c) (flush7_at V c t h99)
theorem flushed8 (c : Dev nD) (t : Fin cfg2.N) (hf : (cfg2.win 8).flush t = true) :
    (dat2 V c).flushed 8 t = ((cfg2.win 8).blk t).view.read (Elt Ideal) (sqsArr V c) := by
  have hN : cfg2.N = 100 := N_2
  have h99 : t.val = 99 := by have := (flush2_8 t).mp hf; have := t.isLt; omega
  show (cfg2.win 8).cut (grid2.coords t) ((dat2 V c).after 8 t) = _
  rw [after2_8]
  exact cut8_of t _ (sqsArr V c) (flush8_at V c t h99)

theorem mem_blk7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v8_1).slice (win2_7.rect t)).set ↔ _
  rw [View.set_slice_whole, Rect.mem_set_unit]
  exact Iff.rfl
theorem mem_blk8 (t : Fin cfg2.N) (i : S1x64.Idx) :
    i ∈ ((cfg2.win 8).blk t).view.set ↔ ∀ a : Fin 2, win2_8.index t a * S1x64.size a ≤ (i a).val ∧ (i a).val < win2_8.index t a * S1x64.size a + S1x64.size a := by
  show i ∈ ((View.whole main_v8_2).slice (win2_8.rect t)).set ↔ _
  rw [View.set_slice_whole, Rect.mem_set_unit]
  exact Iff.rfl

/-- The last point's write-back covers the one-row array: it ends as the column sums (of squares). -/
theorem final7 (c : Dev nD) : (dat2 V c).arrAt 7 cfg2.N = sumsArr V c :=
  (dat2 V c).arrAt_eq_of_cover 7 (sumsArr V c) (flushed7 V c) fun i => by
    have hi0 : (i 0).val < 1 := (i 0).isLt
    have hi1 : (i 1).val < 64 := (i 1).isLt
    have hN : cfg2.N = 100 := N_2
    refine ⟨⟨99, by omega⟩, (flush2_7 _).mpr rfl, ?_⟩
    rw [mem_blk7]
    obtain ⟨-, -, -, -, -, -, -, -, -, -, -, -, e0, e1, -⟩ := idx_facts ⟨99, by omega⟩
    intro a
    match a with
    | ⟨0, _⟩ => show win2_7.index _ (0 : Fin 2) * 1 ≤ (i 0).val ∧ (i 0).val < win2_7.index _ (0 : Fin 2) * 1 + 1; rw [e0]; omega
    | ⟨1, _⟩ => show win2_7.index _ (1 : Fin 2) * 64 ≤ (i 1).val ∧ (i 1).val < win2_7.index _ (1 : Fin 2) * 64 + 64; rw [e1]; omega
theorem final8 (c : Dev nD) : (dat2 V c).arrAt 8 cfg2.N = sqsArr V c :=
  (dat2 V c).arrAt_eq_of_cover 8 (sqsArr V c) (flushed8 V c) fun i => by
    have hi0 : (i 0).val < 1 := (i 0).isLt
    have hi1 : (i 1).val < 64 := (i 1).isLt
    have hN : cfg2.N = 100 := N_2
    refine ⟨⟨99, by omega⟩, (flush2_8 _).mpr rfl, ?_⟩
    rw [mem_blk8]
    obtain ⟨-, -, -, -, -, -, -, -, -, -, -, -, -, -, e0, e1⟩ := idx_facts ⟨99, by omega⟩
    intro a
    match a with
    | ⟨0, _⟩ => show win2_8.index _ (0 : Fin 2) * 1 ≤ (i 0).val ∧ (i 0).val < win2_8.index _ (0 : Fin 2) * 1 + 1; rw [e0]; omega
    | ⟨1, _⟩ => show win2_8.index _ (1 : Fin 2) * 64 ≤ (i 1).val ∧ (i 1).val < win2_8.index _ (1 : Fin 2) * 64 + 64; rw [e1]; omega

end Arrays

end EdgeAux

/-- Region 2, first output: the message matrix, block of 8000 edges by block. -/
theorem edge_msg (c : Dev nD) : ((dat2 V c).arrAt 6 cfg2.N : Mat 800000 64) = msgOf V c :=
  EdgeAux.final6 V c

/-- Region 2, second output: the column sums of the messages, accumulated over the hundred blocks. -/
theorem edge_sum (c : Dev nD) : ((dat2 V c).arrAt 7 cfg2.N : Mat 1 64) = fun i => colsum (msgOf V c) (i 1) :=
  EdgeAux.final7 V c

/-- Region 2, third output: the column sums of squares. -/
theorem edge_sumsq (c : Dev nD) : ((dat2 V c).arrAt 8 cfg2.N : Mat 1 64) = fun i => colsumsq (msgOf V c) (i 1) :=
  EdgeAux.final8 V c

end Cert.KernelIdeal.KV

end
-- ==== Proof.KNorm.lean ====
import proofs.«401209_j58256936403066_1_alg».proof.Proof.Gen.KernelIdeal.Frame
import proofs.«401209_j58256936403066_1_alg».proof.Proof.Spec
import Idealize.ShloMosaic.Lib.Pipeline.Value
import Idealize.ShloMosaic.Lib.ValueLayout

noncomputable section

namespace Cert.KernelIdeal.KV

open Cert.KernelIdeal Cert.KernelIdeal.Gen Idealize.ShloMosaic Idealize.ShloMosaic.TcCoe Idealize.SL.Sem Idealize.ShloMosaic.ValueIdx
open Cert.Spec
variable (V : (c : Dev nD) → (b : Ref sig .tc) → Buf (Elt Ideal) ((c : Thread nD τ).loc b))

/-- Region 3's five input arrays, each at its literal type. -/
abbrev n3x (c : Dev nD) : Mat 800000 64 := V c main_v8_0
abbrev n3mu (c : Dev nD) : Mat 1 64 := V c main_v10
abbrev n3rs (c : Dev nD) : Mat 1 64 := V c main_v17
abbrev n3g (c : Dev nD) : Mat 1 64 := V c main_v18
abbrev n3b (c : Dev nD) : Mat 1 64 := V c main_v19

/-- The zero offsets of a whole-block access, as the constant function. -/
private theorem hz3 : (![0, 0] : Fin 2 → Nat) = fun _ => 0 := funext fun a => by fin_cases a <;> rfl

/-- The body's arithmetic at one entry of a block: entry (p, q) of the 8000-row block is centred by entry q of the row of
    means, multiplied by entry q of the row of reciprocal deviations and by entry q of the scale row, and shifted by
    entry q of the shift row; each one-row operand is repeated down the 8000 rows. -/
private theorem pay3_apply (x0 : Vec Ideal S8000x64 .f32) (x1 x2 x3 x4 : Vec Ideal S1x64 .f32) (p : Fin 8000) (q : Fin 64) :
    k3_pay1 x0 x1 x2 x3 x4 (ix2 p q)
      = (x0 (ix2 p q) - x1 (ix2 0 q)) * x2 (ix2 0 q) * x3 (ix2 0 q) + x4 (ix2 0 q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]

/-- The block indices over the 100 grid points: the messages and the output sit at row block t, column block 0; each of the
    four one-row arrays sits at block (0, 0) at every point. -/
private theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The standardised matrix: entry (r, k) of the messages centred by mean k, multiplied by reciprocal deviation k and by
    scale k, shifted by shift k. -/
private abbrev G3 (c : Dev nD) : Mat 800000 64 :=
  fun i => (n3x V c i - n3mu V c (ix2 0 (i 1))) * n3rs V c (ix2 0 (i 1)) * n3g V c (ix2 0 (i 1)) + n3b V c (ix2 0 (i 1))

/-- The block of messages at grid point t is rows 8000 t … 8000 t + 7999 of the messages: entry (p, q) of the block is
    entry (8000 t + p, q) of the array. -/
private theorem iblk3_0_apply (c : Dev nD) (t : Fin cfg3.N) (x : S8000x64.Idx) (k : S800000x64.Idx)
    (hk0 : (k 0).val = t.val * 8000 + (x 0).val) (hk1 : (k 1).val = (x 1).val) :
    (iblk3 V c 0 t : Vec Ideal S8000x64 .f32) x = (V c main_v8_0 : S800000x64.Idx → Elt Ideal .f32) k := by
  obtain ⟨e0, e1, -⟩ := idx_facts3 t
  unfold iblk3
  rw [View.read_apply]
  show V c main_v8_0 _ = V c main_v8_0 _
  congr 1
  funext a
  apply Fin.ext
  match a with
  | ⟨0, _⟩ => show win3_0.index t 0 * 8000 + 1 * (x 0).val = (k 0).val; rw [e0, hk0]; omega
  | ⟨1, _⟩ => show win3_0.index t 1 * 64 + 1 * (x 1).val = (k 1).val; rw [e1, hk1]; omega

/-- The block of the means at every grid point is the whole one-row array. -/
private theorem iblk3_1_apply (c : Dev nD) (t : Fin cfg3.N) (x : S1x64.Idx) :
    (iblk3 V c 1 t : Vec Ideal S1x64 .f32) x = (V c main_v10 : S1x64.Idx → Elt Ideal .f32) x := by
  obtain ⟨-, -, e0, e1, -⟩ := idx_facts3 t
  unfold iblk3
  rw [View.read_apply]
  show V c main_v10 _ = V c main_v10 _
  congr 1
  funext a
  apply Fin.ext
  match a with
  | ⟨0, _⟩ => show win3_1.index t 0 * 1 + 1 * (x 0).val = (x 0).val; rw [e0]; omega
  | ⟨1, _⟩ => show win3_1.index t 1 * 64 + 1 * (x 1).val = (x 1).val; rw [e1]; omega

/-- The block of the reciprocal deviations at every grid point is the whole one-row array. -/
private theorem iblk3_2_apply (c : Dev nD) (t : Fin cfg3.N) (x : S1x64.Idx) :
    (iblk3 V c 2 t : Vec Ideal S1x64 .f32) x = (V c main_v17 : S1x64.Idx → Elt Ideal .f32) x := by
  obtain ⟨-, -, -, -, e0, e1, -⟩ := idx_facts3 t
  unfold iblk3
  rw [View.read_apply]
  show V c main_v17 _ = V c main_v17 _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The block of the scales at every grid point is the whole one-row array. -/
private theorem iblk3_3_apply (c : Dev nD) (t : Fin cfg3.N) (x : S1x64.Idx) :
    (iblk3 V c 3 t : Vec Ideal S1x64 .f32) x = (V c main_v18 : S1x64.Idx → Elt Ideal .f32) x := by
  obtain ⟨-, -, -, -, -, -, e0, e1, -⟩ := idx_facts3 t
  unfold iblk3
  rw [View.read_apply]
  show V c main_v18 _ = V c main_v18 _
  congr 1
  funext a
  apply Fin.ext
  match a with
  | ⟨0, _⟩ => show win3_3.index t 0 * 1 + 1 * (x 0).val = (x 0).val; rw [e0]; omega
  | ⟨1, _⟩ => show win3_3.index t 1 * 64 + 1 * (x 1).val = (x 1).val; rw [e1]; omega

/-- The block of the shifts at every grid point is the whole one-row array. -/
private theorem iblk3_4_apply (c : Dev nD) (t : Fin cfg3.N) (x : S1x64.Idx) :
    (iblk3 V c 4 t : Vec Ideal S1x64 .f32) x = (V c main_v19 : S1x64.Idx → Elt Ideal .f32) x := by
  obtain ⟨-, -, -, -, -, -, -, -, e0, e1, -⟩ := idx_facts3 t
  unfold iblk3
  rw [View.read_apply]
  show V c main_v19 _ = V c main_v19 _
  congr 1
  funext a
  apply Fin.ext
  match a with
  | ⟨0, _⟩ => show win3_4.index t 0 * 1 + 1 * (x 0).val = (x 0).val; rw [e0]; omega
  | ⟨1, _⟩ => show win3_4.index t 1 * 64 + 1 * (x 1).val = (x 1).val; rw [e1]; omega

/-- What the body computes at entry y of its block at grid point t is the standardised matrix at the entry i of the array
    that y names: row 8000 t + (row of y), the same column. -/
private theorem blk3_eq (c : Dev nD) (t : Fin cfg3.N) (y : S8000x64.Idx) (i : S800000x64.Idx)
    (h0 : (i 0).val = t.val * 8000 + (y 0).val) (h1 : (i 1).val = (y 1).val) :
    k3_pay1 (iblk3 V c 0 t) (iblk3 V c 1 t) (iblk3 V c 2 t) (iblk3 V c 3 t) (iblk3 V c 4 t) y = G3 V c i := by
  obtain ⟨p, q, rfl⟩ : ∃ (p : Fin 8000) (q : Fin 64), y = ix2 p q := ⟨y 0, y 1, eq_ix2 y⟩
  obtain ⟨r, s, rfl⟩ : ∃ (r : Fin 800000) (s : Fin 64), i = ix2 r s := ⟨i 0, i 1, eq_ix2 i⟩
  have hs : s = q := Fin.ext h1
  subst hs
  refine (pay3_apply (iblk3 V c 0 t) (iblk3 V c 1 t) (iblk3 V c 2 t) (iblk3 V c 3 t) (iblk3 V c 4 t) p s).trans ?_
  rw [iblk3_0_apply V c t (ix2 p s) (ix2 r s) h0 rfl, iblk3_1_apply V c t (ix2 0 s), iblk3_2_apply V c t (ix2 0 s),
    iblk3_3_apply V c t (ix2 0 s), iblk3_4_apply V c t (ix2 0 s)]

/-- What grid point t writes back to the output array is block t of the standardised matrix. -/
private theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S8000x64) hz3, View.ld_unit_zero (S := S1x64) hz3]
  obtain ⟨-, -, -, -, -, -, -, -, -, -, e0, e1⟩ := idx_facts3 t
  funext j
  rw [View.read_apply]
  refine blk3_eq V c t _ _ ?_ ?_
  · show win3_5.index t 0 * 8000 + 1 * (j 0).val = t.val * 8000 + (j 0).val; rw [e0]; omega
  · show win3_5.index t 1 * 64 + 1 * (j 1).val = (j 1).val; rw [e1]; omega

/-- An entry of the output array lies in grid point t's block iff, on each axis, its coordinate lies in the block's range. -/
private theorem mem_blk3 (t : Fin cfg3.N) (i : S800000x64.Idx) :
    i ∈ ((cfg3.win 5).blk t).view.set ↔ ∀ a : Fin 2, win3_5.index t a * S8000x64.size a ≤ (i a).val ∧ (i a).val < win3_5.index t a * S8000x64.size a + S8000x64.size a := by
  show i ∈ ((View.whole main_v20).slice (win3_5.rect t)).set ↔ _
  rw [View.set_slice_whole, Rect.mem_set_unit]
  exact Iff.rfl

/-- The 100 blocks of 8000 rows cover the 800000 rows: row r lies in the block of grid point r / 8000. -/
private theorem cover3 (i : S800000x64.Idx) :
    ∃ t : Fin cfg3.N, (cfg3.win 5).flush t = true ∧ i ∈ ((cfg3.win 5).blk t).view.set := by
  have hi0 : (i 0).val < 800000 := (i 0).isLt
  have hi1 : (i 1).val < 64 := (i 1).isLt
  have hN : cfg3.N = 100 := N_3
  obtain ⟨t, ht⟩ : ∃ t : Fin cfg3.N, t.val = (i 0).val / 8000 := ⟨⟨(i 0).val / 8000, by rw [hN]; omega⟩, rfl⟩
  obtain ⟨-, -, -, -, -, -, -, -, -, -, e0, e1⟩ := idx_facts3 t
  refine ⟨t, flush3_5 t, ?_⟩
  rw [mem_blk3]
  intro a
  match a with
  | ⟨0, _⟩ => show win3_5.index t 0 * 8000 ≤ (i 0).val ∧ (i 0).val < win3_5.index t 0 * 8000 + 8000; rw [e0, ht]; omega
  | ⟨1, _⟩ => show win3_5.index t 1 * 64 ≤ (i 1).val ∧ (i 1).val < win3_5.index t 1 * 64 + 64; rw [e1]; omega

/-- Region 3: each entry is centred by the row vector of means, scaled by the row vector of reciprocal deviations and
    by the scale row, and shifted by the shift row (all four row vectors have one row). -/
theorem norm3 (c : Dev nD) :
    ((dat3 V c).arrAt 5 cfg3.N : Mat 800000 64)
      = fun i => (n3x V c i - n3mu V c (ix2 0 (i 1))) * n3rs V c (ix2 0 (i 1)) * n3g V c (ix2 0 (i 1)) + n3b V c (ix2 0 (i 1)) :=
  (dat3 V c).arrAt_eq_of_cover 5 (G3 V c) (fun t _ => flushed3_eq V c t) cover3

end Cert.KernelIdeal.KV

end
-- ==== Proof.KStats.lean ====
/-
  The host operations between the message region and the standardisation region: the column means are the column
  sums over the edge count, the variances are the means of squares less the squared means, the reciprocal deviations
  are the reciprocal square roots of the variances plus the offset, and the scale and shift vectors are recast as
  one-row matrices. With these, the standardisation region's entries are the standardised matrix `bnK`.
-/
import proofs.«401209_j58256936403066_1_alg».proof.Proof.KTerm
import proofs.«401209_j58256936403066_1_alg».proof.Proof.Spec
import Idealize.ShloMosaic.Lib.ValueIdx
import Idealize.ShloMosaic.Lib.ValueLayout

noncomputable section

namespace Cert.KernelIdeal.KV

open Cert.KernelIdeal Cert.KernelIdeal.Gen Idealize.ShloMosaic Idealize.ShloMosaic.ValueIdx
open Cert.Spec

/-- The one-row matrix of means from the one-row matrix of column sums. -/
def muT (S1 : FVec Ideal S1x64 .f32) : FVec Ideal S1x64 .f32 :=
  Host.divf S1 (broadcastInDim S1x64 ![] bcast_S_S1x64 (constant S_ .f32 0x49435000#32))

/-- The one-row matrix of reciprocal deviations from the column sums and the column sums of squares. -/
def rsT (S1 S2 : FVec Ideal S1x64 .f32) : FVec Ideal S1x64 .f32 :=
  Host.rsqrt (addf (subf (Host.divf S2 (broadcastInDim S1x64 ![] bcast_S_S1x64 (constant S_ .f32 0x49435000#32)))
    (mulf (muT S1) (muT S1))) (broadcastInDim S1x64 ![] bcast_S_S1x64 (constant S_ .f32 0x3727C5AC#32)))

/-- A vector of length 64 recast as a one-row matrix. -/
def rowT (g : FVec Ideal S64 .f32) : FVec Ideal S1x64 .f32 := fun i => shapeCast S1x64 g shapeCasts_S64_S1x64 i

/-- Centre each entry by the mean row, scale by the reciprocal-deviation row and the scale row, shift by the shift
    row, with the rows computed from the matrix's own column sums: this is the standardised matrix. -/
theorem stats_bn (x : Mat 800000 64) (S1 S2 : FVec Ideal S1x64 .f32) (g b : FVec Ideal S64 .f32)
    (h1 : (S1 : Mat 1 64) = fun i => colsum x (i 1)) (h2 : (S2 : Mat 1 64) = fun i => colsumsq x (i 1)) :
    (fun i => (x i - (muT S1 : Mat 1 64) (ix2 0 (i 1))) * (rsT S1 S2 : Mat 1 64) (ix2 0 (i 1)) * (rowT g : Mat 1 64) (ix2 0 (i 1))
        + (rowT b : Mat 1 64) (ix2 0 (i 1)) : Mat 800000 64)
      = bnK x g b := by
  funext i
  obtain ⟨e, k, rfl⟩ : ∃ e k, i = ix2 e k := ⟨i 0, i 1, eq_ix2 i⟩
  have hS1 : S1 (ix2 0 k) = colsum x k := congrFun h1 (ix2 0 k)
  have hS2 : S2 (ix2 0 k) = colsumsq x k := congrFun h2 (ix2 0 k)
  have hmu : muT S1 (ix2 0 k) = mean x k := by
    show Ideal.div (S1 (ix2 0 k)) nE = Ideal.div (colsum x k) nE
    rw [hS1]
  have hrs : rsT S1 S2 (ix2 0 k) = rstdK x k := by
    show Ideal.rsqrt (Ideal.div (S2 (ix2 0 k)) nE - muT S1 (ix2 0 k) * muT S1 (ix2 0 k) + eps)
      = Ideal.rsqrt (Ideal.div (colsumsq x k) nE - mean x k * mean x k + eps)
    rw [hS2, hmu]
  have hg : rowT g (ix2 0 k) = g (ix1 k) := shapeCast_a_1a_apply g shapeCasts_S64_S1x64 0 k
  have hb : rowT b (ix2 0 k) = b (ix1 k) := shapeCast_a_1a_apply b shapeCasts_S64_S1x64 0 k
  show (x (ix2 e k) - muT S1 (ix2 0 k)) * rsT S1 S2 (ix2 0 k) * rowT g (ix2 0 k) + rowT b (ix2 0 k)
    = bnAt x (mean x) (rstdK x) g b e k
  rw [hmu, hrs, hg, hb]
  rfl

end Cert.KernelIdeal.KV

end
-- ==== Proof.KHost.lean ====
/-
  The kernel program's result, read back through its nine segments. The last stretch is the scatter-mean of the
  standardisation region's output onto the target nodes; that output is the centred, scaled and shifted message matrix
  with the mean row, the reciprocal-deviation row and the scale and shift rows the statistics stretch leaves, which are
  functions of the message region's column sums and column sums of squares; the message region reads the two guarded
  lookups of the encoders' outputs at the two index rows cut out of the edge list; and the guarded lookups are plain
  lookups because every entry of the edge list names a node. Every other buffer a segment reads is as launched.
-/
import proofs.«401209_j58256936403066_1_alg».proof.Proof.Gen.KernelIdeal.Frame
import proofs.«401209_j58256936403066_1_alg».proof.Proof.Spec
import proofs.«401209_j58256936403066_1_alg».proof.Proof.KTerm
import proofs.«401209_j58256936403066_1_alg».proof.Proof.KEnc
import proofs.«401209_j58256936403066_1_alg».proof.Proof.KEdge
import proofs.«401209_j58256936403066_1_alg».proof.Proof.KNorm
import proofs.«401209_j58256936403066_1_alg».proof.Proof.KTake
import proofs.«401209_j58256936403066_1_alg».proof.Proof.KStats
import Idealize.ShloMosaic.Lib.StableHlo.Run

noncomputable section

namespace Cert.KernelIdeal.KV

open Cert.KernelIdeal Cert.KernelIdeal.Gen Idealize.ShloMosaic Idealize.ShloMosaic.TcCoe Idealize.SL.Sem Idealize.ShloMosaic.ValueIdx
open Cert.Spec

variable (m : (ℓ : Loc nD τ sig) → Buf (Elt Ideal) ℓ) (ρ : Dev nD → PrngReg)

/-- A buffer that no operation of a stretch writes keeps its contents over the stretch: the stretch's written
    references are listed and each is told apart from the buffer's. -/
local macro "keeps " l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The scatter-mean over the last stretch -/

set_option maxHeartbeats 400000 in
private theorem tail_eq (c : Dev nD) :
    (W9 m ρ c (Proc.devRef .tc main_v32) : FVec Ideal S100000x64 .f32)
      = tailT (W8 m ρ c (Proc.devRef .tc main_v20) : FVec Ideal S800000x64 .f32) (W8 m ρ c (Proc.devRef .tc main_v5) : IVec S800000 32) := by
  show StableHlo.after hostOps4 (W8 m ρ c) (Proc.devRef .tc main_v32) = _
  after_results
  rfl

/-! ## The launch's arrays where they are read -/

private theorem w2_arg2 (c : Dev nD) : W2 m ρ c (Proc.devRef .tc main_arg2) = (m ((c.tc : Thread nD τ).loc main_arg2)) :=
  calc W2 m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = (m ((c.tc : Thread nD τ).loc main_arg2)) := rfl

private theorem w1_arg1 (c : Dev nD) : W1 m ρ c (Proc.devRef .tc main_arg1) = (m ((c.tc : Thread nD τ).loc main_arg1)) :=
  calc W1 m ρ c (Proc.devRef .tc main_arg1)
    _ = W0 m ρ c (Proc.devRef .tc main_arg1) := W1_of_ne m ρ c main_arg1 (by decide)
    _ = (m ((c.tc : Thread nD τ).loc main_arg1)) := rfl

private theorem w1_arg7 (c : Dev nD) : W1 m ρ c (Proc.devRef .tc main_arg7) = (m ((c.tc : Thread nD τ).loc main_arg7)) :=
  calc W1 m ρ c (Proc.devRef .tc main_arg7)
    _ = W0 m ρ c (Proc.devRef .tc main_arg7) := W1_of_ne m ρ c main_arg7 (by decide)
    _ = (m ((c.tc : Thread nD τ).loc main_arg7)) := rfl

private theorem w1_arg8 (c : Dev nD) : W1 m ρ c (Proc.devRef .tc main_arg8) = (m ((c.tc : Thread nD τ).loc main_arg8)) :=
  calc W1 m ρ c (Proc.devRef .tc main_arg8)
    _ = W0 m ρ c (Proc.devRef .tc main_arg8) := W1_of_ne m ρ c main_arg8 (by decide)
    _ = (m ((c.tc : Thread nD τ).loc main_arg8)) := rfl

private theorem w1_arg9 (c : Dev nD) : W1 m ρ c (Proc.devRef .tc main_arg9) = (m ((c.tc : Thread nD τ).loc main_arg9)) :=
  calc W1 m ρ c (Proc.devRef .tc main_arg9)
    _ = W0 m ρ c (Proc.devRef .tc main_arg9) := W1_of_ne m ρ c main_arg9 (by decide)
    _ = (m ((c.tc : Thread nD τ).loc main_arg9)) := rfl

private theorem w1_arg10 (c : Dev nD) : W1 m ρ c (Proc.devRef .tc main_arg10) = (m ((c.tc : Thread nD τ).loc main_arg10)) :=
  calc W1 m ρ c (Proc.devRef .tc main_arg10)
    _ = W0 m ρ c (Proc.devRef .tc main_arg10) := W1_of_ne m ρ c main_arg10 (by decide)
    _ = (m ((c.tc : Thread nD τ).loc main_arg10)) := rfl

private theorem w5_arg11 (c : Dev nD) : W5 m ρ c (Proc.devRef .tc main_arg11) = (m ((c.tc : Thread nD τ).loc main_arg11)) :=
  calc W5 m ρ c (Proc.devRef .tc main_arg11)
    _ = W4 m ρ c (Proc.devRef .tc main_arg11) := by keeps hostOps2_2
    _ = W3 m ρ c (Proc.devRef .tc main_arg11) := by keeps hostOps2_1
    _ = W2 m ρ c (Proc.devRef .tc main_arg11) := by keeps hostOps2
    _ = W1 m ρ c (Proc.devRef .tc main_arg11) := W2_of_ne m ρ c main_arg11 (by decide)
    _ = W0 m ρ c (Proc.devRef .tc main_arg11) := W1_of_ne m ρ c main_arg11 (by decide)
    _ = (m ((c.tc : Thread nD τ).loc main_arg11)) := rfl

private theorem w5_arg12 (c : Dev nD) : W5 m ρ c (Proc.devRef .tc main_arg12) = (m ((c.tc : Thread nD τ).loc main_arg12)) :=
  calc W5 m ρ c (Proc.devRef .tc main_arg12)
    _ = W4 m ρ c (Proc.devRef .tc main_arg12) := by keeps hostOps2_2
    _ = W3 m ρ c (Proc.devRef .tc main_arg12) := by keeps hostOps2_1
    _ = W2 m ρ c (Proc.devRef .tc main_arg12) := by keeps hostOps2
    _ = W1 m ρ c (Proc.devRef .tc main_arg12) := W2_of_ne m ρ c main_arg12 (by decide)
    _ = W0 m ρ c (Proc.devRef .tc main_arg12) := W1_of_ne m ρ c main_arg12 (by decide)
    _ = (m ((c.tc : Thread nD τ).loc main_arg12)) := rfl

private theorem w5_arg13 (c : Dev nD) : W5 m ρ c (Proc.devRef .tc main_arg13) = (m ((c.tc : Thread nD τ).loc main_arg13)) :=
  calc W5 m ρ c (Proc.devRef .tc main_arg13)
    _ = W4 m ρ c (Proc.devRef .tc main_arg13) := by keeps hostOps2_2
    _ = W3 m ρ c (Proc.devRef .tc main_arg13) := by keeps hostOps2_1
    _ = W2 m ρ c (Proc.devRef .tc main_arg13) := by keeps hostOps2
    _ = W1 m ρ c (Proc.devRef .tc main_arg13) := W2_of_ne m ρ c main_arg13 (by decide)
    _ = W0 m ρ c (Proc.devRef .tc main_arg13) := W1_of_ne m ρ c main_arg13 (by decide)
    _ = (m ((c.tc : Thread nD τ).loc main_arg13)) := rfl

private theorem w5_arg14 (c : Dev nD) : W5 m ρ c (Proc.devRef .tc main_arg14) = (m ((c.tc : Thread nD τ).loc main_arg14)) :=
  calc W5 m ρ c (Proc.devRef .tc main_arg14)
    _ = W4 m ρ c (Proc.devRef .tc main_arg14) := by keeps hostOps2_2
    _ = W3 m ρ c (Proc.devRef .tc main_arg14) := by keeps hostOps2_1
    _ = W2 m ρ c (Proc.devRef .tc main_arg14) := by keeps hostOps2
    _ = W1 m ρ c (Proc.devRef .tc main_arg14) := W2_of_ne m ρ c main_arg14 (by decide)
    _ = W0 m ρ c (Proc.devRef .tc main_arg14) := W1_of_ne m ρ c main_arg14 (by decide)
    _ = (m ((c.tc : Thread nD τ).loc main_arg14)) := rfl

private theorem w6_arg15 (c : Dev nD) : W6 m ρ c (Proc.devRef .tc main_arg15) = (m ((c.tc : Thread nD τ).loc main_arg15)) :=
  calc W6 m ρ c (Proc.devRef .tc main_arg15)
    _ = W5 m ρ c (Proc.devRef .tc main_arg15) := W6_of_ne m ρ c main_arg15 (by decide)
    _ = W4 m ρ c (Proc.devRef .tc main_arg15) := by keeps hostOps2_2
    _ = W3 m ρ c (Proc.devRef .tc main_arg15) := by keeps hostOps2_1
    _ = W2 m ρ c (Proc.devRef .tc main_arg15) := by keeps hostOps2
    _ = W1 m ρ c (Proc.devRef .tc main_arg15) := W2_of_ne m ρ c main_arg15 (by decide)
    _ = W0 m ρ c (Proc.devRef .tc main_arg15) := W1_of_ne m ρ c main_arg15 (by decide)
    _ = (m ((c.tc : Thread nD τ).loc main_arg15)) := rfl

private theorem w6_arg16 (c : Dev nD) : W6 m ρ c (Proc.devRef .tc main_arg16) = (m ((c.tc : Thread nD τ).loc main_arg16)) :=
  calc W6 m ρ c (Proc.devRef .tc main_arg16)
    _ = W5 m ρ c (Proc.devRef .tc main_arg16) := W6_of_ne m ρ c main_arg16 (by decide)
    _ = W4 m ρ c (Proc.devRef .tc main_arg16) := by keeps hostOps2_2
    _ = W3 m ρ c (Proc.devRef .tc main_arg16) := by keeps hostOps2_1
    _ = W2 m ρ c (Proc.devRef .tc main_arg16) := by keeps hostOps2
    _ = W1 m ρ c (Proc.devRef .tc main_arg16) := W2_of_ne m ρ c main_arg16 (by decide)
    _ = W0 m ρ c (Proc.devRef .tc main_arg16) := W1_of_ne m ρ c main_arg16 (by decide)
    _ = (m ((c.tc : Thread nD τ).loc main_arg16)) := rfl

/-! ## The two index rows -/

private theorem w3_v5 (c : Dev nD) : ((W3 m ρ c (Proc.devRef .tc main_v5)) : IVec S800000 32) = (row1 (m ((c.tc : Thread nD τ).loc main_arg2))) := by
  rw [← w2_arg2 m ρ c]
  show StableHlo.after hostOps2 (W2 m ρ c) (Proc.devRef .tc main_v5) = _
  after_results
  rfl
private theorem w3_v3 (c : Dev nD) : ((W3 m ρ c (Proc.devRef .tc main_v3)) : IVec S800000 32) = (row0 (m ((c.tc : Thread nD τ).loc main_arg2))) := by
  rw [← w2_arg2 m ρ c]
  show StableHlo.after hostOps2 (W2 m ρ c) (Proc.devRef .tc main_v3) = _
  after_results
  rfl
private theorem w8_v5 (c : Dev nD) : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := by keeps hostOps3
    _ = W5 m ρ c (Proc.devRef .tc main_v5) := W6_of_ne m ρ c main_v5 (by decide)
    _ = W4 m ρ c (Proc.devRef .tc main_v5) := by keeps hostOps2_2
    _ = W3 m ρ c (Proc.devRef .tc main_v5) := by keeps hostOps2_1

private theorem w4_v3 (c : Dev nD) : W4 m ρ c (Proc.devRef .tc main_v3) = W3 m ρ c (Proc.devRef .tc main_v3) :=
  calc W4 m ρ c (Proc.devRef .tc main_v3)
    _ = W3 m ρ c (Proc.devRef .tc main_v3) := by keeps hostOps2_1

/-! ## The two encoders' outputs -/

private theorem w1_v0 (c : Dev nD) : ((W1 m ρ c (Proc.devRef .tc main_v0)) : Mat 100000 64) = (enc (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) :=
  (W1_arr m ρ c 5).trans (enc0 (V0 m ρ) c)
private theorem w2_v1 (c : Dev nD) : ((W2 m ρ c (Proc.devRef .tc main_v1)) : Mat 100000 64) = (enc (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))) := by
  refine (W2_arr m ρ c 5).trans ((enc1 (V1 m ρ) c).trans ?_)
  show enc (W1 m ρ c (Proc.devRef .tc main_arg1)) (W1 m ρ c (Proc.devRef .tc main_arg7)) (W1 m ρ c (Proc.devRef .tc main_arg8)) (W1 m ρ c (Proc.devRef .tc main_arg9)) (W1 m ρ c (Proc.devRef .tc main_arg10)) = _
  rw [w1_arg1, w1_arg7, w1_arg8, w1_arg9, w1_arg10]
private theorem w4_v0 (c : Dev nD) : W4 m ρ c (Proc.devRef .tc main_v0) = W1 m ρ c (Proc.devRef .tc main_v0) :=
  calc W4 m ρ c (Proc.devRef .tc main_v0)
    _ = W3 m ρ c (Proc.devRef .tc main_v0) := by keeps hostOps2_1
    _ = W2 m ρ c (Proc.devRef .tc main_v0) := by keeps hostOps2
    _ = W1 m ρ c (Proc.devRef .tc main_v0) := W2_of_ne m ρ c main_v0 (by decide)

private theorem w3_v1 (c : Dev nD) : W3 m ρ c (Proc.devRef .tc main_v1) = W2 m ρ c (Proc.devRef .tc main_v1) :=
  calc W3 m ρ c (Proc.devRef .tc main_v1)
    _ = W2 m ρ c (Proc.devRef .tc main_v1) := by keeps hostOps2

/-! ## The two guarded lookups -/

/-- Contents carried to a buffer's own type and back are the contents. -/
private theorem ofBuf_toBuf {T : BufTy} (x : StableHlo.TRef sig T) (v : T.Contents (Elt Ideal)) : x.ofBuf (x.toBuf v) = v := by
  obtain ⟨r, h, h2, h3⟩ := x
  subst h
  rfl

/-- At a literal buffer the carried type is the buffer's own, and the carrying is the identity. -/
private theorem ofBuf_v1 (u : main_v1.ty.Contents (Elt Ideal)) :
    (StableHlo.TRef.of main_v1 : StableHlo.TRef sig ⟨S100000x64, .f32⟩).ofBuf u = u := rfl
private theorem ofBuf_v0 (u : main_v0.ty.Contents (Elt Ideal)) :
    (StableHlo.TRef.of main_v0 : StableHlo.TRef sig ⟨S100000x64, .f32⟩).ofBuf u = u := rfl
private theorem ofBuf_v5 (u : main_v5.ty.Contents (Elt Ideal)) :
    (StableHlo.TRef.of main_v5 : StableHlo.TRef sig ⟨S800000, .i32⟩).ofBuf u = u := rfl
private theorem ofBuf_v3 (u : main_v3.ty.Contents (Elt Ideal)) :
    (StableHlo.TRef.of main_v3 : StableHlo.TRef sig ⟨S800000, .i32⟩).ofBuf u = u := rfl
private theorem toBuf_v6 (w : (⟨S800000x64, .f32⟩ : BufTy).Contents (Elt Ideal)) :
    (StableHlo.TRef.of main_v6 : StableHlo.TRef sig ⟨S800000x64, .f32⟩).toBuf w = w := rfl
private theorem toBuf_v7 (w : (⟨S800000x64, .f32⟩ : BufTy).Contents (Elt Ideal)) :
    (StableHlo.TRef.of main_v7 : StableHlo.TRef sig ⟨S800000x64, .f32⟩).toBuf w = w := rfl

/-- The first guarded lookup's stretch, from any contents: its result buffer holds the guarded lookup of the
    stretch's table buffer at its index buffer. -/
private theorem take0_of (V : Valuation τ sig (Elt Ideal)) :
    (StableHlo.after hostOps2_1 V (Proc.devRef .tc main_v6) : FVec Ideal S800000x64 .f32) = takeT (V (Proc.devRef .tc main_v1)) (V (Proc.devRef .tc main_v5)) := by
  after_results_simp
  simp only [ofBuf_toBuf, ofBuf_v1, ofBuf_v5, toBuf_v6]
  rfl
/-- The second guarded lookup's stretch, likewise. -/
private theorem take1_of (V : Valuation τ sig (Elt Ideal)) :
    (StableHlo.after hostOps2_2 V (Proc.devRef .tc main_v7) : FVec Ideal S800000x64 .f32) = takeT (V (Proc.devRef .tc main_v0)) (V (Proc.devRef .tc main_v3)) := by
  after_results_simp
  simp only [ofBuf_toBuf, ofBuf_v0, ofBuf_v3, toBuf_v7]
  rfl

private theorem w4_v6 (c : Dev nD) :
    ((W4 m ρ c (Proc.devRef .tc main_v6)) : FVec Ideal S800000x64 .f32) = takeT (W3 m ρ c (Proc.devRef .tc main_v1)) (W3 m ρ c (Proc.devRef .tc main_v5)) :=
  take0_of (W3 m ρ c)
private theorem w5_v7 (c : Dev nD) :
    ((W5 m ρ c (Proc.devRef .tc main_v7)) : FVec Ideal S800000x64 .f32) = takeT (W4 m ρ c (Proc.devRef .tc main_v0)) (W4 m ρ c (Proc.devRef .tc main_v3)) :=
  take1_of (W4 m ρ c)

private theorem w5_v6 (c : Dev nD) : W5 m ρ c (Proc.devRef .tc main_v6) = W4 m ρ c (Proc.devRef .tc main_v6) :=
  calc W5 m ρ c (Proc.devRef .tc main_v6)
    _ = W4 m ρ c (Proc.devRef .tc main_v6) := by keeps hostOps2_2

private theorem v5_v6 (c : Dev nD) (hI : IdxOK (m ((c.tc : Thread nD τ).loc main_arg2))) : ((W5 m ρ c (Proc.devRef .tc main_v6)) : Mat 800000 64) = gth (enc (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))) (row1 (m ((c.tc : Thread nD τ).loc main_arg2))) := by
  rw [w5_v6, w4_v6, w3_v1, w2_v1, w3_v5]
  exact take_eq _ _ (row1_ok _ hI)
private theorem v5_v7 (c : Dev nD) (hI : IdxOK (m ((c.tc : Thread nD τ).loc main_arg2))) : ((W5 m ρ c (Proc.devRef .tc main_v7)) : Mat 800000 64) = gth (enc (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (row0 (m ((c.tc : Thread nD τ).loc main_arg2))) := by
  rw [w5_v7, w4_v0, w1_v0, w4_v3, w3_v3]
  exact take_eq _ _ (row0_ok _ hI)

/-! ## The messages and their column sums -/

private theorem v5_msg (c : Dev nD) (hI : IdxOK (m ((c.tc : Thread nD τ).loc main_arg2))) : msgOf (V5 m ρ) c = (msg (gth (enc (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))) (row1 (m ((c.tc : Thread nD τ).loc main_arg2)))) (gth (enc (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (row0 (m ((c.tc : Thread nD τ).loc main_arg2)))) (m ((c.tc : Thread nD τ).loc main_arg11)) (m ((c.tc : Thread nD τ).loc main_arg12)) (m ((c.tc : Thread nD τ).loc main_arg13)) (m ((c.tc : Thread nD τ).loc main_arg14))) := by
  show msg (W5 m ρ c (Proc.devRef .tc main_v6)) (W5 m ρ c (Proc.devRef .tc main_v7)) (W5 m ρ c (Proc.devRef .tc main_arg11)) (W5 m ρ c (Proc.devRef .tc main_arg12)) (W5 m ρ c (Proc.devRef .tc main_arg13)) (W5 m ρ c (Proc.devRef .tc main_arg14)) = _
  rw [v5_v6 m ρ c hI, v5_v7 m ρ c hI, w5_arg11, w5_arg12, w5_arg13, w5_arg14]

private theorem w6_v8_0 (c : Dev nD) : ((W6 m ρ c (Proc.devRef .tc main_v8_0)) : Mat 800000 64) = (msgOf (V5 m ρ) c) :=
  (W6_arr m ρ c 6).trans (edge_msg (V5 m ρ) c)
private theorem w6_v8_1 (c : Dev nD) : ((W6 m ρ c (Proc.devRef .tc main_v8_1)) : Mat 1 64) = fun i => colsum (msgOf (V5 m ρ) c) (i 1) :=
  (W6_arr m ρ c 7).trans (edge_sum (V5 m ρ) c)
private theorem w6_v8_2 (c : Dev nD) : ((W6 m ρ c (Proc.devRef .tc main_v8_2)) : Mat 1 64) = fun i => colsumsq (msgOf (V5 m ρ) c) (i 1) :=
  (W6_arr m ρ c 8).trans (edge_sumsq (V5 m ρ) c)

/-! ## The statistics stretch: mean, variance, reciprocal deviation, the scale and shift rows -/

private theorem w7_v8_0 (c : Dev nD) : W7 m ρ c (Proc.devRef .tc main_v8_0) = W6 m ρ c (Proc.devRef .tc main_v8_0) :=
  calc W7 m ρ c (Proc.devRef .tc main_v8_0)
    _ = W6 m ρ c (Proc.devRef .tc main_v8_0) := by keeps hostOps3

private theorem n3x_eq (c : Dev nD) : n3x (V7 m ρ) c = (msgOf (V5 m ρ) c) :=
  (w7_v8_0 m ρ c).trans (w6_v8_0 m ρ c)
private theorem n3mu_eq (c : Dev nD) : n3mu (V7 m ρ) c = muT ((W6 m ρ c (Proc.devRef .tc main_v8_1)) : FVec Ideal S1x64 .f32) := by
  show StableHlo.after hostOps3 (W6 m ρ c) (Proc.devRef .tc main_v10) = _
  after_results
  rfl
private theorem n3rs_eq (c : Dev nD) : n3rs (V7 m ρ) c = rsT ((W6 m ρ c (Proc.devRef .tc main_v8_1)) : FVec Ideal S1x64 .f32) ((W6 m ρ c (Proc.devRef .tc main_v8_2)) : FVec Ideal S1x64 .f32) := by
  show StableHlo.after hostOps3 (W6 m ρ c) (Proc.devRef .tc main_v17) = _
  after_results
  rfl
private theorem n3g_eq (c : Dev nD) : n3g (V7 m ρ) c = rowT (m ((c.tc : Thread nD τ).loc main_arg15)) := by
  rw [← w6_arg15 m ρ c]
  show StableHlo.after hostOps3 (W6 m ρ c) (Proc.devRef .tc main_v18) = _
  after_results
  rfl
private theorem n3b_eq (c : Dev nD) : n3b (V7 m ρ) c = rowT (m ((c.tc : Thread nD τ).loc main_arg16)) := by
  rw [← w6_arg16 m ρ c]
  show StableHlo.after hostOps3 (W6 m ρ c) (Proc.devRef .tc main_v19) = _
  after_results
  rfl

/-! ## The standardised messages -/

private theorem w8_v20 (c : Dev nD) (hI : IdxOK (m ((c.tc : Thread nD τ).loc main_arg2))) :
    ((W8 m ρ c (Proc.devRef .tc main_v20)) : Mat 800000 64) = bnK (msg (gth (enc (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))) (row1 (m ((c.tc : Thread nD τ).loc main_arg2)))) (gth (enc (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (row0 (m ((c.tc : Thread nD τ).loc main_arg2)))) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16)) := by
  refine (W8_arr m ρ c 5).trans ((norm3 (V7 m ρ) c).trans ?_)
  rw [n3x_eq, n3mu_eq, n3rs_eq, n3g_eq, n3b_eq, ← v5_msg m ρ c hI]
  exact stats_bn (msgOf (V5 m ρ) c) _ _ _ _ (w6_v8_1 m ρ c) (w6_v8_2 m ρ c)

/-- The kernel program's result array, read through the fold of the buffer contents over the program's nine
    segments: the scatter-mean, onto the target nodes, of the standardised messages of the looked-up encoder rows.
    The lookups stay inside their table because every entry of the edge list names a node. -/
theorem result (c : Dev nD) (hI : IdxOK (m ((c.tc : Thread nD τ).loc main_arg2))) :
    (W9 m ρ c (Proc.devRef .tc main_v32) : Mat 100000 64)
      = tailT (bnK (msg
            (gth (enc (m ((c.tc : Thread nD τ).loc main_arg1)) (m ((c.tc : Thread nD τ).loc main_arg7)) (m ((c.tc : Thread nD τ).loc main_arg8))
              (m ((c.tc : Thread nD τ).loc main_arg9)) (m ((c.tc : Thread nD τ).loc main_arg10))) (row1 (m ((c.tc : Thread nD τ).loc main_arg2))))
            (gth (enc (m ((c.tc : Thread nD τ).loc main_arg0)) (m ((c.tc : Thread nD τ).loc main_arg3)) (m ((c.tc : Thread nD τ).loc main_arg4))
              (m ((c.tc : Thread nD τ).loc main_arg5)) (m ((c.tc : Thread nD τ).loc main_arg6))) (row0 (m ((c.tc : Thread nD τ).loc main_arg2))))
            (m ((c.tc : Thread nD τ).loc main_arg11)) (m ((c.tc : Thread nD τ).loc main_arg12)) (m ((c.tc : Thread nD τ).loc main_arg13))
            (m ((c.tc : Thread nD τ).loc main_arg14)))
          (m ((c.tc : Thread nD τ).loc main_arg15)) (m ((c.tc : Thread nD τ).loc main_arg16)))
        (row1 (m ((c.tc : Thread nD τ).loc main_arg2))) := by
  rw [tail_eq, w8_v20 m ρ c hI, w8_v5, w3_v5]

end Cert.KernelIdeal.KV

end
-- ==== Proof.RTerm.lean ====
/-
  The reference program's result as a composition of its own host operations, stage by stage: the two node
  encoders, the two index rows cut out of the edge list, the row lookups, the message network on the concatenated
  pair, the per-column batch statistics, the standardisation, and the scatter-mean onto the target nodes.
-/
import proofs.«401209_j58256936403066_1_alg».proof.Proof.Gen.ReferenceIdeal
import Idealize.ShloMosaic.PureOps.Ideal

noncomputable section

namespace Cert.ReferenceIdeal.RV

open Cert.ReferenceIdeal Cert.ReferenceIdeal.Gen Idealize.ShloMosaic

/-- The rectifier on a node-sized matrix: the maximum with a broadcast zero. -/
def reluN (x : FVec Ideal S100000x64 .f32) : FVec Ideal S100000x64 .f32 :=
  maximumf x (broadcastInDim S100000x64 ![] bcast_S_S100000x64 (constant S_ .f32 0x00000000#32))
/-- The rectifier on an edge-sized matrix. -/
def reluE (x : FVec Ideal S800000x64 .f32) : FVec Ideal S800000x64 .f32 :=
  maximumf x (broadcastInDim S800000x64 ![] bcast_S_S800000x64 (constant S_ .f32 0x00000000#32))
/-- A bias vector repeated down the rows of a node-sized matrix. -/
def biasN (b : FVec Ideal S64 .f32) : FVec Ideal S100000x64 .f32 :=
  broadcastInDim S100000x64 ![0, 1] bcast_S1x64_S100000x64_0_1 (broadcastInDim S1x64 ![1] bcast_S64_S1x64_1 b)
/-- A vector repeated down the rows of an edge-sized matrix. -/
def biasE (b : FVec Ideal S64 .f32) : FVec Ideal S800000x64 .f32 :=
  broadcastInDim S800000x64 ![0, 1] bcast_S1x64_S800000x64_0_1 (broadcastInDim S1x64 ![1] bcast_S64_S1x64_1 b)

/-- A node encoder: product, bias, rectifier, product, bias. -/
def encT (x : FVec Ideal S100000x2 .f32) (w1 : FVec Ideal S2x64 .f32) (b1 : FVec Ideal S64 .f32)
    (w2 : FVec Ideal S64x64 .f32) (b2 : FVec Ideal S64 .f32) : FVec Ideal S100000x64 .f32 :=
  addf (Host.dotGeneral dot_S100000x64_S64x64_S100000x64_1_0_0_1_n_n none
    (reluN (addf (Host.dotGeneral dot_S100000x2_S2x64_S100000x64_1_0_0_1_n_n none x w1) (biasN b1))) w2) (biasN b2)

/-- Row 0 of the edge list (the source node of each edge) as a vector. -/
def row0 (a2 : IVec S2x800000 32) : IVec S800000 32 :=
  fun i => shapeCast S800000 (extractStridedSlice S1x800000 ![0, 0] a2 slices_S2x800000_S1x800000_0_0) shapeCasts_S1x800000_S800000 i
/-- Row 1 of the edge list (the target node of each edge) as a vector. -/
def row1 (a2 : IVec S2x800000 32) : IVec S800000 32 :=
  fun i => shapeCast S800000 (extractStridedSlice S1x800000 ![1, 0] a2 slices_S2x800000_S1x800000_1_0) shapeCasts_S1x800000_S800000 i

/-- A negative index counted from the end: add the number of nodes to it. -/
def wrap (ix : IVec S800000 32) : IVec S800000 32 :=
  select (cmpi .slt ix (broadcastInDim S800000 ![] bcast_S_S800000 (constantI S_ 32 0#32)))
    (addi ix (broadcastInDim S800000 ![] bcast_S_S800000 (constantI S_ 32 100000#32))) ix

/-- The rows of a node-sized matrix picked by an index vector (an index past either end reads the nearest row). -/
def gth (t : FVec Ideal S100000x64 .f32) (ix : IVec S800000 32) : FVec Ideal S800000x64 .f32 :=
  Host.gather gather_S100000x64_S800000x1_S800000x64_1_0_n_n_0_1_164 t
    (broadcastInDim S800000x1 ![0] bcast_S800000_S800000x1_0 (wrap ix))

/-- The message network on the concatenated pair of looked-up rows. -/
def msgT (tg sg : FVec Ideal S800000x64 .f32) (w1 : FVec Ideal S128x64 .f32) (b1 : FVec Ideal S64 .f32)
    (w2 : FVec Ideal S64x64 .f32) (b2 : FVec Ideal S64 .f32) : FVec Ideal S800000x64 .f32 :=
  reluE (addf (Host.dotGeneral dot_S800000x64_S64x64_S800000x64_1_0_0_1_n_n none
    (reluE (addf (Host.dotGeneral dot_S800000x128_S128x64_S800000x64_1_0_0_1_n_n none
      (concatenate S800000x128 1 [⟨S800000x64, tg⟩, ⟨S800000x64, sg⟩] concatenates_S800000x64_S800000x64_S800000x128_d1) w1)
      (biasE b1))) w2) (biasE b2))

/-- The column means. -/
def meanT (m : FVec Ideal S800000x64 .f32) : FVec Ideal S64 .f32 :=
  Host.divf (Host.reduceAdd m (constant S_ .f32 0x00000000#32) reducesTo_S800000x64_S64_d0 h_S_)
    (broadcastInDim S64 ![] bcast_S_S64 (constant S_ .f32 0x49435000#32))

/-- The divisor of the variance: the edge count less the (zero) degrees-of-freedom correction. -/
def dofT : FVec Ideal S_ .f32 := subf (constant S_ .f32 0x49435000#32) (sitofp .f32 (constantI S_ 32 0#32))

/-- The column variances: the mean squared deviation, kept where the divisor is positive. -/
def varT (m : FVec Ideal S800000x64 .f32) : FVec Ideal S64 .f32 :=
  let mu4 : FVec Ideal S800000x64 .f32 := broadcastInDim S800000x64 ![0, 1] bcast_S1x64_S800000x64_0_1
    (Host.divf (broadcastInDim S1x64 ![1] bcast_S64_S1x64_1
      (Host.reduceAdd m (constant S_ .f32 0x00000000#32) reducesTo_S800000x64_S64_d0 h_S_))
      (broadcastInDim S1x64 ![] bcast_S_S1x64 (constant S_ .f32 0x49435000#32)))
  let d : FVec Ideal S800000x64 .f32 := subf m mu4
  select (broadcastInDim S64 ![] bcast_S_S64 (cmpf .ogt dofT (constant S_ .f32 0x00000000#32)))
    (Host.divf (Host.reduceAdd (mulf d d) (constant S_ .f32 0x00000000#32) reducesTo_S800000x64_S64_d0 h_S_)
      (broadcastInDim S64 ![] bcast_S_S64 dofT))
    (broadcastInDim S64 ![] bcast_S_S64 (constant S_ .f32 0x7FC00000#32))

/-- The standardised messages. -/
def bnT (m : FVec Ideal S800000x64 .f32) (g b : FVec Ideal S64 .f32) : FVec Ideal S800000x64 .f32 :=
  addf (mulf (mulf (subf m (biasE (meanT m)))
    (biasE (Host.rsqrt (addf (varT m) (broadcastInDim S64 ![] bcast_S_S64 (constant S_ .f32 0x3727C5AC#32))))))
    (biasE g)) (biasE b)

/-- The scatter-mean of an edge-sized matrix onto the target nodes: each node's sum of its edges' rows over the
    number of its edges (at least one). -/
def tailT (M : FVec Ideal S800000x64 .f32) (ix : IVec S800000 32) : FVec Ideal S100000x64 .f32 :=
  Host.divf
    (Host.scatterAdd scatter_S100000x64_S800000x1_S800000x64_1_0_0_1
      (broadcastInDim S100000x64 ![] bcast_S_S100000x64 (constant S_ .f32 0x00000000#32))
      (broadcastInDim S800000x1 ![0] bcast_S800000_S800000x1_0 ix) M)
    (broadcastInDim S100000x64 ![0, 1] bcast_S100000x1_S100000x64_0_1
      (broadcastInDim S100000x1 ![0] bcast_S100000_S100000x1_0
        (maximumf
          (Host.scatterAdd scatter_S100000_S800000x1_S800000_n_0_0_1
            (broadcastInDim S100000 ![] bcast_S_S100000 (constant S_ .f32 0x00000000#32))
            (broadcastInDim S800000x1 ![0] bcast_S800000_S800000x1_0 ix)
            (broadcastInDim S800000 ![] bcast_S_S800000 (constant S_ .f32 0x3F800000#32)))
          (broadcastInDim S100000 ![] bcast_S_S100000 (constant S_ .f32 0x3F800000#32)))))

/-- The whole reference: encoders, lookups, messages, standardisation, scatter-mean. -/
def out (a0 a1 : FVec Ideal S100000x2 .f32) (a2 : IVec S2x800000 32)
    (a3 : FVec Ideal S2x64 .f32) (a4 : FVec Ideal S64 .f32) (a5 : FVec Ideal S64x64 .f32) (a6 : FVec Ideal S64 .f32)
    (a7 : FVec Ideal S2x64 .f32) (a8 : FVec Ideal S64 .f32) (a9 : FVec Ideal S64x64 .f32) (a10 : FVec Ideal S64 .f32)
    (a11 : FVec Ideal S128x64 .f32) (a12 : FVec Ideal S64 .f32) (a13 : FVec Ideal S64x64 .f32) (a14 : FVec Ideal S64 .f32)
    (a15 a16 : FVec Ideal S64 .f32) : FVec Ideal S100000x64 .f32 :=
  tailT (bnT (msgT (gth (encT a1 a7 a8 a9 a10) (row1 a2)) (gth (encT a0 a3 a4 a5 a6) (row0 a2)) a11 a12 a13 a14) a15 a16)
    (row1 a2)

end Cert.ReferenceIdeal.RV

end
-- ==== Proof.RRun.lean ====
/-
  The reference program is a straight line of host operations (with its rectifier, variance and selection
  functions written out where they are called): every execution ends with the result buffer at the composition of
  those operations applied to the argument arrays, and the arguments as they were.

  The line is read in five stretches: the node encoders; the index rows and the row lookups; the message network;
  the column statistics; the standardisation and the scatter-mean. Each stretch's results are stated over the buffer
  contents it starts from, and a buffer a stretch does not write keeps its contents through it.
-/
import proofs.«401209_j58256936403066_1_alg».proof.Proof.RTerm
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-- The two node encoders: product, bias, rectifier, product, bias, once per node table. -/
abbrev opsEnc : List (HloOp τ sig (Elt F)) :=
  [ StableHlo.binary main_arg0 main_arg3 main_v0 ((fun l r => Host.dotGeneral dot_S100000x2_S2x64_S100000x64_1_0_0_1_n_n none l r) : (⟨S100000x2, .f32⟩ : BufTy).Contents (Elt F) → (⟨S2x64, .f32⟩ : BufTy).Contents (Elt F) → (⟨S100000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S100000x64, .f32⟩) main_call0_v0) (broadcastInDim S100000x64 ![] bcast_S_S100000x64),
    StableHlo.TRef.binary (StableHlo.TRef.of (T := ⟨S100000x64, .f32⟩) main_v3) (StableHlo.TRef.of (T := ⟨S100000x64, .f32⟩) main_call0_v0) (StableHlo.TRef.of (T := ⟨S100000x64, .f32⟩) main_v4) maximumf,
    StableHlo.binary main_v4 main_arg5 main_v5 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S100000x64 ![0, 1] bcast_S1x64_S100000x64_0_1 : (⟨S1x64, .f32⟩ : BufTy).Contents (Elt F) → (⟨S100000x64, .f32⟩ : BufTy).Contents (Elt F)),
    StableHlo.binary main_v5 main_v7 main_v8 (addf : (⟨S100000x64, .f32⟩ : BufTy).Contents (Elt F) → (⟨S100000x64, .f32⟩ : BufTy).Contents (Elt F) → (⟨S100000x64, .f32⟩ : BufTy).Contents (Elt F)),
    StableHlo.binary main_arg1 main_arg7 main_v9 ((fun l r => Host.dotGeneral dot_S100000x2_S2x64_S100000x64_1_0_0_1_n_n none l r) : (⟨S100000x2, .f32⟩ : BufTy).Contents (Elt F) → (⟨S2x64, .f32⟩ : BufTy).Contents (Elt F) → (⟨S100000x64, .f32⟩ : BufTy).Contents (Elt F)),
    StableHlo.unary main_arg8 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S100000x64 ![0, 1] bcast_S1x64_S100000x64_0_1 : (⟨S1x64, .f32⟩ : BufTy).Contents (Elt F) → (⟨S100000x64, .f32⟩ : BufTy).Contents (Elt F)),
    StableHlo.binary main_v9 main_v11 main_v12 (addf : (⟨S100000x64, .f32⟩ : BufTy).Contents (Elt F) → (⟨S100000x64, .f32⟩ : BufTy).Contents (Elt F) → (⟨S100000x64, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S100000x64, .f32⟩) main_call1_v0) (broadcastInDim S100000x64 ![] bcast_S_S100000x64),
    StableHlo.TRef.binary (StableHlo.TRef.of (T := ⟨S100000x64, .f32⟩) main_v12) (StableHlo.TRef.of (T := ⟨S100000x64, .f32⟩) main_call1_v0) (StableHlo.TRef.of (T := ⟨S100000x64, .f32⟩) main_v13) maximumf,
    StableHlo.binary main_v13 main_arg9 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S100000x64 ![0, 1] bcast_S1x64_S100000x64_0_1 : (⟨S1x64, .f32⟩ : BufTy).Contents (Elt F) → (⟨S100000x64, .f32⟩ : BufTy).Contents (Elt F)),
    StableHlo.binary main_v14 main_v16 main_v17 (addf : (⟨S100000x64, .f32⟩ : BufTy).Contents (Elt F) → (⟨S100000x64, .f32⟩ : BufTy).Contents (Elt F) → (⟨S100000x64, .f32⟩ : BufTy).Contents (Elt F)) ]

/-- The buffers those operations write. -/
abbrev opsEnc_W : List (Ref sig .tc) := [main_v0, main_v1, main_v2, main_v3, main_call0_cst, main_call0_v0, main_v4, main_v5, main_v6, main_v7, main_v8, main_v9, main_v10, main_v11, main_v12, main_call1_cst, main_call1_v0, main_v13, main_v14, main_v15, main_v16, main_v17]

/-- The two index rows cut out of the edge list, each wrapped from the end where negative, and the row lookups. -/
abbrev opsGth : List (HloOp τ sig (Elt F)) :=
  [ StableHlo.unary main_arg2 main_v18 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v18 main_v19 rfl shapeCasts_S1x800000_S800000,
    StableHlo.unary main_arg2 main_v20 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v20 main_v21 rfl shapeCasts_S1x800000_S800000,
    StableHlo.nullary main_c (constantI S_ 32 0#32),
    StableHlo.unary main_c main_v22 (broadcastInDim S800000 ![] bcast_S_S800000 : (⟨S_, .i32⟩ : BufTy).Contents (Elt F) → (⟨S800000, .i32⟩ : BufTy).Contents (Elt F)),
    StableHlo.binary main_v21 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v24 (broadcastInDim S800000 ![] bcast_S_S800000 : (⟨S_, .i32⟩ : BufTy).Contents (Elt F) → (⟨S800000, .i32⟩ : BufTy).Contents (Elt F)),
    StableHlo.binary main_v21 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v21 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_v17 main_v27 main_v28 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v29 (broadcastInDim S800000 ![] bcast_S_S800000 : (⟨S_, .i32⟩ : BufTy).Contents (Elt F) → (⟨S800000, .i32⟩ : BufTy).Contents (Elt F)),
    StableHlo.binary main_v19 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 100000#32),
    StableHlo.unary main_c_2 main_v31 (broadcastInDim S800000 ![] bcast_S_S800000 : (⟨S_, .i32⟩ : BufTy).Contents (Elt F) → (⟨S800000, .i32⟩ : BufTy).Contents (Elt F)),
    StableHlo.binary main_v19 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v19 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.binary main_v8 main_v34 main_v35 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)) ]

/-- The buffers those operations write. -/
abbrev opsGth_W : List (Ref sig .tc) := [main_v18, main_v19, main_v20, main_v21, main_c, main_v22, main_v23, main_c_0, main_v24, main_v25, main_v26, main_v27, main_v28, main_c_1, main_v29, main_v30, main_c_2, main_v31, main_v32, main_v33, main_v34, main_v35]

/-- The message network: the concatenated pair of looked-up rows, two affine layers, each followed by the rectifier. -/
abbrev opsMsg : List (HloOp τ sig (Elt F)) :=
  [ StableHlo.binary main_v28 main_v35 main_v36 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.binary main_v36 main_arg11 main_v37 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg12 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S800000x64 ![0, 1] bcast_S1x64_S800000x64_0_1 : (⟨S1x64, .f32⟩ : BufTy).Contents (Elt F) → (⟨S800000x64, .f32⟩ : BufTy).Contents (Elt F)),
    StableHlo.binary main_v37 main_v39 main_v40 (addf : (⟨S800000x64, .f32⟩ : BufTy).Contents (Elt F) → (⟨S800000x64, .f32⟩ : BufTy).Contents (Elt F) → (⟨S800000x64, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S800000x64, .f32⟩) main_call2_v0) (broadcastInDim S800000x64 ![] bcast_S_S800000x64),
    StableHlo.TRef.binary (StableHlo.TRef.of (T := ⟨S800000x64, .f32⟩) main_v40) (StableHlo.TRef.of (T := ⟨S800000x64, .f32⟩) main_call2_v0) (StableHlo.TRef.of (T := ⟨S800000x64, .f32⟩) main_v41) maximumf,
    StableHlo.binary main_v41 main_arg13 main_v42 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg14 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S800000x64 ![0, 1] bcast_S1x64_S800000x64_0_1 : (⟨S1x64, .f32⟩ : BufTy).Contents (Elt F) → (⟨S800000x64, .f32⟩ : BufTy).Contents (Elt F)),
    StableHlo.binary main_v42 main_v44 main_v45 (addf : (⟨S800000x64, .f32⟩ : BufTy).Contents (Elt F) → (⟨S800000x64, .f32⟩ : BufTy).Contents (Elt F) → (⟨S800000x64, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S800000x64, .f32⟩) main_call3_v0) (broadcastInDim S800000x64 ![] bcast_S_S800000x64),
    StableHlo.TRef.binary (StableHlo.TRef.of (T := ⟨S800000x64, .f32⟩) main_v45) (StableHlo.TRef.of (T := ⟨S800000x64, .f32⟩) main_call3_v0) (StableHlo.TRef.of (T := ⟨S800000x64, .f32⟩) main_v46) maximumf ]

/-- The buffers those operations write. -/
abbrev opsMsg_W : List (Ref sig .tc) := [main_v36, main_v37, main_v38, main_v39, main_v40, main_call2_cst, main_call2_v0, main_v41, main_v42, main_v43, main_v44, main_v45, main_call3_cst, main_call3_v0, main_v46]

/-- The per-column batch statistics: the mean, and the variance as the mean squared deviation kept where its divisor is positive. -/
abbrev opsStat : List (HloOp τ sig (Elt F)) :=
  [ StableHlo.nullary main_cst (constant S_ .f32 0x00000000#32),
    StableHlo.binary main_v46 main_cst main_v47 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    StableHlo.nullary main_cst_3 (constant S_ .f32 0x49435000#32),
    StableHlo.unary main_cst_3 main_v48 (broadcastInDim S64 ![] bcast_S_S64 : (⟨S_, .f32⟩ : BufTy).Contents (Elt F) → (⟨S64, .f32⟩ : BufTy).Contents (Elt F)),
    StableHlo.binary main_v47 main_v48 main_v49 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary (StableHlo.TRef.of (T := ⟨S_, .f32⟩) main_call4_cst) (constant S_ .f32 0x00000000#32),
    StableHlo.TRef.binary (StableHlo.TRef.of (T := ⟨S800000x64, .f32⟩) main_v46) (StableHlo.TRef.of (T := ⟨S_, .f32⟩) main_call4_cst) (StableHlo.TRef.of (T := ⟨S64, .f32⟩) main_call4_v0) (fun x v => Host.reduceAdd x v reducesTo_S800000x64_S64_d0 h_S_),
    StableHlo.TRef.unary (StableHlo.TRef.of (T := ⟨S64, .f32⟩) main_call4_v0) (StableHlo.TRef.of (T := ⟨S1x64, .f32⟩) main_call4_v1) (broadcastInDim S1x64 ![1] bcast_S64_S1x64_1),
    StableHlo.TRef.nullary (StableHlo.TRef.of (T := ⟨S_, .f32⟩) main_call4_cst_0) (constant S_ .f32 0x49435000#32),
    StableHlo.TRef.unary (StableHlo.TRef.of (T := ⟨S_, .f32⟩) main_call4_cst_0) (StableHlo.TRef.of (T := ⟨S1x64, .f32⟩) main_call4_v2) (broadcastInDim S1x64 ![] bcast_S_S1x64),
    StableHlo.TRef.binary (StableHlo.TRef.of (T := ⟨S1x64, .f32⟩) main_call4_v1) (StableHlo.TRef.of (T := ⟨S1x64, .f32⟩) main_call4_v2) (StableHlo.TRef.of (T := ⟨S1x64, .f32⟩) main_call4_v3) Host.divf,
    StableHlo.TRef.unary (StableHlo.TRef.of (T := ⟨S1x64, .f32⟩) main_call4_v3) (StableHlo.TRef.of (T := ⟨S800000x64, .f32⟩) main_call4_v4) (broadcastInDim S800000x64 ![0, 1] bcast_S1x64_S800000x64_0_1),
    StableHlo.TRef.binary (StableHlo.TRef.of (T := ⟨S800000x64, .f32⟩) main_v46) (StableHlo.TRef.of (T := ⟨S800000x64, .f32⟩) main_call4_v4) (StableHlo.TRef.of (T := ⟨S800000x64, .f32⟩) main_call4_v5) subf,
    StableHlo.TRef.binary (StableHlo.TRef.of (T := ⟨S800000x64, .f32⟩) main_call4_v5) (StableHlo.TRef.of (T := ⟨S800000x64, .f32⟩) main_call4_v5) (StableHlo.TRef.of (T := ⟨S800000x64, .f32⟩) main_call4_v6) mulf,
    StableHlo.TRef.unary (StableHlo.TRef.of (T := ⟨S_, .i32⟩) main_c_4) (StableHlo.TRef.of (T := ⟨S_, .f32⟩) main_call4_v7) (sitofp .f32),
    StableHlo.TRef.nullary (StableHlo.TRef.of (T := ⟨S_, .f32⟩) main_call4_cst_1) (constant S_ .f32 0x49435000#32),
    StableHlo.TRef.binary (StableHlo.TRef.of (T := ⟨S_, .f32⟩) main_call4_cst_1) (StableHlo.TRef.of (T := ⟨S_, .f32⟩) main_call4_v7) (StableHlo.TRef.of (T := ⟨S_, .f32⟩) main_call4_v8) subf,
    StableHlo.TRef.nullary (StableHlo.TRef.of (T := ⟨S_, .f32⟩) main_call4_cst_2) (constant S_ .f32 0x00000000#32),
    StableHlo.TRef.binary (StableHlo.TRef.of (T := ⟨S800000x64, .f32⟩) main_call4_v6) (StableHlo.TRef.of (T := ⟨S_, .f32⟩) main_call4_cst_2) (StableHlo.TRef.of (T := ⟨S64, .f32⟩) main_call4_v9) (fun x v => Host.reduceAdd x v reducesTo_S800000x64_S64_d0 h_S_),
    StableHlo.TRef.unary (StableHlo.TRef.of (T := ⟨S_, .f32⟩) main_call4_v8) (StableHlo.TRef.of (T := ⟨S64, .f32⟩) main_call4_v10) (broadcastInDim S64 ![] bcast_S_S64),
    StableHlo.TRef.binary (StableHlo.TRef.of (T := ⟨S64, .f32⟩) main_call4_v9) (StableHlo.TRef.of (T := ⟨S64, .f32⟩) main_call4_v10) (StableHlo.TRef.of (T := ⟨S64, .f32⟩) main_call4_v11) Host.divf,
    StableHlo.TRef.nullary (StableHlo.TRef.of (T := ⟨S_, .f32⟩) main_call4_cst_3) (constant S_ .f32 0x00000000#32),
    StableHlo.TRef.binary (StableHlo.TRef.of (T := ⟨S_, .f32⟩) main_call4_v8) (StableHlo.TRef.of (T := ⟨S_, .f32⟩) main_call4_cst_3) (StableHlo.TRef.of (T := ⟨S_, .i1⟩) main_call4_v12) (cmpf .ogt),
    StableHlo.TRef.nullary (StableHlo.TRef.of (T := ⟨S_, .f32⟩) main_call4_cst_4) (constant S_ .f32 0x7FC00000#32),
    StableHlo.TRef.unary (StableHlo.TRef.of (T := ⟨S_, .f32⟩) main_call4_cst_4) (StableHlo.TRef.of (T := ⟨S_, .f32⟩) main_call4_call0_v0) id,
    StableHlo.TRef.unary (StableHlo.TRef.of (T := ⟨S_, .f32⟩) main_call4_call0_v0) (StableHlo.TRef.of (T := ⟨S64, .f32⟩) main_call4_call0_v1) (broadcastInDim S64 ![] bcast_S_S64),
    StableHlo.TRef.ternary (StableHlo.TRef.of (T := ⟨S_, .i1⟩) main_call4_v12) (StableHlo.TRef.of (T := ⟨S64, .f32⟩) main_call4_v11) (StableHlo.TRef.of (T := ⟨S64, .f32⟩) main_call4_call0_v1) (StableHlo.TRef.of (T := ⟨S64, .f32⟩) main_v50) (fun p a b => select (broadcastInDim S64 ![] bcast_S_S64 p) a b),
    StableHlo.unary main_v49 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S800000x64 ![0, 1] bcast_S1x64_S800000x64_0_1 : (⟨S1x64, .f32⟩ : BufTy).Contents (Elt F) → (⟨S800000x64, .f32⟩ : BufTy).Contents (Elt F)) ]

/-- The buffers those operations write. -/
abbrev opsStat_W : List (Ref sig .tc) := [main_cst, main_v47, main_cst_3, main_v48, main_v49, main_c_4, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v50, main_v51, main_v52]

/-- The standardisation, its scale and shift, and the scatter-mean onto the target nodes. -/
abbrev opsTail : List (HloOp τ sig (Elt F)) :=
  [ StableHlo.binary main_v46 main_v52 main_v53 (subf : (⟨S800000x64, .f32⟩ : BufTy).Contents (Elt F) → (⟨S800000x64, .f32⟩ : BufTy).Contents (Elt F) → (⟨S800000x64, .f32⟩ : BufTy).Contents (Elt F)),
    StableHlo.nullary main_cst_5 (constant S_ .f32 0x3727C5AC#32),
    StableHlo.unary main_cst_5 main_v54 (broadcastInDim S64 ![] bcast_S_S64 : (⟨S_, .f32⟩ : BufTy).Contents (Elt F) → (⟨S64, .f32⟩ : BufTy).Contents (Elt F)),
    StableHlo.binary main_v50 main_v54 main_v55 (addf : (⟨S64, .f32⟩ : BufTy).Contents (Elt F) → (⟨S64, .f32⟩ : BufTy).Contents (Elt F) → (⟨S64, .f32⟩ : BufTy).Contents (Elt F)),
    StableHlo.unary main_v55 main_v56 (Host.rsqrt : (⟨S64, .f32⟩ : BufTy).Contents (Elt F) → (⟨S64, .f32⟩ : BufTy).Contents (Elt F)),
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S800000x64 ![0, 1] bcast_S1x64_S800000x64_0_1 : (⟨S1x64, .f32⟩ : BufTy).Contents (Elt F) → (⟨S800000x64, .f32⟩ : BufTy).Contents (Elt F)),
    StableHlo.binary main_v53 main_v58 main_v59 (mulf : (⟨S800000x64, .f32⟩ : BufTy).Contents (Elt F) → (⟨S800000x64, .f32⟩ : BufTy).Contents (Elt F) → (⟨S800000x64, .f32⟩ : BufTy).Contents (Elt F)),
    StableHlo.unary main_arg15 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S800000x64 ![0, 1] bcast_S1x64_S800000x64_0_1 : (⟨S1x64, .f32⟩ : BufTy).Contents (Elt F) → (⟨S800000x64, .f32⟩ : BufTy).Contents (Elt F)),
    StableHlo.binary main_v59 main_v61 main_v62 (mulf : (⟨S800000x64, .f32⟩ : BufTy).Contents (Elt F) → (⟨S800000x64, .f32⟩ : BufTy).Contents (Elt F) → (⟨S800000x64, .f32⟩ : BufTy).Contents (Elt F)),
    StableHlo.unary main_arg16 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S800000x64 ![0, 1] bcast_S1x64_S800000x64_0_1 : (⟨S1x64, .f32⟩ : BufTy).Contents (Elt F) → (⟨S800000x64, .f32⟩ : BufTy).Contents (Elt F)),
    StableHlo.binary main_v62 main_v64 main_v65 (addf : (⟨S800000x64, .f32⟩ : BufTy).Contents (Elt F) → (⟨S800000x64, .f32⟩ : BufTy).Contents (Elt F) → (⟨S800000x64, .f32⟩ : BufTy).Contents (Elt F)),
    StableHlo.nullary main_cst_6 (constant S_ .f32 0x00000000#32),
    StableHlo.unary main_cst_6 main_v66 (broadcastInDim S100000x64 ![] bcast_S_S100000x64 : (⟨S_, .f32⟩ : BufTy).Contents (Elt F) → (⟨S100000x64, .f32⟩ : BufTy).Contents (Elt F)),
    StableHlo.unary main_v21 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_7 (constant S_ .f32 0x3F800000#32),
    StableHlo.unary main_cst_7 main_v69 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v70 (broadcastInDim S100000 ![] bcast_S_S100000 : (⟨S_, .f32⟩ : BufTy).Contents (Elt F) → (⟨S100000, .f32⟩ : BufTy).Contents (Elt F)),
    StableHlo.unary main_v21 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_9 (constant S_ .f32 0x3F800000#32),
    StableHlo.unary main_cst_9 main_v73 (broadcastInDim S100000 ![] bcast_S_S100000 : (⟨S_, .f32⟩ : BufTy).Contents (Elt F) → (⟨S100000, .f32⟩ : BufTy).Contents (Elt F)),
    StableHlo.binary main_v72 main_v73 main_v74 (maximumf : (⟨S100000, .f32⟩ : BufTy).Contents (Elt F) → (⟨S100000, .f32⟩ : BufTy).Contents (Elt F) → (⟨S100000, .f32⟩ : BufTy).Contents (Elt F)),
    StableHlo.unary main_v74 main_v75 (broadcastInDim S100000x1 ![0] bcast_S100000_S100000x1_0 : (⟨S100000, .f32⟩ : BufTy).Contents (Elt F) → (⟨S100000x1, .f32⟩ : BufTy).Contents (Elt F)),
    StableHlo.unary main_v75 main_v76 (broadcastInDim S100000x64 ![0, 1] bcast_S100000x1_S100000x64_0_1 : (⟨S100000x1, .f32⟩ : BufTy).Contents (Elt F) → (⟨S100000x64, .f32⟩ : BufTy).Contents (Elt F)),
    StableHlo.binary main_v68 main_v76 main_v77 (Host.divf : (⟨S100000x64, .f32⟩ : BufTy).Contents (Elt F) → (⟨S100000x64, .f32⟩ : BufTy).Contents (Elt F) → (⟨S100000x64, .f32⟩ : BufTy).Contents (Elt F)) ]

/-- The buffers those operations write. -/
abbrev opsTail_W : List (Ref sig .tc) := [main_v53, main_cst_5, main_v54, main_v55, main_v56, main_v57, main_v58, main_v59, main_v60, main_v61, main_v62, main_v63, main_v64, main_v65, main_cst_6, main_v66, main_v67, main_v68, main_cst_7, main_v69, main_cst_8, main_v70, main_v71, main_v72, main_cst_9, main_v73, main_v74, main_v75, main_v76, main_v77]

/-- The line before its last stretch, and the whole line. -/
abbrev ops0 : List (HloOp τ sig (Elt F)) := opsEnc ++ (opsGth ++ (opsMsg ++ opsStat))
abbrev ops : List (HloOp τ sig (Elt F)) := ops0 ++ opsTail

/-- The contents after two lines run one after the other. -/
private theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- An operation that writes one buffer of a list writes within the list. -/
private theorem writes_sub_of {op : HloOp τ sig (Elt Ideal)} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- Contents moved to a buffer's own type and back are the contents. -/
private theorem ofBuf_toBuf {T : BufTy} (x : StableHlo.TRef sig T) (v : T.Contents (Elt Ideal)) :
    x.ofBuf (Val := Elt Ideal) (x.toBuf v) = v := by
  obtain ⟨r, h, hd, hs⟩ := x
  subst h
  rfl

/-! ## The program is the line -/

set_option maxRecDepth 8192 in
set_option maxHeartbeats 4000000 in
theorem part0_eq (c : Dev nD) : main_part0 (F := Ideal) c = seq ops0 := rfl
set_option maxRecDepth 8192 in
set_option maxHeartbeats 4000000 in
theorem part1_eq (c : Dev nD) : main_part1 (F := Ideal) c = seq opsTail := rfl
theorem main_eq (c : Dev nD) : main (F := Ideal) c = seq ops := by
  show main (F := Ideal) c = seq (ops0 ++ opsTail)
  rw [seq_append, ← part0_eq c, ← part1_eq c]
  rfl
theorem scopedRefs_eq : (Finset.univ.filter fun b : Ref sig .tc => b.isScoped) = ∅ := by decide
theorem scopedSems_eq : (Finset.univ.filter fun sm : SemLoc sig => sm.isScoped .tc) = ∅ := by decide

theorem opsEnc_sub : (opsEnc : List (HloOp τ sig (Elt Ideal))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsEnc_fresh : (opsEnc : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl⟩
theorem opsEnc_writes : (opsEnc : List (HloOp τ sig (Elt Ideal))).Forall fun op =>
    op.writes ⊆ (opsEnc_W.map (Proc.devRef (τ := τ) .tc)).toFinset :=
  ⟨writes_sub_of main_v0 rfl (by decide),
    writes_sub_of main_v1 rfl (by decide),
    writes_sub_of main_v2 rfl (by decide),
    writes_sub_of main_v3 rfl (by decide),
    writes_sub_of main_call0_cst rfl (by decide),
    writes_sub_of main_call0_v0 rfl (by decide),
    writes_sub_of main_v4 rfl (by decide),
    writes_sub_of main_v5 rfl (by decide),
    writes_sub_of main_v6 rfl (by decide),
    writes_sub_of main_v7 rfl (by decide),
    writes_sub_of main_v8 rfl (by decide),
    writes_sub_of main_v9 rfl (by decide),
    writes_sub_of main_v10 rfl (by decide),
    writes_sub_of main_v11 rfl (by decide),
    writes_sub_of main_v12 rfl (by decide),
    writes_sub_of main_call1_cst rfl (by decide),
    writes_sub_of main_call1_v0 rfl (by decide),
    writes_sub_of main_v13 rfl (by decide),
    writes_sub_of main_v14 rfl (by decide),
    writes_sub_of main_v15 rfl (by decide),
    writes_sub_of main_v16 rfl (by decide),
    writes_sub_of main_v17 rfl (by decide)⟩
/-- A buffer those operations do not write keeps its contents through them. -/
theorem opsEnc_keep (V : Valuation τ sig (Elt Ideal)) (r : Ref sig .tc) (h : r ∉ opsEnc_W) :
    after opsEnc V (Proc.devRef .tc r) = V (Proc.devRef .tc r) :=
  after_of_writes_sub opsEnc V opsEnc_writes h

theorem opsGth_sub : (opsGth : List (HloOp τ sig (Elt Ideal))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsGth_fresh : (opsGth : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl⟩
theorem opsGth_writes : (opsGth : List (HloOp τ sig (Elt Ideal))).Forall fun op =>
    op.writes ⊆ (opsGth_W.map (Proc.devRef (τ := τ) .tc)).toFinset :=
  ⟨writes_sub_of main_v18 rfl (by decide),
    writes_sub_of main_v19 rfl (by decide),
    writes_sub_of main_v20 rfl (by decide),
    writes_sub_of main_v21 rfl (by decide),
    writes_sub_of main_c rfl (by decide),
    writes_sub_of main_v22 rfl (by decide),
    writes_sub_of main_v23 rfl (by decide),
    writes_sub_of main_c_0 rfl (by decide),
    writes_sub_of main_v24 rfl (by decide),
    writes_sub_of main_v25 rfl (by decide),
    writes_sub_of main_v26 rfl (by decide),
    writes_sub_of main_v27 rfl (by decide),
    writes_sub_of main_v28 rfl (by decide),
    writes_sub_of main_c_1 rfl (by decide),
    writes_sub_of main_v29 rfl (by decide),
    writes_sub_of main_v30 rfl (by decide),
    writes_sub_of main_c_2 rfl (by decide),
    writes_sub_of main_v31 rfl (by decide),
    writes_sub_of main_v32 rfl (by decide),
    writes_sub_of main_v33 rfl (by decide),
    writes_sub_of main_v34 rfl (by decide),
    writes_sub_of main_v35 rfl (by decide)⟩
/-- A buffer those operations do not write keeps its contents through them. -/
theorem opsGth_keep (V : Valuation τ sig (Elt Ideal)) (r : Ref sig .tc) (h : r ∉ opsGth_W) :
    after opsGth V (Proc.devRef .tc r) = V (Proc.devRef .tc r) :=
  after_of_writes_sub opsGth V opsGth_writes h

theorem opsMsg_sub : (opsMsg : List (HloOp τ sig (Elt Ideal))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsMsg_fresh : (opsMsg : List (HloOp τ sig (Elt Ideal))).Forall fun op => op.fresh = ∅ :=
  ⟨rfl, rfl, rfl, rfl, rfl, rfl, rfl, rfl, rfl, rfl, rfl, rfl, rfl, rfl, rfl⟩
theorem opsMsg_writes : (opsMsg : List (HloOp τ sig (Elt Ideal))).Forall fun op =>
    op.writes ⊆ (opsMsg_W.map (Proc.devRef (τ := τ) .tc)).toFinset :=
  ⟨writes_sub_of main_v36 rfl (by decide),
    writes_sub_of main_v37 rfl (by decide),
    writes_sub_of main_v38 rfl (by decide),
    writes_sub_of main_v39 rfl (by decide),
    writes_sub_of main_v40 rfl (by decide),
    writes_sub_of main_call2_cst rfl (by decide),
    writes_sub_of main_call2_v0 rfl (by decide),
    writes_sub_of main_v41 rfl (by decide),
    writes_sub_of main_v42 rfl (by decide),
    writes_sub_of main_v43 rfl (by decide),
    writes_sub_of main_v44 rfl (by decide),
    writes_sub_of main_v45 rfl (by decide),
    writes_sub_of main_call3_cst rfl (by decide),
    writes_sub_of main_call3_v0 rfl (by decide),
    writes_sub_of main_v46 rfl (by decide)⟩
/-- A buffer those operations do not write keeps its contents through them. -/
theorem opsMsg_keep (V : Valuation τ sig (Elt Ideal)) (r : Ref sig .tc) (h : r ∉ opsMsg_W) :
    after opsMsg V (Proc.devRef .tc r) = V (Proc.devRef .tc r) :=
  after_of_writes_sub opsMsg V opsMsg_writes h

theorem opsStat_sub : (opsStat : List (HloOp τ sig (Elt Ideal))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩
theorem opsStat_fresh : (opsStat : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsStat_writes : (opsStat : List (HloOp τ sig (Elt Ideal))).Forall fun op =>
    op.writes ⊆ (opsStat_W.map (Proc.devRef (τ := τ) .tc)).toFinset :=
  ⟨writes_sub_of main_cst rfl (by decide),
    writes_sub_of main_v47 rfl (by decide),
    writes_sub_of main_cst_3 rfl (by decide),
    writes_sub_of main_v48 rfl (by decide),
    writes_sub_of main_v49 rfl (by decide),
    writes_sub_of main_c_4 rfl (by decide),
    writes_sub_of main_call4_cst rfl (by decide),
    writes_sub_of main_call4_v0 rfl (by decide),
    writes_sub_of main_call4_v1 rfl (by decide),
    writes_sub_of main_call4_cst_0 rfl (by decide),
    writes_sub_of main_call4_v2 rfl (by decide),
    writes_sub_of main_call4_v3 rfl (by decide),
    writes_sub_of main_call4_v4 rfl (by decide),
    writes_sub_of main_call4_v5 rfl (by decide),
    writes_sub_of main_call4_v6 rfl (by decide),
    writes_sub_of main_call4_v7 rfl (by decide),
    writes_sub_of main_call4_cst_1 rfl (by decide),
    writes_sub_of main_call4_v8 rfl (by decide),
    writes_sub_of main_call4_cst_2 rfl (by decide),
    writes_sub_of main_call4_v9 rfl (by decide),
    writes_sub_of main_call4_v10 rfl (by decide),
    writes_sub_of main_call4_v11 rfl (by decide),
    writes_sub_of main_call4_cst_3 rfl (by decide),
    writes_sub_of main_call4_v12 rfl (by decide),
    writes_sub_of main_call4_cst_4 rfl (by decide),
    writes_sub_of main_call4_call0_v0 rfl (by decide),
    writes_sub_of main_call4_call0_v1 rfl (by decide),
    writes_sub_of main_v50 rfl (by decide),
    writes_sub_of main_v51 rfl (by decide),
    writes_sub_of main_v52 rfl (by decide)⟩
/-- A buffer those operations do not write keeps its contents through them. -/
theorem opsStat_keep (V : Valuation τ sig (Elt Ideal)) (r : Ref sig .tc) (h : r ∉ opsStat_W) :
    after opsStat V (Proc.devRef .tc r) = V (Proc.devRef .tc r) :=
  after_of_writes_sub opsStat V opsStat_writes h

theorem opsTail_sub : (opsTail : List (HloOp τ sig (Elt Ideal))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem opsTail_fresh : (opsTail : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsTail_writes : (opsTail : List (HloOp τ sig (Elt Ideal))).Forall fun op =>
    op.writes ⊆ (opsTail_W.map (Proc.devRef (τ := τ) .tc)).toFinset :=
  ⟨writes_sub_of main_v53 rfl (by decide),
    writes_sub_of main_cst_5 rfl (by decide),
    writes_sub_of main_v54 rfl (by decide),
    writes_sub_of main_v55 rfl (by decide),
    writes_sub_of main_v56 rfl (by decide),
    writes_sub_of main_v57 rfl (by decide),
    writes_sub_of main_v58 rfl (by decide),
    writes_sub_of main_v59 rfl (by decide),
    writes_sub_of main_v60 rfl (by decide),
    writes_sub_of main_v61 rfl (by decide),
    writes_sub_of main_v62 rfl (by decide),
    writes_sub_of main_v63 rfl (by decide),
    writes_sub_of main_v64 rfl (by decide),
    writes_sub_of main_v65 rfl (by decide),
    writes_sub_of main_cst_6 rfl (by decide),
    writes_sub_of main_v66 rfl (by decide),
    writes_sub_of main_v67 rfl (by decide),
    writes_sub_of main_v68 rfl (by decide),
    writes_sub_of main_cst_7 rfl (by decide),
    writes_sub_of main_v69 rfl (by decide),
    writes_sub_of main_cst_8 rfl (by decide),
    writes_sub_of main_v70 rfl (by decide),
    writes_sub_of main_v71 rfl (by decide),
    writes_sub_of main_v72 rfl (by decide),
    writes_sub_of main_cst_9 rfl (by decide),
    writes_sub_of main_v73 rfl (by decide),
    writes_sub_of main_v74 rfl (by decide),
    writes_sub_of main_v75 rfl (by decide),
    writes_sub_of main_v76 rfl (by decide),
    writes_sub_of main_v77 rfl (by decide)⟩
/-- A buffer those operations do not write keeps its contents through them. -/
theorem opsTail_keep (V : Valuation τ sig (Elt Ideal)) (r : Ref sig .tc) (h : r ∉ opsTail_W) :
    after opsTail V (Proc.devRef .tc r) = V (Proc.devRef .tc r) :=
  after_of_writes_sub opsTail V opsTail_writes h

theorem ops_sub : (ops : List (HloOp τ sig (Elt Ideal))).Forall fun op => op.bufs ⊆ tcRefs τ sig :=
  List.forall_iff_forall_mem.mpr fun op h => by
    simp only [ops, ops0, List.mem_append] at h
    rcases h with (h | h | h | h) | h
    exacts [List.forall_iff_forall_mem.mp opsEnc_sub op h, List.forall_iff_forall_mem.mp opsGth_sub op h,
      List.forall_iff_forall_mem.mp opsMsg_sub op h, List.forall_iff_forall_mem.mp opsStat_sub op h,
      List.forall_iff_forall_mem.mp opsTail_sub op h]
theorem ops_fresh : ∀ op ∈ (ops : List (HloOp τ sig (Elt Ideal))), op.fresh = ∅ := fun op h => by
  simp only [ops, ops0, List.mem_append] at h
  rcases h with (h | h | h | h) | h
  exacts [List.forall_iff_forall_mem.mp opsEnc_fresh op h, List.forall_iff_forall_mem.mp opsGth_fresh op h,
    List.forall_iff_forall_mem.mp opsMsg_fresh op h, List.forall_iff_forall_mem.mp opsStat_fresh op h,
    List.forall_iff_forall_mem.mp opsTail_fresh op h]

/-- The contents after the whole line: the stretches in turn. -/
theorem after_ops (V : Valuation τ sig (Elt Ideal)) :
    after ops V = after opsTail (after opsStat (after opsMsg (after opsGth (after opsEnc V)))) := by
  show after ((opsEnc ++ (opsGth ++ (opsMsg ++ opsStat))) ++ opsTail) V = _
  simp only [after_append]

/-- A buffer no stretch writes keeps its contents through the line. -/
theorem ops_keep (V : Valuation τ sig (Elt Ideal)) (r : Ref sig .tc) (h1 : r ∉ opsEnc_W) (h2 : r ∉ opsGth_W) (h3 : r ∉ opsMsg_W)
    (h4 : r ∉ opsStat_W) (h5 : r ∉ opsTail_W) : after ops V (Proc.devRef .tc r) = V (Proc.devRef .tc r) := by
  rw [after_ops, opsTail_keep _ r h5, opsStat_keep _ r h4, opsMsg_keep _ r h3, opsGth_keep _ r h2, opsEnc_keep _ r h1]

/-! ## Each stretch's results -/

set_option maxRecDepth 8192 in
set_option maxHeartbeats 2000000 in
/-- The first encoder's result. -/
theorem enc_v8 (V : Valuation τ sig (Elt Ideal)) :
    after opsEnc V (Proc.devRef .tc main_v8) = encT (V (Proc.devRef .tc main_arg0)) (V (Proc.devRef .tc main_arg3)) (V (Proc.devRef .tc main_arg4)) (V (Proc.devRef .tc main_arg5)) (V (Proc.devRef .tc main_arg6)) := by
  simp only [opsEnc]
  after_results_simp
  rfl

set_option maxRecDepth 8192 in
set_option maxHeartbeats 2000000 in
/-- The second encoder's result. -/
theorem enc_v17 (V : Valuation τ sig (Elt Ideal)) :
    after opsEnc V (Proc.devRef .tc main_v17) = encT (V (Proc.devRef .tc main_arg1)) (V (Proc.devRef .tc main_arg7)) (V (Proc.devRef .tc main_arg8)) (V (Proc.devRef .tc main_arg9)) (V (Proc.devRef .tc main_arg10)) := by
  simp only [opsEnc]
  after_results_simp
  rfl

set_option maxRecDepth 8192 in
set_option maxHeartbeats 2000000 in
/-- The target row of the edge list. -/
theorem gth_v21 (V : Valuation τ sig (Elt Ideal)) :
    after opsGth V (Proc.devRef .tc main_v21) = row1 (V (Proc.devRef .tc main_arg2)) := by
  simp only [opsGth]
  after_results_simp
  rfl

set_option maxRecDepth 8192 in
set_option maxHeartbeats 2000000 in
/-- The second table's rows at the targets. -/
theorem gth_v28 (V : Valuation τ sig (Elt Ideal)) :
    after opsGth V (Proc.devRef .tc main_v28) = gth (V (Proc.devRef .tc main_v17)) (row1 (V (Proc.devRef .tc main_arg2))) := by
  simp only [opsGth]
  after_results_simp
  rfl

set_option maxRecDepth 8192 in
set_option maxHeartbeats 2000000 in
/-- The first table's rows at the sources. -/
theorem gth_v35 (V : Valuation τ sig (Elt Ideal)) :
    after opsGth V (Proc.devRef .tc main_v35) = gth (V (Proc.devRef .tc main_v8)) (row0 (V (Proc.devRef .tc main_arg2))) := by
  simp only [opsGth]
  after_results_simp
  rfl

set_option maxRecDepth 8192 in
set_option maxHeartbeats 2000000 in
/-- The messages. -/
theorem msg_v46 (V : Valuation τ sig (Elt Ideal)) :
    after opsMsg V (Proc.devRef .tc main_v46) = msgT (V (Proc.devRef .tc main_v28)) (V (Proc.devRef .tc main_v35)) (V (Proc.devRef .tc main_arg11)) (V (Proc.devRef .tc main_arg12)) (V (Proc.devRef .tc main_arg13)) (V (Proc.devRef .tc main_arg14)) := by
  simp only [opsMsg]
  after_results_simp
  rfl

set_option maxRecDepth 8192 in
set_option maxHeartbeats 2000000 in
/-- The column means, repeated down the rows. -/
theorem stat_v52 (V : Valuation τ sig (Elt Ideal)) :
    after opsStat V (Proc.devRef .tc main_v52) = biasE (meanT (V (Proc.devRef .tc main_v46))) := by
  simp only [opsStat]
  after_results_simp
  rfl

set_option maxRecDepth 8192 in
set_option maxHeartbeats 2000000 in
/-- The column variances. -/
theorem stat_v50 (V : Valuation τ sig (Elt Ideal)) :
    after opsStat V (Proc.devRef .tc main_v50) = varT (V (Proc.devRef .tc main_v46)) := by
  simp only [opsStat]
  after_results_simp
  simp only [ofBuf_toBuf]
  rfl

set_option maxRecDepth 8192 in
set_option maxHeartbeats 2000000 in
/-- The scatter-mean of the standardised messages, over the statistics as buffers. -/
theorem tail_v77 (V : Valuation τ sig (Elt Ideal)) :
    after opsTail V (Proc.devRef .tc main_v77) = tailT (addf (mulf (mulf (subf (V (Proc.devRef .tc main_v46)) (V (Proc.devRef .tc main_v52)))
        (biasE (Host.rsqrt (addf (V (Proc.devRef .tc main_v50)) (broadcastInDim S64 ![] bcast_S_S64 (constant S_ .f32 0x3727C5AC#32))))))
        (biasE (V (Proc.devRef .tc main_arg15)))) (biasE (V (Proc.devRef .tc main_arg16)))) (V (Proc.devRef .tc main_v21)) := by
  simp only [opsTail]
  after_results_simp
  rfl

/-! ## The result of the whole line -/

/-- The result buffer after the line is `out` of the argument arrays. -/
theorem out_eq (V : Valuation τ sig (Elt Ideal)) :
    after ops V (Proc.devRef .tc main_v77)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops, tail_v77,
    opsStat_keep _ main_v46 (by decide), stat_v52, stat_v50, opsStat_keep _ main_arg15 (by decide),
    opsStat_keep _ main_arg16 (by decide), opsStat_keep _ main_v21 (by decide),
    msg_v46, opsMsg_keep _ main_arg15 (by decide), opsMsg_keep _ main_arg16 (by decide), opsMsg_keep _ main_v21 (by decide),
    gth_v28, gth_v35, gth_v21, opsGth_keep _ main_arg11 (by decide), opsGth_keep _ main_arg12 (by decide),
    opsGth_keep _ main_arg13 (by decide), opsGth_keep _ main_arg14 (by decide), opsGth_keep _ main_arg15 (by decide),
    opsGth_keep _ main_arg16 (by decide),
    enc_v17, enc_v8, opsEnc_keep _ main_arg2 (by decide), opsEnc_keep _ main_arg11 (by decide), opsEnc_keep _ main_arg12 (by decide), opsEnc_keep _ main_arg13 (by decide), opsEnc_keep _ main_arg14 (by decide), opsEnc_keep _ main_arg15 (by decide), opsEnc_keep _ main_arg16 (by decide)]
  rfl

/-- On every device, from any memory with zero counters: every weakly fair execution of the reference terminates
    with its result at `out` of the argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v77).trans (out_eq _),
      (h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide)),
      (h c main_arg4).trans (ops_keep _ main_arg4 (by decide) (by decide) (by decide) (by decide) (by decide)),
      (h c main_arg5).trans (ops_keep _ main_arg5 (by decide) (by decide) (by decide) (by decide) (by decide)),
      (h c main_arg6).trans (ops_keep _ main_arg6 (by decide) (by decide) (by decide) (by decide) (by decide)),
      (h c main_arg7).trans (ops_keep _ main_arg7 (by decide) (by decide) (by decide) (by decide) (by decide)),
      (h c main_arg8).trans (ops_keep _ main_arg8 (by decide) (by decide) (by decide) (by decide) (by decide)),
      (h c main_arg9).trans (ops_keep _ main_arg9 (by decide) (by decide) (by decide) (by decide) (by decide)),
      (h c main_arg10).trans (ops_keep _ main_arg10 (by decide) (by decide) (by decide) (by decide) (by decide)),
      (h c main_arg11).trans (ops_keep _ main_arg11 (by decide) (by decide) (by decide) (by decide) (by decide)),
      (h c main_arg12).trans (ops_keep _ main_arg12 (by decide) (by decide) (by decide) (by decide) (by decide)),
      (h c main_arg13).trans (ops_keep _ main_arg13 (by decide) (by decide) (by decide) (by decide) (by decide)),
      (h c main_arg14).trans (ops_keep _ main_arg14 (by decide) (by decide) (by decide) (by decide) (by decide)),
      (h c main_arg15).trans (ops_keep _ main_arg15 (by decide) (by decide) (by decide) (by decide) (by decide)),
      (h c main_arg16).trans (ops_keep _ main_arg16 (by decide) (by decide) (by decide) (by decide) (by decide))⟩)
    (run_seq scopedRefs_eq scopedSems_eq defs main (fun _ => ops) main_eq (fun _ => ops_sub) m ρ (fun _ => ops_fresh))

end Cert.ReferenceIdeal.RV

end
-- ==== Proof.REncMsg.lean ====
import proofs.«401209_j58256936403066_1_alg».proof.Proof.RTerm
import proofs.«401209_j58256936403066_1_alg».proof.Proof.Spec
import Idealize.ShloMosaic.PureOps.Ideal.Laws
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value
import Mathlib.Algebra.BigOperators.Fin

noncomputable section

namespace Cert.ReferenceIdeal.RV

open Cert.ReferenceIdeal Cert.ReferenceIdeal.Gen Idealize.ShloMosaic Idealize.ShloMosaic.ValueIdx
open Cert.Spec
open scoped BigOperators

/-- A vector laid out as a one-row matrix reads the vector's entry at the column. -/
private theorem row_apply (b : FVec Ideal S64 .f32) (k : Fin 64) :
    broadcastInDim S1x64 ![1] bcast_S64_S1x64_1 b (ix2 (0 : Fin 1) k) = b (ix1 k) := by
  refine broadcastInDim_apply ![1] bcast_S64_S1x64_1 b (ix2 (0 : Fin 1) k) (ix1 k) ?_
  intro a
  match a with
  | ⟨0, _⟩ =>
    show k.val = if (64 : ℕ) = 1 then 0 else k.val
    simp

/-- The bias repeated down the rows of a node-sized matrix reads the bias at the column. -/
private theorem biasN_apply (b : FVec Ideal S64 .f32) (n : Fin 100000) (k : Fin 64) :
    biasN b (ix2 n k) = b (ix1 k) := by
  unfold biasN
  exact (broadcastInDim_oneRow_apply bcast_S1x64_S100000x64_0_1 _ n k).trans (row_apply b k)

/-- The bias repeated down the rows of an edge-sized matrix reads the bias at the column. -/
private theorem biasE_apply (b : FVec Ideal S64 .f32) (e : Fin 800000) (k : Fin 64) :
    biasE b (ix2 e k) = b (ix1 k) := by
  unfold biasE
  exact (broadcastInDim_oneRow_apply bcast_S1x64_S800000x64_0_1 _ e k).trans (row_apply b k)

/-- The rectifier on a node-sized matrix is the maximum with zero, entry by entry. -/
private theorem reluN_apply (x : FVec Ideal S100000x64 .f32) (i : S100000x64.Idx) : reluN x i = max (x i) 0 := by
  unfold reluN
  rw [maximumf_apply, broadcastInDim_scalar_apply, constant_apply, Ideal.ofBits_zero_f32]

/-- The rectifier on an edge-sized matrix is the maximum with zero, entry by entry. -/
private theorem reluE_apply (x : FVec Ideal S800000x64 .f32) (i : S800000x64.Idx) : reluE x i = max (x i) 0 := by
  unfold reluE
  rw [maximumf_apply, broadcastInDim_scalar_apply, constant_apply, Ideal.ofBits_zero_f32]

/-- A sum over 128 rows is the sum over the upper 64 plus the sum over the lower 64. -/
private theorem sum_halves (f : Fin 128 → EReal) :
    ∑ c : Fin 128, f c = (∑ d : Fin 64, f (upper d)) + ∑ d : Fin 64, f (lower d) :=
  Fin.sum_univ_add (a := 64) (b := 64) f

/-- The product of the node features with the first weight matrix: the sum over the two feature columns. -/
private theorem dotN1_apply (x : FVec Ideal S100000x2 .f32) (w : FVec Ideal S2x64 .f32) (n : Fin 100000) (k : Fin 64) :
    Host.dotGeneral dot_S100000x2_S2x64_S100000x64_1_0_0_1_n_n none x w (ix2 n k)
      = ∑ c : Fin 2, x (ix2 n c) * w (ix2 c k) :=
  StackMember.dotGeneral_plain_apply none x w n k

/-- The product of a node-sized hidden layer with a square weight matrix: the sum over the 64 hidden columns. -/
private theorem dotN2_apply (x : FVec Ideal S100000x64 .f32) (w : FVec Ideal S64x64 .f32) (n : Fin 100000) (k : Fin 64) :
    Host.dotGeneral dot_S100000x64_S64x64_S100000x64_1_0_0_1_n_n none x w (ix2 n k)
      = ∑ c : Fin 64, x (ix2 n c) * w (ix2 c k) :=
  StackMember.dotGeneral_plain_apply none x w n k

/-- The product of the concatenated pairs with the 128-row weight matrix: the sum over the 128 columns. -/
private theorem dotE1_apply (x : FVec Ideal S800000x128 .f32) (w : FVec Ideal S128x64 .f32) (e : Fin 800000) (k : Fin 64) :
    Host.dotGeneral dot_S800000x128_S128x64_S800000x64_1_0_0_1_n_n none x w (ix2 e k)
      = ∑ c : Fin 128, x (ix2 e c) * w (ix2 c k) :=
  StackMember.dotGeneral_plain_apply none x w e k

/-- The product of an edge-sized hidden layer with a square weight matrix: the sum over the 64 hidden columns. -/
private theorem dotE2_apply (x : FVec Ideal S800000x64 .f32) (w : FVec Ideal S64x64 .f32) (e : Fin 800000) (k : Fin 64) :
    Host.dotGeneral dot_S800000x64_S64x64_S800000x64_1_0_0_1_n_n none x w (ix2 e k)
      = ∑ c : Fin 64, x (ix2 e c) * w (ix2 c k) :=
  StackMember.dotGeneral_plain_apply none x w e k

/-- The concatenated pair read in its first 64 columns is the target row. -/
private theorem cat_upper (tg sg : FVec Ideal S800000x64 .f32) (e : Fin 800000) (d : Fin 64) :
    concatenate S800000x128 1 [⟨S800000x64, tg⟩, ⟨S800000x64, sg⟩] concatenates_S800000x64_S800000x64_S800000x128_d1
      (ix2 e (upper d)) = tg (ix2 e d) := by
  refine concatenate_pair_apply_left (t := S800000x128) (s₁ := S800000x64) (s₂ := S800000x64) (1 : Fin 2) tg sg
    concatenates_S800000x64_S800000x64_S800000x128_d1 (ix2 e (upper d)) rfl (ix2 e d) ?_
  intro b
  match b with
  | ⟨0, _⟩ => rfl
  | ⟨1, _⟩ => rfl

/-- The concatenated pair read in its last 64 columns is the source row. -/
private theorem cat_lower (tg sg : FVec Ideal S800000x64 .f32) (e : Fin 800000) (d : Fin 64) :
    concatenate S800000x128 1 [⟨S800000x64, tg⟩, ⟨S800000x64, sg⟩] concatenates_S800000x64_S800000x64_S800000x128_d1
      (ix2 e (lower d)) = sg (ix2 e d) := by
  refine concatenate_pair_apply_right (t := S800000x128) (s₁ := S800000x64) (s₂ := S800000x64) (1 : Fin 2) tg sg
    concatenates_S800000x64_S800000x64_S800000x128_d1 (ix2 e (lower d)) rfl rfl (ix2 e d) ?_ ?_
  · intro b hb
    match b with
    | ⟨0, _⟩ => rfl
    | ⟨1, _⟩ => exact absurd rfl hb
  · show d.val + 64 = 64 + d.val
    omega

/-- The reference's node encoder, read entry by entry: each product with a weight matrix is the sum over the one
    contracted coordinate, the bias is read at the column, the rectifier is the maximum with zero. -/
theorem encT_eq (x : FVec Ideal S100000x2 .f32) (w1 : FVec Ideal S2x64 .f32) (b1 : FVec Ideal S64 .f32)
    (w2 : FVec Ideal S64x64 .f32) (b2 : FVec Ideal S64 .f32) :
    (encT x w1 b1 w2 b2 : Mat 100000 64) = enc x w1 b1 w2 b2 := by
  funext i
  obtain ⟨n, k, rfl⟩ : ∃ (n : Fin 100000) (k : Fin 64), i = ix2 n k := ⟨i 0, i 1, eq_ix2 i⟩
  rw [enc_ix2]
  unfold encT encAt
  rw [addf_apply, biasN_apply, dotN2_apply]
  refine congrArg (· + b2 (ix1 k)) (Finset.sum_congr rfl fun h _ => ?_)
  rw [reluN_apply, addf_apply, biasN_apply, dotN1_apply]
  rfl

/-- The reference's message network, read entry by entry: the product of the concatenated pair with the 128-row
    weight matrix splits into the target row against its upper half plus the source row against its lower half. -/
theorem msgT_eq (tg sg : FVec Ideal S800000x64 .f32) (w1 : FVec Ideal S128x64 .f32) (b1 : FVec Ideal S64 .f32)
    (w2 : FVec Ideal S64x64 .f32) (b2 : FVec Ideal S64 .f32) :
    (msgT tg sg w1 b1 w2 b2 : Mat 800000 64) = msg tg sg w1 b1 w2 b2 := by
  funext i
  obtain ⟨e, k, rfl⟩ : ∃ (e : Fin 800000) (k : Fin 64), i = ix2 e k := ⟨i 0, i 1, eq_ix2 i⟩
  rw [msg_ix2]
  unfold msgT msgAt
  rw [reluE_apply, addf_apply, biasE_apply, dotE2_apply]
  refine congrArg (fun s => max (s + b2 (ix1 k)) 0) (Finset.sum_congr rfl fun h _ => ?_)
  refine congrArg (· * w2 (ix2 h k)) ?_
  unfold hidAt
  rw [reluE_apply, addf_apply, biasE_apply, dotE1_apply, sum_halves]
  refine congrArg (fun s => max (s + b1 (ix1 h)) 0) ?_
  refine congrArg₂ (· + ·) (Finset.sum_congr rfl fun d _ => ?_) (Finset.sum_congr rfl fun d _ => ?_)
  · rw [cat_upper]
  · rw [cat_lower]

end Cert.ReferenceIdeal.RV

end
-- ==== Proof.RNorm.lean ====
import proofs.«401209_j58256936403066_1_alg».proof.Proof.RTerm
import proofs.«401209_j58256936403066_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RV

open Cert.ReferenceIdeal Cert.ReferenceIdeal.Gen Idealize.ShloMosaic Idealize.ShloMosaic.ValueIdx
open Cert.Spec
open scoped BigOperators

/-- The reduction over the rows, as the witness that names the inserted row coordinate. -/
private theorem red : S800000x64.Reduces [0] S64 := by decide

/-- A one-row matrix repeated down the rows reads its own entry in the same column. -/
private theorem rows_apply {α : Type} (y : S1x64.Idx → α) (e : Fin 800000) (k : Fin 64) :
    broadcastInDim S800000x64 ![0, 1] bcast_S1x64_S800000x64_0_1 y (ix2 e k) = y (ix2 (0 : Fin 1) k) :=
  broadcastInDim_apply _ _ _ _ (ix2 (0 : Fin 1) k) (by intro a; fin_cases a <;> rfl)

/-- A vector laid out as a one-row matrix reads the vector's entry. -/
private theorem row_apply {α : Type} (v : S64.Idx → α) (k : Fin 64) :
    broadcastInDim S1x64 ![1] bcast_S64_S1x64_1 v (ix2 (0 : Fin 1) k) = v (ix1 k) :=
  broadcastInDim_apply _ _ _ _ (ix1 k) (by intro a; fin_cases a; rfl)

/-- A vector repeated down the rows reads the vector's entry in the same column. -/
private theorem biasE_apply (v : FVec Ideal S64 .f32) (e : Fin 800000) (k : Fin 64) :
    biasE v (ix2 e k) = v (ix1 k) := by
  unfold biasE
  rw [rows_apply, row_apply]

/-- The sum over the rows from a zero start is the column's sum. -/
private theorem sum0_apply (x : FVec Ideal S800000x64 .f32) (k : Fin 64) :
    Host.reduceAdd x (constant S_ .f32 0x00000000#32) reducesTo_S800000x64_S64_d0 h_S_ (ix1 k)
      = ∑ e : Fin 800000, x (ix2 e k) := by
  rw [hostReduceAdd_apply, Ideal.hostReduceAdd_single reducesTo_S800000x64_S64_d0 red, constant_apply,
    Ideal.ofBits_zero_f32, zero_add]
  refine Finset.sum_congr rfl fun e _ => congrArg x ?_
  funext a; fin_cases a <;> exact Fin.ext rfl

/-- The column means are the specification's. -/
private theorem meanT_apply (m : FVec Ideal S800000x64 .f32) (k : Fin 64) :
    meanT m (ix1 k) = mean m k := by
  unfold meanT
  rw [hostDivf_apply, sum0_apply, broadcastInDim_scalar_apply, constant_apply]
  rfl

/-- The edge count's word is the real number 800000. -/
private theorem nE_val : nE = ((800000 : ℝ) : EReal) := by
  simp [Ideal.ofBits, Ideal.ieee, -EReal.coe_mul]; norm_num

/-- The variance's divisor is the edge count: the correction subtracted from it is zero. -/
private theorem dofT_val : dofT ix0 = nE := by
  unfold dofT
  rw [subf_apply, sitofp_apply, constant_apply]
  show nE - (((0#32 : BitVec 32).toInt : ℝ) : EReal) = nE
  simp

/-- The divisor is positive, so the guard holds in every column. -/
private theorem guard_val (k : Fin 64) :
    broadcastInDim S64 ![] bcast_S_S64 (cmpf .ogt dofT (constant S_ .f32 0x00000000#32)) (ix1 k) = 1#1 := by
  rw [broadcastInDim_scalar_apply, cmpf_apply, constant_apply, dofT_val]
  show Ideal.cmp .ogt nE (Ideal.ofBits .f32 0x00000000#32) = 1#1
  rw [Ideal.ofBits_zero_f32, nE_val]
  unfold Ideal.cmp
  have h : (0 : EReal) < ((800000 : ℝ) : EReal) := by exact_mod_cast (by norm_num : (0 : ℝ) < 800000)
  simp [h]

/-- The column variances are the specification's mean squared deviation. -/
private theorem varT_apply (m : FVec Ideal S800000x64 .f32) (k : Fin 64) :
    varT m (ix1 k) = varR m k := by
  unfold varT
  dsimp only
  rw [select_apply, guard_val, select_one, hostDivf_apply, sum0_apply, broadcastInDim_scalar_apply, dofT_val]
  unfold varR
  refine congrArg (fun s => Ideal.div s nE) (Finset.sum_congr rfl fun e _ => ?_)
  rw [mulf_apply, subf_apply, rows_apply, hostDivf_apply, row_apply, sum0_apply, broadcastInDim_scalar_apply,
    constant_apply]
  rfl

/-- The reciprocal deviations are the specification's. -/
private theorem rstdT_apply (m : FVec Ideal S800000x64 .f32) (k : Fin 64) :
    Host.rsqrt (addf (varT m) (broadcastInDim S64 ![] bcast_S_S64 (constant S_ .f32 0x3727C5AC#32))) (ix1 k)
      = rstdR m k := by
  show Ideal.rsqrt (addf (varT m) (broadcastInDim S64 ![] bcast_S_S64 (constant S_ .f32 0x3727C5AC#32)) (ix1 k)) = rstdR m k
  rw [addf_apply, varT_apply, broadcastInDim_scalar_apply, constant_apply]
  rfl

/-- The reference's standardisation, read entry by entry: the column mean is the column sum over the edge count,
    the variance is the mean squared deviation (its divisor, the edge count less zero, is positive, so the guard
    keeps it), and each entry is centred, scaled and shifted. -/
theorem bnT_eq (m : FVec Ideal S800000x64 .f32) (g b : FVec Ideal S64 .f32) :
    (bnT m g b : Mat 800000 64) = bnR m g b := by
  funext j
  obtain ⟨e, k, rfl⟩ : ∃ e k, j = ix2 e k := ⟨j 0, j 1, eq_ix2 j⟩
  rw [bnR_ix2]
  unfold bnT bnAt
  rw [addf_apply, mulf_apply, mulf_apply, subf_apply, biasE_apply, biasE_apply, biasE_apply, biasE_apply,
    meanT_apply, rstdT_apply]

end Cert.ReferenceIdeal.RV

end
-- ==== Proof.Bridge.lean ====
/-
  The two programs meet. Both results are the scatter-mean, onto the target nodes, of the standardised messages of
  the looked-up encoder rows; the kernel standardises with the variance as the mean of squares minus the squared
  mean, the reference with the mean squared deviation, and on real-valued messages these agree. The inputs are
  real-valued and the edge list names nodes by the precondition, so the encoders' rows, the lookups and the
  messages are real-valued.
-/
import proofs.«401209_j58256936403066_1_alg».proof.Defs
import proofs.«401209_j58256936403066_1_alg».proof.Proof.Spec
import proofs.«401209_j58256936403066_1_alg».proof.Proof.SpecReal
import proofs.«401209_j58256936403066_1_alg».proof.Proof.PreFacts
import proofs.«401209_j58256936403066_1_alg».proof.Proof.KTerm
import proofs.«401209_j58256936403066_1_alg».proof.Proof.KTake
import proofs.«401209_j58256936403066_1_alg».proof.Proof.KHost
import proofs.«401209_j58256936403066_1_alg».proof.Proof.KRun
import proofs.«401209_j58256936403066_1_alg».proof.Proof.RTerm
import proofs.«401209_j58256936403066_1_alg».proof.Proof.RRun
import proofs.«401209_j58256936403066_1_alg».proof.Proof.REncMsg
import proofs.«401209_j58256936403066_1_alg».proof.Proof.RNorm
import proofs.«401209_j58256936403066_1_alg».proof.Proof.Gen.Pre_finite_inputs

noncomputable section

namespace Cert.Proof.Bridge

open Idealize.ShloMosaic Idealize.ShloMosaic.TcCoe Idealize.SL.Sem Idealize.ShloMosaic.ValueIdx
open Cert.Spec

/-! ## The shared host pieces are the same functions in both programs -/

theorem row0_eq (a2 : IVec Cert.KernelIdeal.S2x800000 32) : Cert.KernelIdeal.KV.row0 a2 = Cert.ReferenceIdeal.RV.row0 a2 := rfl
theorem row1_eq (a2 : IVec Cert.KernelIdeal.S2x800000 32) : Cert.KernelIdeal.KV.row1 a2 = Cert.ReferenceIdeal.RV.row1 a2 := rfl
theorem gth_eq (t : FVec Ideal Cert.KernelIdeal.S100000x64 .f32) (ix : IVec Cert.KernelIdeal.S800000 32) :
    Cert.KernelIdeal.KV.gth t ix = Cert.ReferenceIdeal.RV.gth t ix := rfl
theorem tailT_eq (M : FVec Ideal Cert.KernelIdeal.S800000x64 .f32) (ix : IVec Cert.KernelIdeal.S800000 32) :
    Cert.KernelIdeal.KV.tailT M ix = Cert.ReferenceIdeal.RV.tailT M ix := rfl

/-! ## The reference's result in the shared mathematics -/

open Cert.ReferenceIdeal Cert.ReferenceIdeal.RV in
theorem out_spec (a0 a1 : FVec Ideal S100000x2 .f32) (a2 : IVec S2x800000 32)
    (a3 : FVec Ideal S2x64 .f32) (a4 : FVec Ideal S64 .f32) (a5 : FVec Ideal S64x64 .f32) (a6 : FVec Ideal S64 .f32)
    (a7 : FVec Ideal S2x64 .f32) (a8 : FVec Ideal S64 .f32) (a9 : FVec Ideal S64x64 .f32) (a10 : FVec Ideal S64 .f32)
    (a11 : FVec Ideal S128x64 .f32) (a12 : FVec Ideal S64 .f32) (a13 : FVec Ideal S64x64 .f32) (a14 : FVec Ideal S64 .f32)
    (a15 a16 : FVec Ideal S64 .f32) :
    out a0 a1 a2 a3 a4 a5 a6 a7 a8 a9 a10 a11 a12 a13 a14 a15 a16
      = tailT (bnR (msg (gth (enc a1 a7 a8 a9 a10) (row1 a2)) (gth (enc a0 a3 a4 a5 a6) (row0 a2)) a11 a12 a13 a14) a15 a16) (row1 a2) := by
  unfold out
  rw [encT_eq, encT_eq, msgT_eq, bnT_eq]

/-! ## The kernel's form is the reference's form under the precondition -/

open Cert.KernelIdeal Cert.KernelIdeal.KV in
theorem forms_agree (a0 a1 : FVec Ideal S100000x2 .f32) (a2 : IVec S2x800000 32)
    (a3 : FVec Ideal S2x64 .f32) (a4 : FVec Ideal S64 .f32) (a5 : FVec Ideal S64x64 .f32) (a6 : FVec Ideal S64 .f32)
    (a7 : FVec Ideal S2x64 .f32) (a8 : FVec Ideal S64 .f32) (a9 : FVec Ideal S64x64 .f32) (a10 : FVec Ideal S64 .f32)
    (a11 : FVec Ideal S128x64 .f32) (a12 : FVec Ideal S64 .f32) (a13 : FVec Ideal S64x64 .f32) (a14 : FVec Ideal S64 .f32)
    (a15 a16 : FVec Ideal S64 .f32)
    (h0 : IsReal a0) (h1 : IsReal a1) (h3 : IsReal a3) (h4 : IsReal a4) (h5 : IsReal a5) (h6 : IsReal a6) (h7 : IsReal a7)
    (h8 : IsReal a8) (h9 : IsReal a9) (h10 : IsReal a10) (h11 : IsReal a11) (h12 : IsReal a12) (h13 : IsReal a13) (h14 : IsReal a14) :
    tailT (bnK (msg (gth (enc a1 a7 a8 a9 a10) (row1 a2)) (gth (enc a0 a3 a4 a5 a6) (row0 a2)) a11 a12 a13 a14) a15 a16) (row1 a2)
      = Cert.ReferenceIdeal.RV.out a0 a1 a2 a3 a4 a5 a6 a7 a8 a9 a10 a11 a12 a13 a14 a15 a16 := by
  rw [out_spec, ← tailT_eq, ← gth_eq, ← gth_eq, ← row0_eq, ← row1_eq]
  rw [bnK_eq_bnR _ (msg_real _ _ _ _ _ _ (gth_real _ _ (enc_real _ _ _ _ _ h1 h7 h8 h9 h10))
    (gth_real _ _ (enc_real _ _ _ _ _ h0 h3 h4 h5 h6)) h11 h12 h13 h14)]

end Cert.Proof.Bridge

end
-- ==== Proof.lean ====
/-
  The certificate of a graph message-passing layer: two node encoders, a row lookup per edge end, an edge-message
  network with batch normalisation over all edges, and a scatter-mean onto the target nodes.

  The kernel program runs the encoders, the message network (with the batch sums accumulated block by block) and
  the standardisation as four tiled regions among host operations; the reference is one straight line of host
  operations. Over the extended reals both compute the same function of the inputs wherever the inputs are finite
  and every entry of the edge list names a node: the tiling and the order of the sums do not matter, a change of
  float format is the identity, the product with the 128-row weight matrix splits into its two halves, and the
  variance as mean of squares minus squared mean is the mean squared deviation on real-valued columns.
  Outside that domain the claim would not hold: the kernel program's lookup fills an out-of-range row with a
  not-a-number while the reference's lookup reads the nearest row.
-/
import proofs.«401209_j58256936403066_1_alg».proof.Defs
import proofs.«401209_j58256936403066_1_alg».proof.Proof.Gen.Kernel
import proofs.«401209_j58256936403066_1_alg».proof.Proof.Gen.Kernel.Frame
import proofs.«401209_j58256936403066_1_alg».proof.Proof.Gen.KernelIdeal
import proofs.«401209_j58256936403066_1_alg».proof.Proof.Gen.KernelIdeal.Frame
import proofs.«401209_j58256936403066_1_alg».proof.Proof.Gen.ReferenceIdeal
import proofs.«401209_j58256936403066_1_alg».proof.Proof.Gen.Pre_finite_inputs
import proofs.«401209_j58256936403066_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.RV.run m ρ)

/-- Both idealized programs end with the same result: the kernel program's result buffer is read through its
    segments as the shared form with the kernel's variance, which under the precondition is the reference's
    composed term; the reference's run ends at that term of arguments that agree. -/
theorem algebraic : Cert.algebraic_KernelIdeal_ReferenceIdeal := by
  intro m ρ m' ρ' hpre hagree
  refine ⟨fun c => Cert.ReferenceIdeal.RV.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨(h c).1.trans ?_, (h c).2⟩)
      (Cert.KernelIdeal.KRun.run (F := Ideal) m ρ)
    have hp := Cert.PreFacts.of_pre _ _ _ _ _ _ _ _ _ _ _ _ _ _ _ _ _ (hpre c)
    refine (Cert.KernelIdeal.KV.result m ρ c hp.2.2.1).trans ?_
    exact Cert.Proof.Bridge.forms_agree _ _ _ _ _ _ _ _ _ _ _ _ _ _ _ _ _
      hp.1 hp.2.1 hp.2.2.2.1 hp.2.2.2.2.1 hp.2.2.2.2.2.1 hp.2.2.2.2.2.2.1 hp.2.2.2.2.2.2.2.1 hp.2.2.2.2.2.2.2.2.1 hp.2.2.2.2.2.2.2.2.2.1 hp.2.2.2.2.2.2.2.2.2.2.1 hp.2.2.2.2.2.2.2.2.2.2.2.1 hp.2.2.2.2.2.2.2.2.2.2.2.2.1 hp.2.2.2.2.2.2.2.2.2.2.2.2.2.1 hp.2.2.2.2.2.2.2.2.2.2.2.2.2.2.1
  · refine (θ_run Cert.ReferenceIdeal.defs _ _).mono (fun r h c => ⟨(h c).1.trans ?_, (h c).2⟩)
      (Cert.ReferenceIdeal.RV.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
